-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S16384x1 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x13 : Shape := ⟨2, ![524288, 13]⟩
abbrev S524288 : Shape := ⟨1, ![524288]⟩
abbrev S524288x64 : Shape := ⟨2, ![524288, 64]⟩
abbrev S13x64 : Shape := ⟨2, ![13, 64]⟩
abbrev S_ : Shape := ⟨0, ![]⟩

class Facts : Prop where
  bcast_S_S524288x13 : S_.BroadcastsInDim S524288x13 (![] : Fin 0 → Fin S524288x13.rank)
  reducesTo_S524288x13_S_d0_1 : S524288x13.ReducesTo [0, 1] S_
  h_S_ : 0 < S_.numel
  bcast_S_S524288x64 : S_.BroadcastsInDim S524288x64 (![] : Fin 0 → Fin S524288x64.rank)
  reducesTo_S524288x64_S_d0_1 : S524288x64.ReducesTo [0, 1] S_
  bcast_S_S13x64 : S_.BroadcastsInDim S13x64 (![] : Fin 0 → Fin S13x64.rank)
  reducesTo_S13x64_S_d0_1 : S13x64.ReducesTo [0, 1] S_
  bcast_S_S524288 : S_.BroadcastsInDim S524288 (![] : Fin 0 → Fin S524288.rank)
  reducesTo_S524288_S_d0 : S524288.ReducesTo [0] S_

variable [Facts]

def fn_part1 {F : FTy → Type} [FloatOps F] (main_arg1 : IVec S524288 32) (main_arg3 : IVec S524288 32) (main_v13 : IVec S_ 1) (main_v15 : IVec S524288 1) (main_c_5 : IVec S_ 32) : IVec S_ 1 :=
  let main_v16 : IVec S524288 32 := broadcastInDim S524288 ![] bcast_S_S524288 main_c_5
  let main_v17 : IVec S524288 1 := cmpi .slt main_arg1 main_v16
  let main_v18 : IVec S524288 1 := andi main_v15 main_v17
  let main_c_6 : IVec S_ 1 := constantI S_ 1 1#1
  let main_v19 : IVec S_ 1 := (fun x v => Host.reduce IntOp.andi x v reducesTo_S524288_S_d0 h_S_) main_v18 main_c_6
  let main_v20 : IVec S_ 1 := andi main_v13 main_v19
  let main_c_7 : IVec S_ 32 := constantI S_ 32 0#32
  let main_v21 : IVec S524288 32 := broadcastInDim S524288 ![] bcast_S_S524288 main_c_7
  let main_v22 : IVec S524288 1 := cmpi .sge main_arg3 main_v21
  let main_c_8 : IVec S_ 32 := constantI S_ 32 8#32
  let main_v23 : IVec S524288 32 := broadcastInDim S524288 ![] bcast_S_S524288 main_c_8
  let main_v24 : IVec S524288 1 := cmpi .slt main_arg3 main_v23
  let main_v25 : IVec S524288 1 := andi main_v22 main_v24
  let main_c_9 : IVec S_ 1 := constantI S_ 1 1#1
  let main_v26 : IVec S_ 1 := (fun x v => Host.reduce IntOp.andi x v reducesTo_S524288_S_d0 h_S_) main_v25 main_c_9
  let main_v27 : IVec S_ 1 := andi main_v20 main_v26
  main_v27

def fn {F : FTy → Type} [FloatOps F] (main_arg0 : FVec F S524288x13 .f32) (main_arg1 : IVec S524288 32) (main_arg2 : FVec F S524288x64 .f32) (main_arg3 : IVec S524288 32) (main_arg4 : FVec F S13x64 .f32) : IVec S_ 1 :=
  let main_v0 : FVec F S524288x13 .f32 := Host.absf main_arg0
  let main_cst : FVec F S_ .f32 := constant S_ .f32 0x7F800000#32
  let main_v1 : FVec F S524288x13 .f32 := broadcastInDim S524288x13 ![] bcast_S_S524288x13 main_cst
  let main_v2 : IVec S524288x13 1 := cmpf .olt main_v0 main_v1
  let main_c : IVec S_ 1 := constantI S_ 1 1#1
  let main_v3 : IVec S_ 1 := (fun x v => Host.reduce IntOp.andi x v reducesTo_S524288x13_S_d0_1 h_S_) main_v2 main_c
  let main_v4 : FVec F S524288x64 .f32 := Host.absf main_arg2
  let main_cst_0 : FVec F S_ .f32 := constant S_ .f32 0x7F800000#32
  let main_v5 : FVec F S524288x64 .f32 := broadcastInDim S524288x64 ![] bcast_S_S524288x64 main_cst_0
  let main_v6 : IVec S524288x64 1 := cmpf .olt main_v4 main_v5
  let main_c_1 : IVec S_ 1 := constantI S_ 1 1#1
  let main_v7 : IVec S_ 1 := (fun x v => Host.reduce IntOp.andi x v reducesTo_S524288x64_S_d0_1 h_S_) main_v6 main_c_1
  let main_v8 : IVec S_ 1 := andi main_v3 main_v7
  let main_v9 : FVec F S13x64 .f32 := Host.absf main_arg4
  let main_cst_2 : FVec F S_ .f32 := constant S_ .f32 0x7F800000#32
  let main_v10 : FVec F S13x64 .f32 := broadcastInDim S13x64 ![] bcast_S_S13x64 main_cst_2
  let main_v11 : IVec S13x64 1 := cmpf .olt main_v9 main_v10
  let main_c_3 : IVec S_ 1 := constantI S_ 1 1#1
  let main_v12 : IVec S_ 1 := (fun x v => Host.reduce IntOp.andi x v reducesTo_S13x64_S_d0_1 h_S_) main_v11 main_c_3
  let main_v13 : IVec S_ 1 := andi main_v8 main_v12
  let main_c_4 : IVec S_ 32 := constantI S_ 32 4294967295#32
  let main_v14 : IVec S524288 32 := broadcastInDim S524288 ![] bcast_S_S524288 main_c_4
  let main_v15 : IVec S524288 1 := cmpi .sge main_arg1 main_v14
  let main_c_5 : IVec S_ 32 := constantI S_ 32 13#32
  fn_part1 (F := F) main_arg1 main_arg3 main_v13 main_v15 main_c_5
-- ==== Kernel.lean ====
abbrev S524288x13 : Shape := ⟨2, ![524288, 13]⟩
abbrev S524288 : Shape := ⟨1, ![524288]⟩
abbrev S524288x64 : Shape := ⟨2, ![524288, 64]⟩
abbrev S13x64 : Shape := ⟨2, ![13, 64]⟩
abbrev S_ : Shape := ⟨0, ![]⟩
abbrev S1x524288 : Shape := ⟨2, ![1, 524288]⟩
abbrev S2x104x67 : Shape := ⟨3, ![2, 104, 67]⟩
abbrev S16384x64 : Shape := ⟨2, ![16384, 64]⟩
abbrev S1x16384 : Shape := ⟨2, ![1, 16384]⟩
abbrev S1x104x67 : Shape := ⟨3, ![1, 104, 67]⟩
abbrev S16384 : Shape := ⟨1, ![16384]⟩
abbrev S16384x1 : Shape := ⟨2, ![16384, 1]⟩
abbrev S16384x67 : Shape := ⟨2, ![16384, 67]⟩
abbrev S104x16384 : Shape := ⟨2, ![104, 16384]⟩
abbrev S104x67 : Shape := ⟨2, ![104, 67]⟩
abbrev S104x64 : Shape := ⟨2, ![104, 64]⟩
abbrev S8x13x64 : Shape := ⟨3, ![8, 13, 64]⟩
abbrev S104x1 : Shape := ⟨2, ![104, 1]⟩
abbrev S104 : Shape := ⟨1, ![104]⟩
abbrev S8x13 : Shape := ⟨2, ![8, 13]⟩
abbrev S1x13x64 : Shape := ⟨3, ![1, 13, 64]⟩
abbrev S13 : Shape := ⟨1, ![13]⟩
abbrev S1x13 : Shape := ⟨2, ![1, 13]⟩
abbrev S8 : Shape := ⟨1, ![8]⟩
abbrev S8x13x1 : Shape := ⟨3, ![8, 13, 1]⟩
abbrev S8x13x1x64 : Shape := ⟨4, ![8, 13, 1, 64]⟩
abbrev S8x1x13x64 : Shape := ⟨4, ![8, 1, 13, 64]⟩
abbrev S8x13x13x64 : Shape := ⟨4, ![8, 13, 13, 64]⟩
abbrev S8x13x13 : Shape := ⟨3, ![8, 13, 13]⟩
abbrev S13x13 : Shape := ⟨2, ![13, 13]⟩
abbrev S8x1x13 : Shape := ⟨3, ![8, 1, 13]⟩
abbrev S1x13x13 : Shape := ⟨3, ![1, 13, 13]⟩

abbrev nBuf : Space → Nat
  | .hbm => 146
  | .vmem => 6
  | .smem => 0
  | _ => 0

abbrev hbmTy0_0 (i : Nat) : BufTy := match i % 128 with
  | 0 => ⟨S524288x13, .f32⟩
  | 1 => ⟨S524288, .i32⟩
  | 2 => ⟨S524288x64, .f32⟩
  | 3 => ⟨S524288, .i32⟩
  | 4 => ⟨S13x64, .f32⟩
  | 5 => ⟨S_, .i32⟩
  | 6 => ⟨S524288, .i32⟩
  | 7 => ⟨S524288, .i1⟩
  | 8 => ⟨S_, .i32⟩
  | 9 => ⟨S_, .i32⟩
  | 10 => ⟨S524288, .i32⟩
  | 11 => ⟨S524288, .i32⟩
  | 12 => ⟨S_, .i32⟩
  | 13 => ⟨S524288, .i32⟩
  | 14 => ⟨S524288, .i32⟩
  | 15 => ⟨S524288, .i32⟩
  | 16 => ⟨S_, .i32⟩
  | 17 => ⟨S_, .i32⟩
  | 18 => ⟨S524288, .i32⟩
  | 19 => ⟨S524288, .i32⟩
  | 20 => ⟨S1x524288, .i32⟩
  | 21 => ⟨S2x104x67, .f32⟩
  | 22 => ⟨S_, .f32⟩
  | 23 => ⟨S104x67, .f32⟩
  | 24 => ⟨S104x64, .f32⟩
  | 25 => ⟨S8x13x64, .f32⟩
  | 26 => ⟨S104x1, .f32⟩
  | 27 => ⟨S104, .f32⟩
  | 28 => ⟨S8x13, .f32⟩
  | 29 => ⟨S104x1, .f32⟩
  | 30 => ⟨S104, .f32⟩
  | 31 => ⟨S104x1, .f32⟩
  | 32 => ⟨S104, .f32⟩
  | 33 => ⟨S104, .f32⟩
  | 34 => ⟨S8x13, .f32⟩
  | 35 => ⟨S1x13x64, .f32⟩
  | 36 => ⟨S8x13x64, .f32⟩
  | 37 => ⟨S8x13x64, .f32⟩
  | 38 => ⟨S_, .f32⟩
  | 39 => ⟨S8x13, .f32⟩
  | 40 => ⟨S13x64, .f32⟩
  | 41 => ⟨S_, .f32⟩
  | 42 => ⟨S13, .f32⟩
  | 43 => ⟨S_, .f32⟩
  | 44 => ⟨S8x13, .f32⟩
  | 45 => ⟨S8x13, .f32⟩
  | 46 => ⟨S8x13, .f32⟩
  | 47 => ⟨S1x13, .f32⟩
  | 48 => ⟨S8x13, .f32⟩
  | 49 => ⟨S8x13, .f32⟩
  | 50 => ⟨S8x13, .f32⟩
  | 51 => ⟨S_, .f32⟩
  | 52 => ⟨S8, .f32⟩
  | 53 => ⟨S_, .f32⟩
  | 54 => ⟨S8, .f32⟩
  | 55 => ⟨S_, .f32⟩
  | 56 => ⟨S8, .f32⟩
  | 57 => ⟨S8, .i1⟩
  | 58 => ⟨S_, .f32⟩
  | 59 => ⟨S8, .f32⟩
  | 60 => ⟨S8, .f32⟩
  | 61 => ⟨S8, .f32⟩
  | 62 => ⟨S_, .f32⟩
  | 63 => ⟨S8x13, .f32⟩
  | 64 => ⟨S8x13, .i1⟩
  | 65 => ⟨S_, .f32⟩
  | 66 => ⟨S8x13, .f32⟩
  | 67 => ⟨S8x13, .f32⟩
  | 68 => ⟨S8x13x1, .f32⟩
  | 69 => ⟨S8x13x64, .f32⟩
  | 70 => ⟨S8x13x64, .f32⟩
  | 71 => ⟨S8x13x1x64, .f32⟩
  | 72 => ⟨S8x1x13x64, .f32⟩
  | 73 => ⟨S8x13x13x64, .f32⟩
  | 74 => ⟨S8x13x13x64, .f32⟩
  | 75 => ⟨S8x13x13x64, .f32⟩
  | 76 => ⟨S8x13x13x64, .f32⟩
  | 77 => ⟨S_, .f32⟩
  | 78 => ⟨S8x13x13, .f32⟩
  | 79 => ⟨S13x13, .i32⟩
  | 80 => ⟨S13x13, .i32⟩
  | 81 => ⟨S_, .i32⟩
  | 82 => ⟨S13x13, .i32⟩
  | 83 => ⟨S13x13, .i32⟩
  | 84 => ⟨S13x13, .i1⟩
  | 85 => ⟨S8x13x1, .i1⟩
  | 86 => ⟨S8x1x13, .i1⟩
  | 87 => ⟨S8x13x13, .i1⟩
  | 88 => ⟨S8x13x13, .i1⟩
  | 89 => ⟨S8x13x13, .i1⟩
  | 90 => ⟨S13x13, .i1⟩
  | 91 => ⟨S1x13x13, .i1⟩
  | 92 => ⟨S8x13x13, .i1⟩
  | 93 => ⟨S8x13x13, .i1⟩
  | 94 => ⟨S_, .f32⟩
  | 95 => ⟨S_, .f32⟩
  | 96 => ⟨S8x13x13, .f32⟩
  | 97 => ⟨S8x13x13, .f32⟩
  | 98 => ⟨S8x13x13, .f32⟩
  | 99 => ⟨S_, .f32⟩
  | 100 => ⟨S8x13x13, .f32⟩
  | 101 => ⟨S8x13x13, .f32⟩
  | 102 => ⟨S_, .f32⟩
  | 103 => ⟨S8x13x13, .f32⟩
  | 104 => ⟨S8x13x13, .f32⟩
  | 105 => ⟨S_, .f32⟩
  | 106 => ⟨S_, .f32⟩
  | 107 => ⟨S8x13x13, .f32⟩
  | 108 => ⟨S8x13x13, .f32⟩
  | 109 => ⟨S8x13x13, .i32⟩
  | 110 => ⟨S_, .i32⟩
  | 111 => ⟨S8, .i32⟩
  | 112 => ⟨S_, .f32⟩
  | 113 => ⟨S8, .f32⟩
  | 114 => ⟨S_, .i32⟩
  | 115 => ⟨S8, .i32⟩
  | 116 => ⟨S8, .i32⟩
  | 117 => ⟨S8, .f32⟩
  | 118 => ⟨S8, .f32⟩
  | 119 => ⟨S8, .i32⟩
  | 120 => ⟨S_, .i32⟩
  | 121 => ⟨S_, .i32⟩
  | 122 => ⟨S_, .i32⟩
  | 123 => ⟨S_, .i32⟩
  | 124 => ⟨S_, .f32⟩
  | 125 => ⟨S_, .f32⟩
  | 126 => ⟨S_, .f32⟩
  | 127 => ⟨S8, .f32⟩
  | _ => ⟨S524288x13, .f32⟩

abbrev hbmTy0_1 (i : Nat) : BufTy := match i % 128 with
  | 0 => ⟨S8, .f32⟩
  | 1 => ⟨S_, .f32⟩
  | 2 => ⟨S_, .f32⟩
  | 3 => ⟨S_, .f32⟩
  | 4 => ⟨S_, .f32⟩
  | 5 => ⟨S8, .f32⟩
  | 6 => ⟨S8, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | _ => ⟨S524288x13, .f32⟩

abbrev hbmTy (i : Nat) : BufTy := match i / 128 with
  | 0 => hbmTy0_0 i
  | 1 => hbmTy0_1 i
  | _ => ⟨S524288x13, .f32⟩

abbrev bufTy : (tb : Table) → Fin (tcTables nBuf tb) → BufTy
  | .hbm, ⟨i, _⟩ => hbmTy i
  | .local _ .vmem, ⟨0, _⟩ => ⟨S16384x64, .f32⟩
  | .local _ .vmem, ⟨1, _⟩ => ⟨S16384x64, .f32⟩
  | .local _ .vmem, ⟨2, _⟩ => ⟨S1x16384, .i32⟩
  | .local _ .vmem, ⟨3, _⟩ => ⟨S1x16384, .i32⟩
  | .local _ .vmem, ⟨4, _⟩ => ⟨S1x104x67, .f32⟩
  | .local _ .vmem, ⟨5, _⟩ => ⟨S1x104x67, .f32⟩
  | _, _ => ⟨S524288x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_v2 : Ref sig .tc := ⟨.hbm, 11, rfl⟩
abbrev main_c_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_2 : Ref sig .tc := ⟨.hbm, 16, rfl⟩
abbrev main_call1_v0 : Ref sig .tc := ⟨.hbm, 17, rfl⟩
abbrev main_call1_v1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_10 : Ref sig .tc := ⟨.hbm, 62, rfl⟩
abbrev main_v41 : Ref sig .tc := ⟨.hbm, 63, rfl⟩
abbrev main_v42 : Ref sig .tc := ⟨.hbm, 64, rfl⟩
abbrev main_cst_11 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_12 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_13 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_14 : Ref sig .tc := ⟨.hbm, 94, rfl⟩
abbrev main_call2_v0 : Ref sig .tc := ⟨.hbm, 95, rfl⟩
abbrev main_call2_v1 : Ref sig .tc := ⟨.hbm, 96, rfl⟩
abbrev main_v69 : Ref sig .tc := ⟨.hbm, 97, rfl⟩
abbrev main_v70 : Ref sig .tc := ⟨.hbm, 98, rfl⟩
abbrev main_cst_15 : Ref sig .tc := ⟨.hbm, 99, rfl⟩
abbrev main_v71 : Ref sig .tc := ⟨.hbm, 100, rfl⟩
abbrev main_v72 : Ref sig .tc := ⟨.hbm, 101, rfl⟩
abbrev main_cst_16 : Ref sig .tc := ⟨.hbm, 102, rfl⟩
abbrev main_v73 : Ref sig .tc := ⟨.hbm, 103, rfl⟩
abbrev main_v74 : Ref sig .tc := ⟨.hbm, 104, rfl⟩
abbrev main_cst_17 : Ref sig .tc := ⟨.hbm, 105, rfl⟩
abbrev main_call3_v0 : Ref sig .tc := ⟨.hbm, 106, rfl⟩
abbrev main_call3_v1 : Ref sig .tc := ⟨.hbm, 107, rfl⟩
abbrev main_v75 : Ref sig .tc := ⟨.hbm, 108, rfl⟩
abbrev main_v76 : Ref sig .tc := ⟨.hbm, 109, rfl⟩
abbrev main_c_18 : Ref sig .tc := ⟨.hbm, 110, rfl⟩
abbrev main_v77 : Ref sig .tc := ⟨.hbm, 111, rfl⟩
abbrev main_cst_19 : Ref sig .tc := ⟨.hbm, 112, rfl⟩
abbrev main_v78 : Ref sig .tc := ⟨.hbm, 113, rfl⟩
abbrev main_c_20 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_c_21 : Ref sig .tc := ⟨.hbm, 120, rfl⟩
abbrev main_v84 : Ref sig .tc := ⟨.hbm, 121, rfl⟩
abbrev main_c_22 : Ref sig .tc := ⟨.hbm, 122, rfl⟩
abbrev main_v85 : Ref sig .tc := ⟨.hbm, 123, rfl⟩
abbrev main_v86 : Ref sig .tc := ⟨.hbm, 124, rfl⟩
abbrev main_cst_23 : Ref sig .tc := ⟨.hbm, 125, rfl⟩
abbrev main_call4_v0 : Ref sig .tc := ⟨.hbm, 126, rfl⟩
abbrev main_call4_v1 : Ref sig .tc := ⟨.hbm, 127, rfl⟩
abbrev main_v87 : Ref sig .tc := ⟨.hbm, 128, rfl⟩
abbrev main_cst_24 : Ref sig .tc := ⟨.hbm, 129, rfl⟩
abbrev main_v88 : Ref sig .tc := ⟨.hbm, 130, rfl⟩
abbrev main_cst_25 : Ref sig .tc := ⟨.hbm, 131, rfl⟩
abbrev main_call5_v0 : Ref sig .tc := ⟨.hbm, 132, rfl⟩
abbrev main_call5_v1 : Ref sig .tc := ⟨.hbm, 133, rfl⟩
abbrev main_v89 : Ref sig .tc := ⟨.hbm, 134, rfl⟩
abbrev main_cst_26 : Ref sig .tc := ⟨.hbm, 135, rfl⟩
abbrev main_v90 : Ref sig .tc := ⟨.hbm, 136, rfl⟩
abbrev main_cst_27 : Ref sig .tc := ⟨.hbm, 137, rfl⟩
abbrev main_v91 : Ref sig .tc := ⟨.hbm, 138, rfl⟩
abbrev main_v92 : Ref sig .tc := ⟨.hbm, 139, rfl⟩
abbrev main_cst_28 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_cst_29 : Ref sig .tc := ⟨.hbm, 144, rfl⟩
abbrev main_v96 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16384x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x104x67 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S524288 : S_.BroadcastsInDim S524288 (![] : Fin 0 → Fin S524288.rank)
  shapeCasts_S524288_S1x524288 : S524288.ShapeCasts S1x524288
  inb_S1x104x67_S1x104x67_0_0_0 : ∀ a, (![0, 0, 0] : Fin 3 → Nat) a + S1x104x67.size a ≤ S1x104x67.size a
  h_S1x104x67 : 0 < S1x104x67.numel
  inb_S16384x64_S16384x64_0_0 : ∀ a, (![0, 0] : Fin 2 → Nat) a + S16384x64.size a ≤ S16384x64.size a
  h_S16384x64 : 0 < S16384x64.numel
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  bitsLt_bf16_f32 : FTy.bits .bf16 < FTy.bits .f32
  reduces_S16384x64_S16384 : S16384x64.Reduces [1] S16384
  shapeCasts_S16384_S16384x1 : S16384.ShapeCasts S16384x1
  concatenates_S16384x64_S16384x1_S16384x1_S16384x1_S16384x67_d1 : Shape.Concatenates [S16384x64, S16384x1, S16384x1, S16384x1] S16384x67 1
  iota_S104x16384_d0_w32 : S104x16384.Iotas .tc 32 [0]
  broadcasts_S1x16384_S104x16384 : S1x16384.Broadcasts S104x16384
  natLt_1_32 : 1 < 32
  shapeCasts_S1x104x67_S104x67 : S1x104x67.ShapeCasts S104x67
  shapeCasts_S104x67_S1x104x67 : S104x67.ShapeCasts S1x104x67
  reducesTo_S2x104x67_S104x67_d0 : S2x104x67.ReducesTo [0] S104x67
  h_S_ : 0 < S_.numel
  slices_S104x67_S104x64_0_0 : S104x67.Slices ![0, 0] S104x64
  shapeCasts_S104x64_S8x13x64 : S104x64.ShapeCasts S8x13x64
  slices_S104x67_S104x1_0_64 : S104x67.Slices ![0, 64] S104x1
  shapeCasts_S104x1_S104 : S104x1.ShapeCasts S104
  shapeCasts_S104_S8x13 : S104.ShapeCasts S8x13
  slices_S104x67_S104x1_0_65 : S104x67.Slices ![0, 65] S104x1
  slices_S104x67_S104x1_0_66 : S104x67.Slices ![0, 66] S104x1
  bcast_S13x64_S1x13x64_1_2 : S13x64.BroadcastsInDim S1x13x64 (![1, 2] : Fin 2 → Fin S1x13x64.rank)
  bcast_S1x13x64_S8x13x64_0_1_2 : S1x13x64.BroadcastsInDim S8x13x64 (![0, 1, 2] : Fin 3 → Fin S8x13x64.rank)
  reducesTo_S8x13x64_S8x13_d2 : S8x13x64.ReducesTo [2] S8x13
  reducesTo_S13x64_S13_d1 : S13x64.ReducesTo [1] S13
  bcast_S_S8x13 : S_.BroadcastsInDim S8x13 (![] : Fin 0 → Fin S8x13.rank)
  bcast_S13_S1x13_1 : S13.BroadcastsInDim S1x13 (![1] : Fin 1 → Fin S1x13.rank)
  bcast_S1x13_S8x13_0_1 : S1x13.BroadcastsInDim S8x13 (![0, 1] : Fin 2 → Fin S8x13.rank)
  reducesTo_S8x13_S8_d1 : S8x13.ReducesTo [1] S8
  bcast_S_S8 : S_.BroadcastsInDim S8 (![] : Fin 0 → Fin S8.rank)
  bcast_S8x13_S8x13x1_0_1 : S8x13.BroadcastsInDim S8x13x1 (![0, 1] : Fin 2 → Fin S8x13x1.rank)
  bcast_S8x13x1_S8x13x64_0_1_2 : S8x13x1.BroadcastsInDim S8x13x64 (![0, 1, 2] : Fin 3 → Fin S8x13x64.rank)
  bcast_S8x13x64_S8x13x1x64_0_1_3 : S8x13x64.BroadcastsInDim S8x13x1x64 (![0, 1, 3] : Fin 3 → Fin S8x13x1x64.rank)
  bcast_S8x13x64_S8x1x13x64_0_2_3 : S8x13x64.BroadcastsInDim S8x1x13x64 (![0, 2, 3] : Fin 3 → Fin S8x1x13x64.rank)
  bcast_S8x13x1x64_S8x13x13x64_0_1_2_3 : S8x13x1x64.BroadcastsInDim S8x13x13x64 (![0, 1, 2, 3] : Fin 4 → Fin S8x13x13x64.rank)
  bcast_S8x1x13x64_S8x13x13x64_0_1_2_3 : S8x1x13x64.BroadcastsInDim S8x13x13x64 (![0, 1, 2, 3] : Fin 4 → Fin S8x13x13x64.rank)
  reducesTo_S8x13x13x64_S8x13x13_d3 : S8x13x13x64.ReducesTo [3] S8x13x13
  bcast_S_S13x13 : S_.BroadcastsInDim S13x13 (![] : Fin 0 → Fin S13x13.rank)
  bcast_S8x13_S8x1x13_0_2 : S8x13.BroadcastsInDim S8x1x13 (![0, 2] : Fin 2 → Fin S8x1x13.rank)
  bcast_S8x13x1_S8x13x13_0_1_2 : S8x13x1.BroadcastsInDim S8x13x13 (![0, 1, 2] : Fin 3 → Fin S8x13x13.rank)
  bcast_S8x1x13_S8x13x13_0_1_2 : S8x1x13.BroadcastsInDim S8x13x13 (![0, 1, 2] : Fin 3 → Fin S8x13x13.rank)
  bcast_S13x13_S1x13x13_1_2 : S13x13.BroadcastsInDim S1x13x13 (![1, 2] : Fin 2 → Fin S1x13x13.rank)
  bcast_S1x13x13_S8x13x13_0_1_2 : S1x13x13.BroadcastsInDim S8x13x13 (![0, 1, 2] : Fin 3 → Fin S8x13x13.rank)
  bcast_S_S8x13x13 : S_.BroadcastsInDim S8x13x13 (![] : Fin 0 → Fin S8x13x13.rank)
  reducesTo_S8x13x13_S8_d1_2 : S8x13x13.ReducesTo [1, 2] S8
  reducesTo_S8_S_d0 : S8.ReducesTo [0] S_
  dot_S104x16384_S16384x67_S104x67_1_0_0_1_n_n_wf : DotDims.WF S104x16384 S16384x67 S104x67 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x64.size a ≤ S524288x64.size a
  hwx0_0 : ∀ i : grid0.Coords, EltTy.bits .f32 = 32 ∨ (Rect.block (s := S524288x64) S16384x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16384.size a ≤ S1x524288.size a
  hwx0_1 : ∀ i : grid0.Coords, EltTy.bits .i32 = 32 ∨ (Rect.block (s := S1x524288) S1x16384.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x104x67.size a ≤ S2x104x67.size a
  hwx0_2 : ∀ i : grid0.Coords, EltTy.bits .f32 = 32 ∨ (Rect.block (s := S2x104x67) S1x104x67.size (cc0_transform_2 i) (hinb0_2 i)).WholeWords (EltTy.packing .f32)

variable [Facts₀]

def dot_S104x16384_S16384x67_S104x67_1_0_0_1_n_n : DotDims S104x16384 S16384x67 S104x67 where
  lhsContracting := [1]
  rhsContracting := [0]
  lhsNonContracting := [0]
  rhsNonContracting := [1]
  lhsBatch := []
  rhsBatch := []
  wf := dot_S104x16384_S16384x67_S104x67_1_0_0_1_n_n_wf

abbrev win0_0 : Pipeline.Window sig grid0 :=
  Pipeline.Window.ofSpec (Memref.whole main_arg2) S16384x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x104x67.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S524288x13 : Shape := ⟨2, ![524288, 13]⟩
abbrev S524288 : Shape := ⟨1, ![524288]⟩
abbrev S524288x64 : Shape := ⟨2, ![524288, 64]⟩
abbrev S13x64 : Shape := ⟨2, ![13, 64]⟩
abbrev S_ : Shape := ⟨0, ![]⟩
abbrev S524288x1 : Shape := ⟨2, ![524288, 1]⟩
abbrev S8 : Shape := ⟨1, ![8]⟩
abbrev S104x64 : Shape := ⟨2, ![104, 64]⟩
abbrev S8x13x64 : Shape := ⟨3, ![8, 13, 64]⟩
abbrev S104 : Shape := ⟨1, ![104]⟩
abbrev S8x13 : Shape := ⟨2, ![8, 13]⟩
abbrev S8x13x1 : Shape := ⟨3, ![8, 13, 1]⟩
abbrev S8x13x1x64 : Shape := ⟨4, ![8, 13, 1, 64]⟩
abbrev S8x1x13x64 : Shape := ⟨4, ![8, 1, 13, 64]⟩
abbrev S8x13x13x64 : Shape := ⟨4, ![8, 13, 13, 64]⟩
abbrev S8x13x13 : Shape := ⟨3, ![8, 13, 13]⟩
abbrev S13x13 : Shape := ⟨2, ![13, 13]⟩
abbrev S8x1x13 : Shape := ⟨3, ![8, 1, 13]⟩
abbrev S1x13x13 : Shape := ⟨3, ![1, 13, 13]⟩

abbrev nBuf : Space → Nat
  | .hbm => 143
  | .vmem => 0
  | .smem => 0
  | _ => 0

abbrev hbmTy0_0 (i : Nat) : BufTy := match i % 128 with
  | 0 => ⟨S524288x13, .f32⟩
  | 1 => ⟨S524288, .i32⟩
  | 2 => ⟨S524288x64, .f32⟩
  | 3 => ⟨S524288, .i32⟩
  | 4 => ⟨S13x64, .f32⟩
  | 5 => ⟨S_, .i32⟩
  | 6 => ⟨S524288, .i32⟩
  | 7 => ⟨S524288, .i1⟩
  | 8 => ⟨S_, .i32⟩
  | 9 => ⟨S_, .i32⟩
  | 10 => ⟨S524288, .i32⟩
  | 11 => ⟨S524288, .i32⟩
  | 12 => ⟨S524288, .f32⟩
  | 13 => ⟨S_, .i32⟩
  | 14 => ⟨S524288, .i32⟩
  | 15 => ⟨S524288, .i1⟩
  | 16 => ⟨S_, .i32⟩
  | 17 => ⟨S524288, .i32⟩
  | 18 => ⟨S524288, .i32⟩
  | 19 => ⟨S524288, .i32⟩
  | 20 => ⟨S524288x1, .i32⟩
  | 21 => ⟨S524288x64, .f32⟩
  | 22 => ⟨S524288x64, .f32⟩
  | 23 => ⟨S524288x64, .f32⟩
  | 24 => ⟨S_, .f32⟩
  | 25 => ⟨S524288, .f32⟩
  | 26 => ⟨S524288, .f32⟩
  | 27 => ⟨S_, .f32⟩
  | 28 => ⟨S8, .f32⟩
  | 29 => ⟨S524288x1, .i32⟩
  | 30 => ⟨S8, .f32⟩
  | 31 => ⟨S_, .f32⟩
  | 32 => ⟨S8, .f32⟩
  | 33 => ⟨S524288x1, .i32⟩
  | 34 => ⟨S8, .f32⟩
  | 35 => ⟨S_, .f32⟩
  | 36 => ⟨S8, .f32⟩
  | 37 => ⟨S8, .i1⟩
  | 38 => ⟨S_, .f32⟩
  | 39 => ⟨S8, .f32⟩
  | 40 => ⟨S8, .f32⟩
  | 41 => ⟨S8, .f32⟩
  | 42 => ⟨S_, .i32⟩
  | 43 => ⟨S524288, .i32⟩
  | 44 => ⟨S524288, .i32⟩
  | 45 => ⟨S524288, .i32⟩
  | 46 => ⟨S524288x1, .f32⟩
  | 47 => ⟨S524288x64, .f32⟩
  | 48 => ⟨S524288x64, .f32⟩
  | 49 => ⟨S_, .f32⟩
  | 50 => ⟨S104x64, .f32⟩
  | 51 => ⟨S524288x1, .i32⟩
  | 52 => ⟨S104x64, .f32⟩
  | 53 => ⟨S8x13x64, .f32⟩
  | 54 => ⟨S_, .f32⟩
  | 55 => ⟨S104, .f32⟩
  | 56 => ⟨S524288x1, .i32⟩
  | 57 => ⟨S104, .f32⟩
  | 58 => ⟨S8x13, .f32⟩
  | 59 => ⟨S_, .f32⟩
  | 60 => ⟨S8x13, .f32⟩
  | 61 => ⟨S8x13, .i1⟩
  | 62 => ⟨S_, .f32⟩
  | 63 => ⟨S8x13, .f32⟩
  | 64 => ⟨S8x13, .f32⟩
  | 65 => ⟨S8x13x1, .f32⟩
  | 66 => ⟨S8x13x64, .f32⟩
  | 67 => ⟨S8x13x64, .f32⟩
  | 68 => ⟨S8x13x1x64, .f32⟩
  | 69 => ⟨S8x1x13x64, .f32⟩
  | 70 => ⟨S8x13x13x64, .f32⟩
  | 71 => ⟨S8x13x13x64, .f32⟩
  | 72 => ⟨S8x13x13x64, .f32⟩
  | 73 => ⟨S8x13x13x64, .f32⟩
  | 74 => ⟨S_, .f32⟩
  | 75 => ⟨S8x13x13, .f32⟩
  | 76 => ⟨S13x13, .i32⟩
  | 77 => ⟨S13x13, .i32⟩
  | 78 => ⟨S_, .i32⟩
  | 79 => ⟨S13x13, .i32⟩
  | 80 => ⟨S13x13, .i32⟩
  | 81 => ⟨S13x13, .i1⟩
  | 82 => ⟨S8x13x1, .i1⟩
  | 83 => ⟨S8x1x13, .i1⟩
  | 84 => ⟨S8x13x13, .i1⟩
  | 85 => ⟨S8x13x13, .i1⟩
  | 86 => ⟨S8x13x13, .i1⟩
  | 87 => ⟨S13x13, .i1⟩
  | 88 => ⟨S1x13x13, .i1⟩
  | 89 => ⟨S8x13x13, .i1⟩
  | 90 => ⟨S8x13x13, .i1⟩
  | 91 => ⟨S_, .f32⟩
  | 92 => ⟨S_, .f32⟩
  | 93 => ⟨S8x13x13, .f32⟩
  | 94 => ⟨S8x13x13, .f32⟩
  | 95 => ⟨S8x13x13, .f32⟩
  | 96 => ⟨S_, .f32⟩
  | 97 => ⟨S8x13x13, .f32⟩
  | 98 => ⟨S8x13x13, .f32⟩
  | 99 => ⟨S_, .f32⟩
  | 100 => ⟨S8x13x13, .f32⟩
  | 101 => ⟨S8x13x13, .f32⟩
  | 102 => ⟨S_, .f32⟩
  | 103 => ⟨S_, .f32⟩
  | 104 => ⟨S8x13x13, .f32⟩
  | 105 => ⟨S8x13x13, .f32⟩
  | 106 => ⟨S8x13x13, .i32⟩
  | 107 => ⟨S_, .i32⟩
  | 108 => ⟨S8, .i32⟩
  | 109 => ⟨S_, .f32⟩
  | 110 => ⟨S8, .f32⟩
  | 111 => ⟨S_, .i32⟩
  | 112 => ⟨S8, .i32⟩
  | 113 => ⟨S8, .i32⟩
  | 114 => ⟨S8, .f32⟩
  | 115 => ⟨S8, .f32⟩
  | 116 => ⟨S8, .i32⟩
  | 117 => ⟨S_, .i32⟩
  | 118 => ⟨S_, .i32⟩
  | 119 => ⟨S_, .i32⟩
  | 120 => ⟨S_, .i32⟩
  | 121 => ⟨S_, .f32⟩
  | 122 => ⟨S_, .f32⟩
  | 123 => ⟨S_, .f32⟩
  | 124 => ⟨S8, .f32⟩
  | 125 => ⟨S8, .f32⟩
  | 126 => ⟨S_, .f32⟩
  | 127 => ⟨S_, .f32⟩
  | _ => ⟨S524288x13, .f32⟩

abbrev hbmTy0_1 (i : Nat) : BufTy := match i % 128 with
  | 0 => ⟨S_, .f32⟩
  | 1 => ⟨S_, .f32⟩
  | 2 => ⟨S8, .f32⟩
  | 3 => ⟨S8, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | _ => ⟨S524288x13, .f32⟩

abbrev hbmTy (i : Nat) : BufTy := match i / 128 with
  | 0 => hbmTy0_0 i
  | 1 => hbmTy0_1 i
  | _ => ⟨S524288x13, .f32⟩

abbrev bufTy : (tb : Table) → Fin (tcTables nBuf tb) → BufTy
  | .hbm, ⟨i, _⟩ => hbmTy i
  | _, _ => ⟨S524288x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_v41 : Ref sig .tc := ⟨.hbm, 61, rfl⟩
abbrev main_cst_11 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_12 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_13 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_14 : Ref sig .tc := ⟨.hbm, 91, rfl⟩
abbrev main_call1_v0 : Ref sig .tc := ⟨.hbm, 92, rfl⟩
abbrev main_call1_v1 : Ref sig .tc := ⟨.hbm, 93, rfl⟩
abbrev main_v68 : Ref sig .tc := ⟨.hbm, 94, rfl⟩
abbrev main_v69 : Ref sig .tc := ⟨.hbm, 95, rfl⟩
abbrev main_cst_15 : Ref sig .tc := ⟨.hbm, 96, rfl⟩
abbrev main_v70 : Ref sig .tc := ⟨.hbm, 97, rfl⟩
abbrev main_v71 : Ref sig .tc := ⟨.hbm, 98, rfl⟩
abbrev main_cst_16 : Ref sig .tc := ⟨.hbm, 99, rfl⟩
abbrev main_v72 : Ref sig .tc := ⟨.hbm, 100, rfl⟩
abbrev main_v73 : Ref sig .tc := ⟨.hbm, 101, rfl⟩
abbrev main_cst_17 : Ref sig .tc := ⟨.hbm, 102, rfl⟩
abbrev main_call2_v0 : Ref sig .tc := ⟨.hbm, 103, rfl⟩
abbrev main_call2_v1 : Ref sig .tc := ⟨.hbm, 104, rfl⟩
abbrev main_v74 : Ref sig .tc := ⟨.hbm, 105, rfl⟩
abbrev main_v75 : Ref sig .tc := ⟨.hbm, 106, rfl⟩
abbrev main_c_18 : Ref sig .tc := ⟨.hbm, 107, rfl⟩
abbrev main_v76 : Ref sig .tc := ⟨.hbm, 108, rfl⟩
abbrev main_cst_19 : Ref sig .tc := ⟨.hbm, 109, rfl⟩
abbrev main_v77 : Ref sig .tc := ⟨.hbm, 110, rfl⟩
abbrev main_c_20 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_c_21 : Ref sig .tc := ⟨.hbm, 117, rfl⟩
abbrev main_v83 : Ref sig .tc := ⟨.hbm, 118, rfl⟩
abbrev main_c_22 : Ref sig .tc := ⟨.hbm, 119, rfl⟩
abbrev main_v84 : Ref sig .tc := ⟨.hbm, 120, rfl⟩
abbrev main_v85 : Ref sig .tc := ⟨.hbm, 121, rfl⟩
abbrev main_cst_23 : Ref sig .tc := ⟨.hbm, 122, rfl⟩
abbrev main_call3_v0 : Ref sig .tc := ⟨.hbm, 123, rfl⟩
abbrev main_call3_v1 : Ref sig .tc := ⟨.hbm, 124, rfl⟩
abbrev main_v86 : Ref sig .tc := ⟨.hbm, 125, rfl⟩
abbrev main_cst_24 : Ref sig .tc := ⟨.hbm, 126, rfl⟩
abbrev main_v87 : Ref sig .tc := ⟨.hbm, 127, rfl⟩
abbrev main_cst_25 : Ref sig .tc := ⟨.hbm, 128, rfl⟩
abbrev main_call4_v0 : Ref sig .tc := ⟨.hbm, 129, rfl⟩
abbrev main_call4_v1 : Ref sig .tc := ⟨.hbm, 130, rfl⟩
abbrev main_v88 : Ref sig .tc := ⟨.hbm, 131, rfl⟩
abbrev main_cst_26 : Ref sig .tc := ⟨.hbm, 132, rfl⟩
abbrev main_v89 : Ref sig .tc := ⟨.hbm, 133, rfl⟩
abbrev main_cst_27 : Ref sig .tc := ⟨.hbm, 134, rfl⟩
abbrev main_v90 : Ref sig .tc := ⟨.hbm, 135, rfl⟩
abbrev main_v91 : Ref sig .tc := ⟨.hbm, 136, rfl⟩
abbrev main_cst_28 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_29 : Ref sig .tc := ⟨.hbm, 141, rfl⟩
abbrev main_v95 : Ref sig .tc := ⟨.hbm, 142, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  reducesTo_S524288x64_S524288_d1 : S524288x64.ReducesTo [1] S524288
  h_S_ : 0 < S_.numel
  bcast_S_S8 : S_.BroadcastsInDim S8 (![] : Fin 0 → Fin S8.rank)
  bcast_S524288x1_S524288x64_0_1 : S524288x1.BroadcastsInDim S524288x64 (![0, 1] : Fin 2 → Fin S524288x64.rank)
  bcast_S_S104x64 : S_.BroadcastsInDim S104x64 (![] : Fin 0 → Fin S104x64.rank)
  shapeCasts_S104x64_S8x13x64 : S104x64.ShapeCasts S8x13x64
  bcast_S_S104 : S_.BroadcastsInDim S104 (![] : Fin 0 → Fin S104.rank)
  shapeCasts_S104_S8x13 : S104.ShapeCasts S8x13
  bcast_S_S8x13 : S_.BroadcastsInDim S8x13 (![] : Fin 0 → Fin S8x13.rank)
  bcast_S8x13_S8x13x1_0_1 : S8x13.BroadcastsInDim S8x13x1 (![0, 1] : Fin 2 → Fin S8x13x1.rank)
  bcast_S8x13x1_S8x13x64_0_1_2 : S8x13x1.BroadcastsInDim S8x13x64 (![0, 1, 2] : Fin 3 → Fin S8x13x64.rank)
  bcast_S8x13x64_S8x13x1x64_0_1_3 : S8x13x64.BroadcastsInDim S8x13x1x64 (![0, 1, 3] : Fin 3 → Fin S8x13x1x64.rank)
  bcast_S8x13x64_S8x1x13x64_0_2_3 : S8x13x64.BroadcastsInDim S8x1x13x64 (![0, 2, 3] : Fin 3 → Fin S8x1x13x64.rank)
  bcast_S8x13x1x64_S8x13x13x64_0_1_2_3 : S8x13x1x64.BroadcastsInDim S8x13x13x64 (![0, 1, 2, 3] : Fin 4 → Fin S8x13x13x64.rank)
  bcast_S8x1x13x64_S8x13x13x64_0_1_2_3 : S8x1x13x64.BroadcastsInDim S8x13x13x64 (![0, 1, 2, 3] : Fin 4 → Fin S8x13x13x64.rank)
  reducesTo_S8x13x13x64_S8x13x13_d3 : S8x13x13x64.ReducesTo [3] S8x13x13
  bcast_S_S13x13 : S_.BroadcastsInDim S13x13 (![] : Fin 0 → Fin S13x13.rank)
  bcast_S8x13_S8x1x13_0_2 : S8x13.BroadcastsInDim S8x1x13 (![0, 2] : Fin 2 → Fin S8x1x13.rank)
  bcast_S8x13x1_S8x13x13_0_1_2 : S8x13x1.BroadcastsInDim S8x13x13 (![0, 1, 2] : Fin 3 → Fin S8x13x13.rank)
  bcast_S8x1x13_S8x13x13_0_1_2 : S8x1x13.BroadcastsInDim S8x13x13 (![0, 1, 2] : Fin 3 → Fin S8x13x13.rank)
  bcast_S13x13_S1x13x13_1_2 : S13x13.BroadcastsInDim S1x13x13 (![1, 2] : Fin 2 → Fin S1x13x13.rank)
  bcast_S1x13x13_S8x13x13_0_1_2 : S1x13x13.BroadcastsInDim S8x13x13 (![0, 1, 2] : Fin 3 → Fin S8x13x13.rank)
  bcast_S_S8x13x13 : S_.BroadcastsInDim S8x13x13 (![] : Fin 0 → Fin S8x13x13.rank)
  natLt_1_32 : 1 < 32
  reducesTo_S8x13x13_S8_d1_2 : S8x13x13.ReducesTo [1, 2] S8
  reducesTo_S8_S_d0 : S8.ReducesTo [0] S_
  gather_S13x64_S524288x1_S524288x64_1_0_n_n_0_1_164_wf : GatherDims.WF S13x64 S524288x1 S524288x64 [1] [0] [] [0] [] 1 ![1, 64]
  scatter_S8_S524288x1_S524288_n_0_0_1_wf : ScatterDims.WF S8 S524288x1 S524288 [] [0] [0] 1
  scatter_S104x64_S524288x1_S524288x64_1_0_0_1_wf : ScatterDims.WF S104x64 S524288x1 S524288x64 [1] [0] [0] 1
  scatter_S104_S524288x1_S524288_n_0_0_1_wf : ScatterDims.WF S104 S524288x1 S524288 [] [0] [0] 1

variable [Facts₀]

def gather_S13x64_S524288x1_S524288x64_1_0_n_n_0_1_164 : GatherDims S13x64 S524288x1 S524288x64 where
  offsetDims := [1]
  collapsedSliceDims := [0]
  operandBatchingDims := []
  startIndicesBatchingDims := []
  startIndexMap := [0]
  indexVectorDim := 1
  sliceSizes := ![1, 64]
  wf := gather_S13x64_S524288x1_S524288x64_1_0_n_n_0_1_164_wf
def scatter_S8_S524288x1_S524288_n_0_0_1 : ScatterDims S8 S524288x1 S524288 where
  updateWindowDims := []
  insertedWindowDims := [0]
  scatterDimsToOperandDims := [0]
  indexVectorDim := 1
  wf := scatter_S8_S524288x1_S524288_n_0_0_1_wf
def scatter_S104x64_S524288x1_S524288x64_1_0_0_1 : ScatterDims S104x64 S524288x1 S524288x64 where
  updateWindowDims := [1]
  insertedWindowDims := [0]
  scatterDimsToOperandDims := [0]
  indexVectorDim := 1
  wf := scatter_S104x64_S524288x1_S524288x64_1_0_0_1_wf
def scatter_S104_S524288x1_S524288_n_0_0_1 : ScatterDims S104 S524288x1 S524288 where
  updateWindowDims := []
  insertedWindowDims := [0]
  scatterDimsToOperandDims := [0]
  indexVectorDim := 1
  wf := scatter_S104_S524288x1_S524288_n_0_0_1_wf

class Facts : Prop extends Facts₀ where

variable [Facts]
-- ==== Proof.BKit.lean ====
/- The frame kit of the kernel program: @main around its one region, the buffer contents the region finds,
   the windows' blocks read off them, and the frame claim's post from a frame run. -/
import proofs.«412901_j12807592477411_3_alg».proof.Proof.Gen.Kernel.Launch
import proofs.«412901_j12807592477411_3_alg».proof.Proof.Gen.Kernel.Skeleton
import proofs.«412901_j12807592477411_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- The five stretches of host operations before the region (sixteen operations: they compute the segment word of
    every row and lay it out as one row of 524288 words). -/
abbrev preOps : List (List (HloOp τ sig (Elt F))) := [Gen.hostOps0, Gen.hostOps0_1, Gen.hostOps0_2, Gen.hostOps0_3, Gen.hostOps0_4]
/-- The nine stretches after it (124 operations: the loss from the two partial tables the region leaves). -/
abbrev tailOps : List (List (HloOp τ sig (Elt F))) := [Gen.hostOps1, Gen.hostOps1_1, Gen.hostOps1_2, Gen.hostOps1_3, Gen.hostOps1_4, Gen.hostOps1_5, Gen.hostOps1_6, Gen.hostOps1_7, Gen.hostOps1_8]

/-- Core c's TensorCore buffer contents when the region is entered, as a valuation: the launch contents after the
    sixteen operations before the region. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

/-! ### Which buffers the operations leave alone

Every host operation writes exactly one buffer, its result. Which reference that is decides by comparing references;
so a stretch leaves a list L of references alone as soon as no result of it is in L. -/

/-- The five arguments. -/
private abbrev argRefs : List (Ref sig .tc) := [main_arg0, main_arg1, main_arg2, main_arg3, main_arg4]
/-- The arguments and the three arrays of the pipeline (the second array is the segment row, the third the pair of
    partial tables). -/
private abbrev keptRefs : List (Ref sig .tc) := [main_arg0, main_arg1, main_arg2, main_arg3, main_arg4, main_v7, main_v8]

/-- Every operation of the stretch writes no reference of L. -/
private abbrev Avoids (L : List (Ref sig .tc)) (ops : List (HloOp τ sig (Elt F))) : Prop :=
  ops.Forall fun op => ∀ r ∈ L, Proc.devRef .tc r ∉ op.writes

/-- An operation whose one written buffer is y, a reference outside L, writes no reference of L. -/
private theorem avoids_of {L : List (Ref sig .tc)} {op : HloOp τ sig (Elt F)} {y : Ref sig .tc}
    (hw : op.writes = {Proc.devRef .tc y}) (hy : y ∉ L) : ∀ r ∈ L, Proc.devRef .tc r ∉ op.writes := by
  intro r hr h
  rw [hw, Finset.mem_singleton] at h
  exact hy (Proc.devRef_injective _ h ▸ hr)

private theorem pre_avoids0 : Avoids (F := F) argRefs Gen.hostOps0 := by
  simp only [List.Forall]; repeat' constructor
  all_goals exact avoids_of rfl (by decide)
private theorem pre_avoids1 : Avoids (F := F) argRefs Gen.hostOps0_1 := by
  simp only [List.Forall]; repeat' constructor
  all_goals exact avoids_of rfl (by decide)
private theorem pre_avoids2 : Avoids (F := F) argRefs Gen.hostOps0_2 := by
  simp only [List.Forall]; repeat' constructor
  all_goals exact avoids_of rfl (by decide)
private theorem pre_avoids3 : Avoids (F := F) argRefs Gen.hostOps0_3 := by
  simp only [List.Forall]; repeat' constructor
  all_goals exact avoids_of rfl (by decide)
private theorem pre_avoids4 : Avoids (F := F) argRefs Gen.hostOps0_4 := by
  simp only [List.Forall]
  exact avoids_of rfl (by decide)

set_option maxHeartbeats 40000000 in
private theorem tail_avoids0 : Avoids (F := F) keptRefs Gen.hostOps1 := by
  simp only [List.Forall]; repeat' constructor
  all_goals exact avoids_of rfl (by decide)
private theorem tail_avoids1 : Avoids (F := F) keptRefs Gen.hostOps1_1 := by
  simp only [List.Forall]; repeat' constructor
  all_goals exact avoids_of rfl (by decide)
private theorem tail_avoids2 : Avoids (F := F) keptRefs Gen.hostOps1_2 := by
  simp only [List.Forall]; repeat' constructor
  all_goals exact avoids_of rfl (by decide)
private theorem tail_avoids3 : Avoids (F := F) keptRefs Gen.hostOps1_3 := by
  simp only [List.Forall]; repeat' constructor
  all_goals exact avoids_of rfl (by decide)
private theorem tail_avoids4 : Avoids (F := F) keptRefs Gen.hostOps1_4 := by
  simp only [List.Forall]; repeat' constructor
  all_goals exact avoids_of rfl (by decide)
private theorem tail_avoids5 : Avoids (F := F) keptRefs Gen.hostOps1_5 := by
  simp only [List.Forall]; repeat' constructor
  all_goals exact avoids_of rfl (by decide)
private theorem tail_avoids6 : Avoids (F := F) keptRefs Gen.hostOps1_6 := by
  simp only [List.Forall]; repeat' constructor
  all_goals exact avoids_of rfl (by decide)
private theorem tail_avoids7 : Avoids (F := F) keptRefs Gen.hostOps1_7 := by
  simp only [List.Forall]; repeat' constructor
  all_goals exact avoids_of rfl (by decide)
private theorem tail_avoids8 : Avoids (F := F) keptRefs Gen.hostOps1_8 := by
  simp only [List.Forall]; repeat' constructor
  all_goals exact avoids_of rfl (by decide)

/-- No operation before the region writes an argument. -/
private theorem pre_avoids : ∀ ops ∈ (preOps (F := F)), ∀ op ∈ ops, ∀ r ∈ argRefs, Proc.devRef .tc r ∉ op.writes := by
  intro ops hops op hop
  simp only [List.mem_cons, List.mem_nil_iff, or_false] at hops
  rcases hops with rfl | rfl | rfl | rfl | rfl
  · exact (List.forall_iff_forall_mem.mp pre_avoids0) op hop
  · exact (List.forall_iff_forall_mem.mp pre_avoids1) op hop
  · exact (List.forall_iff_forall_mem.mp pre_avoids2) op hop
  · exact (List.forall_iff_forall_mem.mp pre_avoids3) op hop
  · exact (List.forall_iff_forall_mem.mp pre_avoids4) op hop

/-- No operation after the region writes an argument or an array of the pipeline. -/
private theorem tail_avoids : ∀ ops ∈ (tailOps (F := F)), ∀ op ∈ ops, ∀ r ∈ keptRefs, Proc.devRef .tc r ∉ op.writes := by
  intro ops hops op hop
  simp only [List.mem_cons, List.mem_nil_iff, or_false] at hops
  rcases hops with rfl | rfl | rfl | rfl | rfl | rfl | rfl | rfl | rfl
  · exact (List.forall_iff_forall_mem.mp tail_avoids0) op hop
  · exact (List.forall_iff_forall_mem.mp tail_avoids1) op hop
  · exact (List.forall_iff_forall_mem.mp tail_avoids2) op hop
  · exact (List.forall_iff_forall_mem.mp tail_avoids3) op hop
  · exact (List.forall_iff_forall_mem.mp tail_avoids4) op hop
  · exact (List.forall_iff_forall_mem.mp tail_avoids5) op hop
  · exact (List.forall_iff_forall_mem.mp tail_avoids6) op hop
  · exact (List.forall_iff_forall_mem.mp tail_avoids7) op hop
  · exact (List.forall_iff_forall_mem.mp tail_avoids8) op hop

/-- Each array of the pipeline is one of the kept references. -/
private theorem arrRef_mem_kept (w : Fin cfg0.W) : Pipeline.arrRef spec0 w ∈ keptRefs := by
  fin_cases w <;> decide

/-! ### They allocate nothing -/

private theorem pre_fresh0 : (Gen.hostOps0 : List (HloOp τ sig (Elt F))).Forall fun op => op.fresh = ∅ := by
  simp only [List.Forall]; repeat' constructor
private theorem pre_fresh1 : (Gen.hostOps0_1 : List (HloOp τ sig (Elt F))).Forall fun op => op.fresh = ∅ := by
  simp only [List.Forall]; repeat' constructor
private theorem pre_fresh2 : (Gen.hostOps0_2 : List (HloOp τ sig (Elt F))).Forall fun op => op.fresh = ∅ := by
  simp only [List.Forall]; repeat' constructor
private theorem pre_fresh3 : (Gen.hostOps0_3 : List (HloOp τ sig (Elt F))).Forall fun op => op.fresh = ∅ := by
  simp only [List.Forall]; repeat' constructor
private theorem pre_fresh4 : (Gen.hostOps0_4 : List (HloOp τ sig (Elt F))).Forall fun op => op.fresh = ∅ := by
  simp only [List.Forall]; repeat' constructor

set_option maxHeartbeats 40000000 in
private theorem tail_fresh0 : (Gen.hostOps1 : List (HloOp τ sig (Elt F))).Forall fun op => op.fresh = ∅ := by
  simp only [List.Forall]; repeat' constructor
private theorem tail_fresh1 : (Gen.hostOps1_1 : List (HloOp τ sig (Elt F))).Forall fun op => op.fresh = ∅ := by
  simp only [List.Forall]; repeat' constructor
private theorem tail_fresh2 : (Gen.hostOps1_2 : List (HloOp τ sig (Elt F))).Forall fun op => op.fresh = ∅ := by
  simp only [List.Forall]; repeat' constructor
private theorem tail_fresh3 : (Gen.hostOps1_3 : List (HloOp τ sig (Elt F))).Forall fun op => op.fresh = ∅ := by
  simp only [List.Forall]; repeat' constructor
private theorem tail_fresh4 : (Gen.hostOps1_4 : List (HloOp τ sig (Elt F))).Forall fun op => op.fresh = ∅ := by
  simp only [List.Forall]; repeat' constructor
private theorem tail_fresh5 : (Gen.hostOps1_5 : List (HloOp τ sig (Elt F))).Forall fun op => op.fresh = ∅ := by
  simp only [List.Forall]; repeat' constructor
private theorem tail_fresh6 : (Gen.hostOps1_6 : List (HloOp τ sig (Elt F))).Forall fun op => op.fresh = ∅ := by
  simp only [List.Forall]; repeat' constructor
private theorem tail_fresh7 : (Gen.hostOps1_7 : List (HloOp τ sig (Elt F))).Forall fun op => op.fresh = ∅ := by
  simp only [List.Forall]; repeat' constructor
private theorem tail_fresh8 : (Gen.hostOps1_8 : List (HloOp τ sig (Elt F))).Forall fun op => op.fresh = ∅ := by
  simp only [List.Forall]; repeat' constructor

/-! ## @main around the region -/

/-- @main is the five stretches, the region, the nine stretches: holding the unscoped buffers at the launch contents it
    reduces to the region continued by the nine stretches, holding them at V. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main preOps tailOps
    ⟨Gen.hostOps0_sub, Gen.hostOps0_1_sub, Gen.hostOps0_2_sub, Gen.hostOps0_3_sub, Gen.hostOps0_4_sub⟩
    ⟨pre_fresh0, pre_fresh1, pre_fresh2, pre_fresh3, pre_fresh4⟩
    (fun c => (Gen.main_chain c).trans rfl)

/-- The operations after the region touch the pipeline's arrays and the bypassing buffers only: each touches unscoped
    TensorCore references, and with nothing prefetched every such reference is one or the other. -/
theorem sfx_sub : ∀ ops ∈ (tailOps (F := F)), ∀ op ∈ ops, op.bufs ⊆ Pipeline.tailRefs sig Pipeline.Prefetch.none spec0 := by
  rw [Pipeline.tailRefs_none spec0 Gen.launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp Gen.hostOps1_sub) op hop)
  · exact Pipeline.sub_ucRefs op ((List.forall_iff_forall_mem.mp Gen.hostOps1_1_sub) op hop)
  · exact Pipeline.sub_ucRefs op ((List.forall_iff_forall_mem.mp Gen.hostOps1_2_sub) op hop)
  · exact Pipeline.sub_ucRefs op ((List.forall_iff_forall_mem.mp Gen.hostOps1_3_sub) op hop)
  · exact Pipeline.sub_ucRefs op ((List.forall_iff_forall_mem.mp Gen.hostOps1_4_sub) op hop)
  · exact Pipeline.sub_ucRefs op ((List.forall_iff_forall_mem.mp Gen.hostOps1_5_sub) op hop)
  · exact Pipeline.sub_ucRefs op ((List.forall_iff_forall_mem.mp Gen.hostOps1_6_sub) op hop)
  · exact Pipeline.sub_ucRefs op ((List.forall_iff_forall_mem.mp Gen.hostOps1_7_sub) op hop)
  · exact Pipeline.sub_ucRefs op ((List.forall_iff_forall_mem.mp Gen.hostOps1_8_sub) op hop)

/-- They allocate nothing. -/
theorem sfx_fresh : ∀ ops ∈ (tailOps (F := F)), ∀ op ∈ ops, op.fresh = ∅ := by
  intro ops hops op hop
  simp only [List.mem_cons, List.mem_nil_iff, or_false] at hops
  rcases hops with rfl | rfl | rfl | rfl | rfl | rfl | rfl | rfl | rfl
  · exact (List.forall_iff_forall_mem.mp tail_fresh0) op hop
  · exact (List.forall_iff_forall_mem.mp tail_fresh1) op hop
  · exact (List.forall_iff_forall_mem.mp tail_fresh2) op hop
  · exact (List.forall_iff_forall_mem.mp tail_fresh3) op hop
  · exact (List.forall_iff_forall_mem.mp tail_fresh4) op hop
  · exact (List.forall_iff_forall_mem.mp tail_fresh5) op hop
  · exact (List.forall_iff_forall_mem.mp tail_fresh6) op hop
  · exact (List.forall_iff_forall_mem.mp tail_fresh7) op hop
  · exact (List.forall_iff_forall_mem.mp tail_fresh8) op hop

/-- And they write no array of the pipeline. -/
theorem sfx_keeps : ∀ ops ∈ (tailOps (F := F)), ∀ op ∈ ops, ∀ w, Proc.devRef .tc (Pipeline.arrRef spec0 w) ∉ op.writes :=
  fun ops hops op hop w => tail_avoids ops hops op hop _ (arrRef_mem_kept w)

/-! ### The arguments when the region is entered -/

/-- An argument holds its launch contents when the region is entered: no operation before the region writes it. -/
private theorem V_arg (c : Dev nD) (b : Ref sig .tc) (hb : b ∈ argRefs) : V m c b = m ((c : Thread nD τ).loc b) :=
  StableHlo.after_of_forall_not_mem _ _ fun op hop => by
    obtain ⟨ops, hops, hop'⟩ := List.mem_flatten.mp hop
    exact pre_avoids ops hops op hop' b hb

theorem V_main_arg0 (c : Dev nD) : V m c main_arg0 = m ((c : Thread nD τ).loc main_arg0) := V_arg m c _ (by decide)
theorem V_main_arg1 (c : Dev nD) : V m c main_arg1 = m ((c : Thread nD τ).loc main_arg1) := V_arg m c _ (by decide)
theorem V_main_arg2 (c : Dev nD) : V m c main_arg2 = m ((c : Thread nD τ).loc main_arg2) := V_arg m c _ (by decide)
theorem V_main_arg3 (c : Dev nD) : V m c main_arg3 = m ((c : Thread nD τ).loc main_arg3) := V_arg m c _ (by decide)
theorem V_main_arg4 (c : Dev nD) : V m c main_arg4 = m ((c : Thread nD τ).loc main_arg4) := V_arg m c _ (by decide)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The current staging buffer of input window 0 (the feature rows) holds its block at every point, for any proof data
    whose array is the region-entry contents and whose body leaves the block in place: an input, uncut, never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for input window 1 (the segment words). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run -/

/-- After the operations that follow the region an argument no window stages holds its launch contents: no such
    operation writes it, it is no array of the pipeline, and no operation before the region writes it. -/
private theorem afterTail_arg (dats : (p : Fin 1) → (c : Dev nD) → Dat τ (Elt F) Unit ℕ (UR sig nD τ) ℕ (cfgs p) c)
    (c : Dev nD) (b : Ref sig .tc) (hb : b ∈ argRefs) (hk : b ∈ keptRefs) (hne : ∀ w, Pipeline.arrRef spec0 w ≠ b) :
    Pipeline.afterTail₀ cfgs dats 0 (V0 m) (tailOps (F := F)) c b = m ((c : Thread nD τ).loc b) := by
  unfold Pipeline.afterTail₀
  rw [StableHlo.after_of_forall_not_mem _ _ fun op hop => ?_, Pipeline.withArrays_of_ne _ c (V0 m c) _ b hne]
  · exact V_arg m c b hb
  · obtain ⟨ops, hops, hop'⟩ := List.mem_flatten.mp hop
    exact tail_avoids ops hops op hop' b hk

/-- THE FRAME from a frame run: for any proof data whose arrays are the region-entry contents, a run to the frame post
    at the contents after the operations that follow the region, read at the five arguments — the feature rows are
    input window 0's array, unchanged by the pipeline; the other four bypass the region and no host operation writes
    them —, is the frame claim's post. -/
theorem frame_of (dats : (p : Fin 1) → (c : Dev nD) → Dat τ (Elt F) Unit ℕ (UR sig nD τ) ℕ (cfgs p) c) (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) (tailOps (F := F))))) :
    θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (afterTail_arg m dats c main_arg0 (by decide) (by decide) (by decide)),
     ((h c).2 main_arg1 (Pipeline.mem_restRefs_of main_arg1 (by decide) (by decide))).trans (afterTail_arg m dats c main_arg1 (by decide) (by decide) (by decide)),
     ((h c).1 0).trans (((dats 0 c).arrAt_in 0 rfl _).trans ((hA c 0).trans (V_main_arg2 m c))),
     ((h c).2 main_arg3 (Pipeline.mem_restRefs_of main_arg3 (by decide) (by decide))).trans (afterTail_arg m dats c main_arg3 (by decide) (by decide) (by decide)),
     ((h c).2 main_arg4 (Pipeline.mem_restRefs_of main_arg4 (by decide) (by decide))).trans (afterTail_arg m dats c main_arg4 (by decide) (by decide) (by decide))⟩) h

end Cert.Kernel.Fr

end
-- ==== Proof.BRuns.lean ====
/- What the two runs of the kernel body and the frame share: the body's one branch condition with its closed
   form over the 32 grid points, one staging view of the output window, and each window's current staging
   memref at a grid point with its wholeness. -/
import proofs.«412901_j12807592477411_3_alg».proof.Proof.Gen.Kernel.Launch
import proofs.«412901_j12807592477411_3_alg».proof.Proof.Gen.Kernel.Skeleton
import proofs.«412901_j12807592477411_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch condition -/

/-- The body resets its accumulator exactly when the inner grid coordinate is 0: the condition of its one
    conditional, written over the grid coordinates as the body computes it (compare the coordinate with 0,
    widen the bit to a word, compare the word with 0). -/
abbrev cond0_0 (i : grid0.Coords) : Prop := (Scalar.cmpi .ne (Scalar.extui (Scalar.cmpi .eq (BitVec.ofNat 32 (i 1).val) 0#32)) 0#32) = 1#1

/-- Point t = 16·h + i has inner coordinate i, so the condition holds exactly at the points divisible by 16
    (the first point of each of the two outer rows) — decided over the 32 points. -/
theorem hcond0_0 : ∀ t : Fin cfg0.N, cond0_0 (grid0.coords t) ↔ t.val % 16 = 0 :=
  (by decide +kernel : ∀ t : Fin grid0.N, cond0_0 (grid0.coords t) ↔ t.val % 16 = 0)

/-! ## The staging memrefs -/

/-- One staging view of the output window, through which its contents are stated (both staging buffers have the
    same shape, so the choice does not matter). -/
abbrev VO0_2 : View sig .tc .vmem S1x104x67 .f32 := (Memref.whole cc0_stg2_0 : Memref sig .tc .vmem S1x104x67 .f32).view

/-- Each window's current staging memref at point t, as the pipeline passes it to the body, and its wholeness. -/
abbrev ms0_0 (t : Fin cfg0.N) : Memref sig .tc .vmem S16384x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16384 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x104x67 .f32 := win0_2.stage (cfg0.slots t 2)
abbrev hs0_2 (t : Fin cfg0.N) : (ms0_2 t).IsWhole := hstage0_2 ((cfg0.slots t 2).cast nbuf0_2)

end Cert.Kernel.Fr

end
-- ==== Proof.BRunA.lean ====
/- The kernel body's run at the points where it resets its accumulator (inner grid coordinate 0). -/
import proofs.«412901_j12807592477411_3_alg».proof.Proof.BRuns

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point whose inner coordinate is 0 (the condition holds): it reads the output buffer at whatever it
    holds (the value is not used), overwrites all of it with zeros, reads both inputs whole, reads the zeroed output
    buffer, and overwrites all of it with the zeros plus this block's contribution. On whole staging memrefs — the
    two inputs at their contents, the output at anything — the body runs to a continuation that gets the inputs
    back as they were and the output buffer with the pieces its two stores wrote (last first); the pieces are
    found by running the body step by step. -/
noncomputable def kernelRun0_A (c : Dev nD) (i : grid0.Coords) (arg2 : Memref sig .tc .vmem S16384x64 .f32) (harg2 : arg2.IsWhole) (arg3 : Memref sig .tc .vmem S1x16384 .i32) (harg3 : arg3.IsWhole) (arg4 : Memref sig .tc .vmem S1x104x67 .f32) (harg4 : arg4.IsWhole) (hc0 : cond0_0 i)
    (x0 : Vec F S16384x64 .f32) (x1 : Vec F S1x16384 .i32) :
    { L2 : List (View.Piece (Elt F) S1x104x67 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__kernel i arg2 harg2 arg3 harg3 arg4 harg4) K } := by
  refine ⟨?_, fun E K => ?run⟩
  case run =>
    simp only [Gen.cc0__kernel_eq_skeleton]; unfold Gen.cc0__kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Fr

end
-- ==== Proof.BRunB.lean ====
/- The kernel body's run at the points where it accumulates onto what the point before left (inner grid
   coordinate not 0). -/
import proofs.«412901_j12807592477411_3_alg».proof.Proof.BRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point whose inner coordinate is not 0 (the condition fails): no reset; it reads both inputs whole,
    reads the output buffer at its running contents, and overwrites all of it with those contents plus this block's
    contribution. On whole staging memrefs — the two inputs and the output at their contents — the body runs to
    a continuation that gets the inputs back as they were and the output buffer with the one piece its store wrote;
    the pieces are found by running the body step by step. -/
noncomputable def kernelRun0_B (c : Dev nD) (i : grid0.Coords) (arg2 : Memref sig .tc .vmem S16384x64 .f32) (harg2 : arg2.IsWhole) (arg3 : Memref sig .tc .vmem S1x16384 .i32) (harg3 : arg3.IsWhole) (arg4 : Memref sig .tc .vmem S1x104x67 .f32) (harg4 : arg4.IsWhole) (hc0 : ¬cond0_0 i)
    (x0 : Vec F S16384x64 .f32) (x1 : Vec F S1x16384 .i32) (xo2 : Vec F S1x104x67 .f32) :
    { L2 : List (View.Piece (Elt F) S1x104x67 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__kernel i arg2 harg2 arg3 harg3 arg4 harg4) K } := by
  refine ⟨?_, fun E K => ?run⟩
  case run =>
    simp only [Gen.cc0__kernel_eq_skeleton]; unfold Gen.cc0__kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Fr

end
-- ==== Proof.BFrame.lean ====
/- The frame of the kernel program: what one grid point leaves in the output block in each of the two control
   cases (inner coordinate 0: reset, then accumulate; otherwise: accumulate onto what the point before left), the
   running contents of the output block after every one of the 32 grid points, the pipeline's proof data built from
   them, the body obligation at a generic point, the run of the whole program, the frame (the five argument arrays
   end as they began), and the two cases in closed form. -/
import proofs.«412901_j12807592477411_3_alg».proof.Proof.BKit
import proofs.«412901_j12807592477411_3_alg».proof.Proof.BRunB
import Idealize.ShloMosaic.Lib.Pipeline.Value

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one grid point leaves in the output block

At a point whose inner coordinate is 0 (case A) the body first overwrites the whole output block with zeros and
then overwrites it again with the update computed from the two input blocks and the block it has just zeroed; at
every other point (case B) it overwrites the whole block once, with the update computed from the two input blocks
and the block's current contents. In both cases the stores cover the whole block, so what the block holds
afterwards does not depend on what it held before the stores. -/

/-- Case A: the two whole-block stores cover every position of the output block. -/
theorem cover0_A_2 (c : Dev nD) (i : grid0.Coords) (arg2 : Memref sig .tc .vmem S16384x64 .f32) (harg2 : arg2.IsWhole) (arg3 : Memref sig .tc .vmem S1x16384 .i32) (harg3 : arg3.IsWhole) (arg4 : Memref sig .tc .vmem S1x104x67 .f32) (harg4 : arg4.IsWhole) (hc0 : cond0_0 i)
    (x0 : Vec F S16384x64 .f32) (x1 : Vec F S1x16384 .i32) (y : S1x104x67.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S1x104x67.size (by sl_kernel_rfl) y

/-- Case A: the output block after the point, as the stored pieces read back (over arbitrary prior contents,
    which the covering stores hide). -/
def out0_A_2 (c : Dev nD) (i : grid0.Coords) (arg2 : Memref sig .tc .vmem S16384x64 .f32) (harg2 : arg2.IsWhole) (arg3 : Memref sig .tc .vmem S1x16384 .i32) (harg3 : arg3.IsWhole) (arg4 : Memref sig .tc .vmem S1x104x67 .f32) (harg4 : arg4.IsWhole) (hc0 : cond0_0 i)
    (x0 : Vec F S16384x64 .f32) (x1 : Vec F S1x16384 .i32) : Vec F S1x104x67 .f32 :=
  VO0_2.read (Elt F) (VO0_2.writes (Elt F) VO0_2.junk (kernelRun0_A c i arg2 harg2 arg3 harg3 arg4 harg4 hc0 x0 x1).1)

/-- Case B: the one whole-block store covers every position of the output block. -/
theorem cover0_B_2 (c : Dev nD) (i : grid0.Coords) (arg2 : Memref sig .tc .vmem S16384x64 .f32) (harg2 : arg2.IsWhole) (arg3 : Memref sig .tc .vmem S1x16384 .i32) (harg3 : arg3.IsWhole) (arg4 : Memref sig .tc .vmem S1x104x67 .f32) (harg4 : arg4.IsWhole) (hc0 : ¬cond0_0 i)
    (x0 : Vec F S16384x64 .f32) (x1 : Vec F S1x16384 .i32) (xo2 : Vec F S1x104x67 .f32) (y : S1x104x67.Idx) :
    ∃ pc ∈ (kernelRun0_B c i arg2 harg2 arg3 harg3 arg4 harg4 hc0 x0 x1 xo2).1, y ∈ pc.1.set :=
  View.cover_of_tiledL (kernelRun0_B c i arg2 harg2 arg3 harg3 arg4 harg4 hc0 x0 x1 xo2).1 S1x104x67.size (by sl_kernel_rfl) y

/-- Case B: the output block after the point, given that it held `xo2` before. -/
def out0_B_2 (c : Dev nD) (i : grid0.Coords) (arg2 : Memref sig .tc .vmem S16384x64 .f32) (harg2 : arg2.IsWhole) (arg3 : Memref sig .tc .vmem S1x16384 .i32) (harg3 : arg3.IsWhole) (arg4 : Memref sig .tc .vmem S1x104x67 .f32) (harg4 : arg4.IsWhole) (hc0 : ¬cond0_0 i)
    (x0 : Vec F S16384x64 .f32) (x1 : Vec F S1x16384 .i32) (xo2 : Vec F S1x104x67 .f32) : Vec F S1x104x67 .f32 :=
  VO0_2.read (Elt F) (VO0_2.writes (Elt F) VO0_2.junk (kernelRun0_B c i arg2 harg2 arg3 harg3 arg4 harg4 hc0 x0 x1 xo2).1)

/-! ## The output block after each grid point -/

/-- The running contents of the output block. Point n = 16·h + i: at i = 0 the block restarts from zeros and takes
    the update of the point's two input blocks; at i > 0 it takes the update of the point's input blocks on top of
    what point n − 1 left (the block is written back to its array only after i = 15, so between consecutive points
    of one outer row it stays in place). By recursion on n. -/
def outsAt0 (c : Dev nD) : (n : ℕ) → n < cfg0.N → Vec F S1x104x67 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk m c 0 ⟨0, hn⟩) (iblk m c 1 ⟨0, hn⟩)
  | n + 1, hn =>
    if h0 : (n + 1) % 16 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk m c 0 ⟨n + 1, hn⟩) (iblk m c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn))

/-- At a point divisible by 16 the running contents are case A's. -/
theorem outsAt0_A (c : Dev nD) (t : Fin cfg0.N) (h0 : t.val % 16 = 0) :
    outsAt0 m c t.val t.isLt = out0_A_2 c (grid0.coords t) (ms0_0 t) (hs0_0 t) (ms0_1 t) (hs0_1 t) (ms0_2 t) (hs0_2 t) ((hcond0_0 t).mpr h0) (iblk m c 0 t) (iblk m c 1 t) := by
  obtain ⟨n, hn⟩ := t
  cases n with
  | zero => exact rfl
  | succ n => exact (dif_pos h0).trans rfl

/-- At any other point they are case B's, on top of what the point before left. -/
theorem outsAt0_B (c : Dev nD) (t : Fin cfg0.N) (h0 : ¬t.val % 16 = 0) :
    outsAt0 m c t.val t.isLt = out0_B_2 c (grid0.coords t) (ms0_0 t) (hs0_0 t) (ms0_1 t) (hs0_1 t) (ms0_2 t) (hs0_2 t) (fun h => h0 ((hcond0_0 t).mp h)) (iblk m c 0 t) (iblk m c 1 t) (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans rfl

/-! ## The pipeline's proof data -/

/-- Per core: the three arrays as the region finds them; after the body at point t the two input blocks unchanged
    and the output block at its running contents; the invariant is the rest of the scoped memory and the
    generator register, the same at every point; every share is full; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outsAt0 m c t.val t.isLt
  Φ _ := Pipeline.ΦA spec0 c
  q _ := fullShare
  owed _ := 0

/-- The arrays of the proof data are the region-entry contents (a projection; the fold over the host operations
    before the region is never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outsAt0 m c t.val t.isLt := by dsimp only [dats]

/-- Each input window's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a point not divisible by 16 the output window's current staging buffer holds what the point before left:
    the point is not the first, the point before it is not congruent to 15 modulo 16 so the block was not written
    back in between, and the window is never idle and never clipped. -/
theorem before0_2_B (c : Dev nD) (t : Fin cfg0.N) (h0 : ¬t.val % 16 = 0) (d) :
    (dats m 0 c).before 2 t d = outsAt0 m c (t.val - 1) (Nat.lt_of_le_of_lt (Nat.sub_le _ _) t.isLt) := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation at a generic point -/

/-- What the body is called with at point t: the invariant, what the core owes, and each window's current staging
    buffer at what it holds before the body. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- What it returns: the same with each buffer at what the body leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 1600000 in
/-- The body at any point. The input buffers hold their blocks. If the point is divisible by 16 the body is in
    case A, which accepts the output buffer at any contents; otherwise it is in case B and the output buffer holds
    what the point before left. Either way the case's run applies, the inputs come back unchanged, and the output
    buffer comes back with the case's pieces written, which cover it. The invariant and the owed amount pass
    through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hN : t.val < 32 := lt_of_lt_of_eq t.isLt (show cfg0.N = 32 from N_0)
  by_cases h0 : t.val % 16 = 0
  · rw [outsAt0_A m c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B m c t h0]
    simp only [before0_2_B m c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

/-- The body obligation of the pipeline rule, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the whole program on the cores terminates,
    and in every final state each array of the pipeline holds what the proof data computes for it and every other
    unscoped buffer holds what the host operations after the region leave in it. -/
theorem run_main : θ_run defs (onTc (τ := τ) (main (F := F))) (s₀ m ρ) (Pipeline.FramePost cfgs (dats m) 0 (Pipeline.afterTail₀ cfgs (dats m) 0 (V0 m) (tailOps (F := F)))) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps (F := F)) (hsub := sfx_sub) (hfresh := sfx_fresh) (hkeep := sfx_keeps)
    (hmain := hmain m Variants.none) (hA := A_eq m) (hΦ := fun _ _ => rfl)

/-- The five argument arrays of the program end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4)) :=
  frame_of m ρ (dats m) (A_eq m) (run_main m ρ)

/-! ## The two cases in closed form -/

/-- Case A in closed form: the block is zeroed and then updated, so it ends at the update of the two input blocks
    applied to the all-zeros block. -/
theorem out0_A_2_eq (c : Dev nD) (i : grid0.Coords) (arg2 : Memref sig .tc .vmem S16384x64 .f32) (harg2 : arg2.IsWhole) (arg3 : Memref sig .tc .vmem S1x16384 .i32) (harg3 : arg3.IsWhole) (arg4 : Memref sig .tc .vmem S1x104x67 .f32) (harg4 : arg4.IsWhole) (hc0 : cond0_0 i)
    (x0 : Vec F S16384x64 .f32) (x1 : Vec F S1x16384 .i32) :
    out0_A_2 c i arg2 harg2 arg3 harg3 arg4 harg4 hc0 x0 x1 = Gen.k0_pay2 x0 x1 (Gen.k0_pay1 (F := F)) := by
  have hz : (![0, 0, 0] : Fin 3 → Nat) = fun _ => 0 := by funext a; fin_cases a <;> rfl
  have hz2 : (![0, 0] : Fin 2 → Nat) = fun _ => 0 := by funext a; fin_cases a <;> rfl
  unfold out0_A_2
  rw [View.read_writes_eq_canon _ _ _ (cover0_A_2 c i arg2 harg2 arg3 harg3 arg4 harg4 hc0 x0 x1)]
  unfold kernelRun0_A
  dsimp only
  sl_unfold_words
  rw [View.canon_cons_unit_zero (S := S1x104x67) hz]
  simp only [View.readAt_eq_ld, harg2.read_unread, harg3.read_unread, View.ld_unit_zero (S := S16384x64) hz2,
    View.ld_unit_zero (S := S1x16384) hz2, View.readCov_unit_zero (S := S1x104x67) _ hz]

/-- Case B in closed form: the block ends at the update of the two input blocks applied to what it held. -/
theorem out0_B_2_eq (c : Dev nD) (i : grid0.Coords) (arg2 : Memref sig .tc .vmem S16384x64 .f32) (harg2 : arg2.IsWhole) (arg3 : Memref sig .tc .vmem S1x16384 .i32) (harg3 : arg3.IsWhole) (arg4 : Memref sig .tc .vmem S1x104x67 .f32) (harg4 : arg4.IsWhole) (hc0 : ¬cond0_0 i)
    (x0 : Vec F S16384x64 .f32) (x1 : Vec F S1x16384 .i32) (xo2 : Vec F S1x104x67 .f32) :
    out0_B_2 c i arg2 harg2 arg3 harg3 arg4 harg4 hc0 x0 x1 xo2 = Gen.k0_pay2 x0 x1 xo2 := by
  have hz : (![0, 0, 0] : Fin 3 → Nat) = fun _ => 0 := by funext a; fin_cases a <;> rfl
  have hz2 : (![0, 0] : Fin 2 → Nat) = fun _ => 0 := by funext a; fin_cases a <;> rfl
  unfold out0_B_2
  rw [View.read_writes_eq_canon _ _ _ (cover0_B_2 c i arg2 harg2 arg3 harg3 arg4 harg4 hc0 x0 x1 xo2)]
  unfold kernelRun0_B
  dsimp only
  sl_unfold_words
  rw [View.canon_unit_zero (S := S1x104x67) hz]
  simp only [View.readAt_eq_ld, harg2.read_unread, harg3.read_unread, harg4.read_unread, View.ld_unit_zero (S := S16384x64) hz2,
    View.ld_unit_zero (S := S1x16384) hz2, View.ld_unit_zero (S := S1x104x67) hz]

end Cert.Kernel.Fr

end
-- ==== Proof.KKit.lean ====
/- The frame kit of the kernel program: @main around its one region, the buffer contents the region finds,
   the windows' blocks read off them, and the frame claim's post from a frame run. -/
import proofs.«412901_j12807592477411_3_alg».proof.Proof.Gen.KernelIdeal.Launch
import proofs.«412901_j12807592477411_3_alg».proof.Proof.Gen.KernelIdeal.Skeleton
import proofs.«412901_j12807592477411_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- The five stretches of host operations before the region (sixteen operations: they compute the segment word of
    every row and lay it out as one row of 524288 words). -/
abbrev preOps : List (List (HloOp τ sig (Elt F))) := [Gen.hostOps0, Gen.hostOps0_1, Gen.hostOps0_2, Gen.hostOps0_3, Gen.hostOps0_4]
/-- The nine stretches after it (124 operations: the loss from the two partial tables the region leaves). -/
abbrev tailOps : List (List (HloOp τ sig (Elt F))) := [Gen.hostOps1, Gen.hostOps1_1, Gen.hostOps1_2, Gen.hostOps1_3, Gen.hostOps1_4, Gen.hostOps1_5, Gen.hostOps1_6, Gen.hostOps1_7, Gen.hostOps1_8]

/-- Core c's TensorCore buffer contents when the region is entered, as a valuation: the launch contents after the
    sixteen operations before the region. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

/-! ### Which buffers the operations leave alone

Every host operation writes exactly one buffer, its result. Which reference that is decides by comparing references;
so a stretch leaves a list L of references alone as soon as no result of it is in L. -/

/-- The five arguments. -/
private abbrev argRefs : List (Ref sig .tc) := [main_arg0, main_arg1, main_arg2, main_arg3, main_arg4]
/-- The arguments and the three arrays of the pipeline (the second array is the segment row, the third the pair of
    partial tables). -/
private abbrev keptRefs : List (Ref sig .tc) := [main_arg0, main_arg1, main_arg2, main_arg3, main_arg4, main_v7, main_v8]

/-- Every operation of the stretch writes no reference of L. -/
private abbrev Avoids (L : List (Ref sig .tc)) (ops : List (HloOp τ sig (Elt F))) : Prop :=
  ops.Forall fun op => ∀ r ∈ L, Proc.devRef .tc r ∉ op.writes

/-- An operation whose one written buffer is y, a reference outside L, writes no reference of L. -/
private theorem avoids_of {L : List (Ref sig .tc)} {op : HloOp τ sig (Elt F)} {y : Ref sig .tc}
    (hw : op.writes = {Proc.devRef .tc y}) (hy : y ∉ L) : ∀ r ∈ L, Proc.devRef .tc r ∉ op.writes := by
  intro r hr h
  rw [hw, Finset.mem_singleton] at h
  exact hy (Proc.devRef_injective _ h ▸ hr)

private theorem pre_avoids0 : Avoids (F := F) argRefs Gen.hostOps0 := by
  simp only [List.Forall]; repeat' constructor
  all_goals exact avoids_of rfl (by decide)
private theorem pre_avoids1 : Avoids (F := F) argRefs Gen.hostOps0_1 := by
  simp only [List.Forall]; repeat' constructor
  all_goals exact avoids_of rfl (by decide)
private theorem pre_avoids2 : Avoids (F := F) argRefs Gen.hostOps0_2 := by
  simp only [List.Forall]; repeat' constructor
  all_goals exact avoids_of rfl (by decide)
private theorem pre_avoids3 : Avoids (F := F) argRefs Gen.hostOps0_3 := by
  simp only [List.Forall]; repeat' constructor
  all_goals exact avoids_of rfl (by decide)
private theorem pre_avoids4 : Avoids (F := F) argRefs Gen.hostOps0_4 := by
  simp only [List.Forall]
  exact avoids_of rfl (by decide)

set_option maxHeartbeats 40000000 in
private theorem tail_avoids0 : Avoids (F := F) keptRefs Gen.hostOps1 := by
  simp only [List.Forall]; repeat' constructor
  all_goals exact avoids_of rfl (by decide)
private theorem tail_avoids1 : Avoids (F := F) keptRefs Gen.hostOps1_1 := by
  simp only [List.Forall]; repeat' constructor
  all_goals exact avoids_of rfl (by decide)
private theorem tail_avoids2 : Avoids (F := F) keptRefs Gen.hostOps1_2 := by
  simp only [List.Forall]; repeat' constructor
  all_goals exact avoids_of rfl (by decide)
private theorem tail_avoids3 : Avoids (F := F) keptRefs Gen.hostOps1_3 := by
  simp only [List.Forall]; repeat' constructor
  all_goals exact avoids_of rfl (by decide)
private theorem tail_avoids4 : Avoids (F := F) keptRefs Gen.hostOps1_4 := by
  simp only [List.Forall]; repeat' constructor
  all_goals exact avoids_of rfl (by decide)
private theorem tail_avoids5 : Avoids (F := F) keptRefs Gen.hostOps1_5 := by
  simp only [List.Forall]; repeat' constructor
  all_goals exact avoids_of rfl (by decide)
private theorem tail_avoids6 : Avoids (F := F) keptRefs Gen.hostOps1_6 := by
  simp only [List.Forall]; repeat' constructor
  all_goals exact avoids_of rfl (by decide)
private theorem tail_avoids7 : Avoids (F := F) keptRefs Gen.hostOps1_7 := by
  simp only [List.Forall]; repeat' constructor
  all_goals exact avoids_of rfl (by decide)
private theorem tail_avoids8 : Avoids (F := F) keptRefs Gen.hostOps1_8 := by
  simp only [List.Forall]; repeat' constructor
  all_goals exact avoids_of rfl (by decide)

/-- No operation before the region writes an argument. -/
private theorem pre_avoids : ∀ ops ∈ (preOps (F := F)), ∀ op ∈ ops, ∀ r ∈ argRefs, Proc.devRef .tc r ∉ op.writes := by
  intro ops hops op hop
  simp only [List.mem_cons, List.mem_nil_iff, or_false] at hops
  rcases hops with rfl | rfl | rfl | rfl | rfl
  · exact (List.forall_iff_forall_mem.mp pre_avoids0) op hop
  · exact (List.forall_iff_forall_mem.mp pre_avoids1) op hop
  · exact (List.forall_iff_forall_mem.mp pre_avoids2) op hop
  · exact (List.forall_iff_forall_mem.mp pre_avoids3) op hop
  · exact (List.forall_iff_forall_mem.mp pre_avoids4) op hop

/-- No operation after the region writes an argument or an array of the pipeline. -/
private theorem tail_avoids : ∀ ops ∈ (tailOps (F := F)), ∀ op ∈ ops, ∀ r ∈ keptRefs, Proc.devRef .tc r ∉ op.writes := by
  intro ops hops op hop
  simp only [List.mem_cons, List.mem_nil_iff, or_false] at hops
  rcases hops with rfl | rfl | rfl | rfl | rfl | rfl | rfl | rfl | rfl
  · exact (List.forall_iff_forall_mem.mp tail_avoids0) op hop
  · exact (List.forall_iff_forall_mem.mp tail_avoids1) op hop
  · exact (List.forall_iff_forall_mem.mp tail_avoids2) op hop
  · exact (List.forall_iff_forall_mem.mp tail_avoids3) op hop
  · exact (List.forall_iff_forall_mem.mp tail_avoids4) op hop
  · exact (List.forall_iff_forall_mem.mp tail_avoids5) op hop
  · exact (List.forall_iff_forall_mem.mp tail_avoids6) op hop
  · exact (List.forall_iff_forall_mem.mp tail_avoids7) op hop
  · exact (List.forall_iff_forall_mem.mp tail_avoids8) op hop

/-- Each array of the pipeline is one of the kept references. -/
private theorem arrRef_mem_kept (w : Fin cfg0.W) : Pipeline.arrRef spec0 w ∈ keptRefs := by
  fin_cases w <;> decide

/-! ### They allocate nothing -/

private theorem pre_fresh0 : (Gen.hostOps0 : List (HloOp τ sig (Elt F))).Forall fun op => op.fresh = ∅ := by
  simp only [List.Forall]; repeat' constructor
private theorem pre_fresh1 : (Gen.hostOps0_1 : List (HloOp τ sig (Elt F))).Forall fun op => op.fresh = ∅ := by
  simp only [List.Forall]; repeat' constructor
private theorem pre_fresh2 : (Gen.hostOps0_2 : List (HloOp τ sig (Elt F))).Forall fun op => op.fresh = ∅ := by
  simp only [List.Forall]; repeat' constructor
private theorem pre_fresh3 : (Gen.hostOps0_3 : List (HloOp τ sig (Elt F))).Forall fun op => op.fresh = ∅ := by
  simp only [List.Forall]; repeat' constructor
private theorem pre_fresh4 : (Gen.hostOps0_4 : List (HloOp τ sig (Elt F))).Forall fun op => op.fresh = ∅ := by
  simp only [List.Forall]; repeat' constructor

set_option maxHeartbeats 40000000 in
private theorem tail_fresh0 : (Gen.hostOps1 : List (HloOp τ sig (Elt F))).Forall fun op => op.fresh = ∅ := by
  simp only [List.Forall]; repeat' constructor
private theorem tail_fresh1 : (Gen.hostOps1_1 : List (HloOp τ sig (Elt F))).Forall fun op => op.fresh = ∅ := by
  simp only [List.Forall]; repeat' constructor
private theorem tail_fresh2 : (Gen.hostOps1_2 : List (HloOp τ sig (Elt F))).Forall fun op => op.fresh = ∅ := by
  simp only [List.Forall]; repeat' constructor
private theorem tail_fresh3 : (Gen.hostOps1_3 : List (HloOp τ sig (Elt F))).Forall fun op => op.fresh = ∅ := by
  simp only [List.Forall]; repeat' constructor
private theorem tail_fresh4 : (Gen.hostOps1_4 : List (HloOp τ sig (Elt F))).Forall fun op => op.fresh = ∅ := by
  simp only [List.Forall]; repeat' constructor
private theorem tail_fresh5 : (Gen.hostOps1_5 : List (HloOp τ sig (Elt F))).Forall fun op => op.fresh = ∅ := by
  simp only [List.Forall]; repeat' constructor
private theorem tail_fresh6 : (Gen.hostOps1_6 : List (HloOp τ sig (Elt F))).Forall fun op => op.fresh = ∅ := by
  simp only [List.Forall]; repeat' constructor
private theorem tail_fresh7 : (Gen.hostOps1_7 : List (HloOp τ sig (Elt F))).Forall fun op => op.fresh = ∅ := by
  simp only [List.Forall]; repeat' constructor
private theorem tail_fresh8 : (Gen.hostOps1_8 : List (HloOp τ sig (Elt F))).Forall fun op => op.fresh = ∅ := by
  simp only [List.Forall]; repeat' constructor

/-! ## @main around the region -/

/-- @main is the five stretches, the region, the nine stretches: holding the unscoped buffers at the launch contents it
    reduces to the region continued by the nine stretches, holding them at V. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main preOps tailOps
    ⟨Gen.hostOps0_sub, Gen.hostOps0_1_sub, Gen.hostOps0_2_sub, Gen.hostOps0_3_sub, Gen.hostOps0_4_sub⟩
    ⟨pre_fresh0, pre_fresh1, pre_fresh2, pre_fresh3, pre_fresh4⟩
    (fun c => (Gen.main_chain c).trans rfl)

/-- The operations after the region touch the pipeline's arrays and the bypassing buffers only: each touches unscoped
    TensorCore references, and with nothing prefetched every such reference is one or the other. -/
theorem sfx_sub : ∀ ops ∈ (tailOps (F := F)), ∀ op ∈ ops, op.bufs ⊆ Pipeline.tailRefs sig Pipeline.Prefetch.none spec0 := by
  rw [Pipeline.tailRefs_none spec0 Gen.launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp Gen.hostOps1_sub) op hop)
  · exact Pipeline.sub_ucRefs op ((List.forall_iff_forall_mem.mp Gen.hostOps1_1_sub) op hop)
  · exact Pipeline.sub_ucRefs op ((List.forall_iff_forall_mem.mp Gen.hostOps1_2_sub) op hop)
  · exact Pipeline.sub_ucRefs op ((List.forall_iff_forall_mem.mp Gen.hostOps1_3_sub) op hop)
  · exact Pipeline.sub_ucRefs op ((List.forall_iff_forall_mem.mp Gen.hostOps1_4_sub) op hop)
  · exact Pipeline.sub_ucRefs op ((List.forall_iff_forall_mem.mp Gen.hostOps1_5_sub) op hop)
  · exact Pipeline.sub_ucRefs op ((List.forall_iff_forall_mem.mp Gen.hostOps1_6_sub) op hop)
  · exact Pipeline.sub_ucRefs op ((List.forall_iff_forall_mem.mp Gen.hostOps1_7_sub) op hop)
  · exact Pipeline.sub_ucRefs op ((List.forall_iff_forall_mem.mp Gen.hostOps1_8_sub) op hop)

/-- They allocate nothing. -/
theorem sfx_fresh : ∀ ops ∈ (tailOps (F := F)), ∀ op ∈ ops, op.fresh = ∅ := by
  intro ops hops op hop
  simp only [List.mem_cons, List.mem_nil_iff, or_false] at hops
  rcases hops with rfl | rfl | rfl | rfl | rfl | rfl | rfl | rfl | rfl
  · exact (List.forall_iff_forall_mem.mp tail_fresh0) op hop
  · exact (List.forall_iff_forall_mem.mp tail_fresh1) op hop
  · exact (List.forall_iff_forall_mem.mp tail_fresh2) op hop
  · exact (List.forall_iff_forall_mem.mp tail_fresh3) op hop
  · exact (List.forall_iff_forall_mem.mp tail_fresh4) op hop
  · exact (List.forall_iff_forall_mem.mp tail_fresh5) op hop
  · exact (List.forall_iff_forall_mem.mp tail_fresh6) op hop
  · exact (List.forall_iff_forall_mem.mp tail_fresh7) op hop
  · exact (List.forall_iff_forall_mem.mp tail_fresh8) op hop

/-- And they write no array of the pipeline. -/
theorem sfx_keeps : ∀ ops ∈ (tailOps (F := F)), ∀ op ∈ ops, ∀ w, Proc.devRef .tc (Pipeline.arrRef spec0 w) ∉ op.writes :=
  fun ops hops op hop w => tail_avoids ops hops op hop _ (arrRef_mem_kept w)

/-! ### The arguments when the region is entered -/

/-- An argument holds its launch contents when the region is entered: no operation before the region writes it. -/
private theorem V_arg (c : Dev nD) (b : Ref sig .tc) (hb : b ∈ argRefs) : V m c b = m ((c : Thread nD τ).loc b) :=
  StableHlo.after_of_forall_not_mem _ _ fun op hop => by
    obtain ⟨ops, hops, hop'⟩ := List.mem_flatten.mp hop
    exact pre_avoids ops hops op hop' b hb

theorem V_main_arg0 (c : Dev nD) : V m c main_arg0 = m ((c : Thread nD τ).loc main_arg0) := V_arg m c _ (by decide)
theorem V_main_arg1 (c : Dev nD) : V m c main_arg1 = m ((c : Thread nD τ).loc main_arg1) := V_arg m c _ (by decide)
theorem V_main_arg2 (c : Dev nD) : V m c main_arg2 = m ((c : Thread nD τ).loc main_arg2) := V_arg m c _ (by decide)
theorem V_main_arg3 (c : Dev nD) : V m c main_arg3 = m ((c : Thread nD τ).loc main_arg3) := V_arg m c _ (by decide)
theorem V_main_arg4 (c : Dev nD) : V m c main_arg4 = m ((c : Thread nD τ).loc main_arg4) := V_arg m c _ (by decide)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The current staging buffer of input window 0 (the feature rows) holds its block at every point, for any proof data
    whose array is the region-entry contents and whose body leaves the block in place: an input, uncut, never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for input window 1 (the segment words). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run -/

/-- After the operations that follow the region an argument no window stages holds its launch contents: no such
    operation writes it, it is no array of the pipeline, and no operation before the region writes it. -/
private theorem afterTail_arg (dats : (p : Fin 1) → (c : Dev nD) → Dat τ (Elt F) Unit ℕ (UR sig nD τ) ℕ (cfgs p) c)
    (c : Dev nD) (b : Ref sig .tc) (hb : b ∈ argRefs) (hk : b ∈ keptRefs) (hne : ∀ w, Pipeline.arrRef spec0 w ≠ b) :
    Pipeline.afterTail₀ cfgs dats 0 (V0 m) (tailOps (F := F)) c b = m ((c : Thread nD τ).loc b) := by
  unfold Pipeline.afterTail₀
  rw [StableHlo.after_of_forall_not_mem _ _ fun op hop => ?_, Pipeline.withArrays_of_ne _ c (V0 m c) _ b hne]
  · exact V_arg m c b hb
  · obtain ⟨ops, hops, hop'⟩ := List.mem_flatten.mp hop
    exact tail_avoids ops hops op hop' b hk

/-- THE FRAME from a frame run: for any proof data whose arrays are the region-entry contents, a run to the frame post
    at the contents after the operations that follow the region, read at the five arguments — the feature rows are
    input window 0's array, unchanged by the pipeline; the other four bypass the region and no host operation writes
    them —, is the frame claim's post. -/
theorem frame_of (dats : (p : Fin 1) → (c : Dev nD) → Dat τ (Elt F) Unit ℕ (UR sig nD τ) ℕ (cfgs p) c) (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) (tailOps (F := F))))) :
    θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (afterTail_arg m dats c main_arg0 (by decide) (by decide) (by decide)),
     ((h c).2 main_arg1 (Pipeline.mem_restRefs_of main_arg1 (by decide) (by decide))).trans (afterTail_arg m dats c main_arg1 (by decide) (by decide) (by decide)),
     ((h c).1 0).trans (((dats 0 c).arrAt_in 0 rfl _).trans ((hA c 0).trans (V_main_arg2 m c))),
     ((h c).2 main_arg3 (Pipeline.mem_restRefs_of main_arg3 (by decide) (by decide))).trans (afterTail_arg m dats c main_arg3 (by decide) (by decide) (by decide)),
     ((h c).2 main_arg4 (Pipeline.mem_restRefs_of main_arg4 (by decide) (by decide))).trans (afterTail_arg m dats c main_arg4 (by decide) (by decide) (by decide))⟩) h

end Cert.KernelIdeal.Fr

end
-- ==== Proof.KRuns.lean ====
/- What the two runs of the kernel body and the frame share: the body's one branch condition with its closed
   form over the 32 grid points, one staging view of the output window, and each window's current staging
   memref at a grid point with its wholeness. -/
import proofs.«412901_j12807592477411_3_alg».proof.Proof.Gen.KernelIdeal.Launch
import proofs.«412901_j12807592477411_3_alg».proof.Proof.Gen.KernelIdeal.Skeleton
import proofs.«412901_j12807592477411_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch condition -/

/-- The body resets its accumulator exactly when the inner grid coordinate is 0: the condition of its one
    conditional, written over the grid coordinates as the body computes it (compare the coordinate with 0,
    widen the bit to a word, compare the word with 0). -/
abbrev cond0_0 (i : grid0.Coords) : Prop := (Scalar.cmpi .ne (Scalar.extui (Scalar.cmpi .eq (BitVec.ofNat 32 (i 1).val) 0#32)) 0#32) = 1#1

/-- Point t = 16·h + i has inner coordinate i, so the condition holds exactly at the points divisible by 16
    (the first point of each of the two outer rows) — decided over the 32 points. -/
theorem hcond0_0 : ∀ t : Fin cfg0.N, cond0_0 (grid0.coords t) ↔ t.val % 16 = 0 :=
  (by decide +kernel : ∀ t : Fin grid0.N, cond0_0 (grid0.coords t) ↔ t.val % 16 = 0)

/-! ## The staging memrefs -/

/-- One staging view of the output window, through which its contents are stated (both staging buffers have the
    same shape, so the choice does not matter). -/
abbrev VO0_2 : View sig .tc .vmem S1x104x67 .f32 := (Memref.whole cc0_stg2_0 : Memref sig .tc .vmem S1x104x67 .f32).view

/-- Each window's current staging memref at point t, as the pipeline passes it to the body, and its wholeness. -/
abbrev ms0_0 (t : Fin cfg0.N) : Memref sig .tc .vmem S16384x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16384 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x104x67 .f32 := win0_2.stage (cfg0.slots t 2)
abbrev hs0_2 (t : Fin cfg0.N) : (ms0_2 t).IsWhole := hstage0_2 ((cfg0.slots t 2).cast nbuf0_2)

end Cert.KernelIdeal.Fr

end
-- ==== Proof.KRunA.lean ====
/- The kernel body's run at the points where it resets its accumulator (inner grid coordinate 0). -/
import proofs.«412901_j12807592477411_3_alg».proof.Proof.KRuns

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point whose inner coordinate is 0 (the condition holds): it reads the output buffer at whatever it
    holds (the value is not used), overwrites all of it with zeros, reads both inputs whole, reads the zeroed output
    buffer, and overwrites all of it with the zeros plus this block's contribution. On whole staging memrefs — the
    two inputs at their contents, the output at anything — the body runs to a continuation that gets the inputs
    back as they were and the output buffer with the pieces its two stores wrote (last first); the pieces are
    found by running the body step by step. -/
noncomputable def kernelRun0_A (c : Dev nD) (i : grid0.Coords) (arg2 : Memref sig .tc .vmem S16384x64 .f32) (harg2 : arg2.IsWhole) (arg3 : Memref sig .tc .vmem S1x16384 .i32) (harg3 : arg3.IsWhole) (arg4 : Memref sig .tc .vmem S1x104x67 .f32) (harg4 : arg4.IsWhole) (hc0 : cond0_0 i)
    (x0 : Vec F S16384x64 .f32) (x1 : Vec F S1x16384 .i32) :
    { L2 : List (View.Piece (Elt F) S1x104x67 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__kernel i arg2 harg2 arg3 harg3 arg4 harg4) K } := by
  refine ⟨?_, fun E K => ?run⟩
  case run =>
    simp only [Gen.cc0__kernel_eq_skeleton]; unfold Gen.cc0__kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Fr

end
-- ==== Proof.KRunB.lean ====
/- The kernel body's run at the points where it accumulates onto what the point before left (inner grid
   coordinate not 0). -/
import proofs.«412901_j12807592477411_3_alg».proof.Proof.KRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point whose inner coordinate is not 0 (the condition fails): no reset; it reads both inputs whole,
    reads the output buffer at its running contents, and overwrites all of it with those contents plus this block's
    contribution. On whole staging memrefs — the two inputs and the output at their contents — the body runs to
    a continuation that gets the inputs back as they were and the output buffer with the one piece its store wrote;
    the pieces are found by running the body step by step. -/
noncomputable def kernelRun0_B (c : Dev nD) (i : grid0.Coords) (arg2 : Memref sig .tc .vmem S16384x64 .f32) (harg2 : arg2.IsWhole) (arg3 : Memref sig .tc .vmem S1x16384 .i32) (harg3 : arg3.IsWhole) (arg4 : Memref sig .tc .vmem S1x104x67 .f32) (harg4 : arg4.IsWhole) (hc0 : ¬cond0_0 i)
    (x0 : Vec F S16384x64 .f32) (x1 : Vec F S1x16384 .i32) (xo2 : Vec F S1x104x67 .f32) :
    { L2 : List (View.Piece (Elt F) S1x104x67 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__kernel i arg2 harg2 arg3 harg3 arg4 harg4) K } := by
  refine ⟨?_, fun E K => ?run⟩
  case run =>
    simp only [Gen.cc0__kernel_eq_skeleton]; unfold Gen.cc0__kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Fr

end
-- ==== Proof.KFrame.lean ====
/- The frame of the kernel program: what one grid point leaves in the output block in each of the two control
   cases (inner coordinate 0: reset, then accumulate; otherwise: accumulate onto what the point before left), the
   running contents of the output block after every one of the 32 grid points, the pipeline's proof data built from
   them, the body obligation at a generic point, the run of the whole program, the frame (the five argument arrays
   end as they began), and the two cases in closed form. -/
import proofs.«412901_j12807592477411_3_alg».proof.Proof.KKit
import proofs.«412901_j12807592477411_3_alg».proof.Proof.KRunB
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one grid point leaves in the output block

At a point whose inner coordinate is 0 (case A) the body first overwrites the whole output block with zeros and
then overwrites it again with the update computed from the two input blocks and the block it has just zeroed; at
every other point (case B) it overwrites the whole block once, with the update computed from the two input blocks
and the block's current contents. In both cases the stores cover the whole block, so what the block holds
afterwards does not depend on what it held before the stores. -/

/-- Case A: the two whole-block stores cover every position of the output block. -/
theorem cover0_A_2 (c : Dev nD) (i : grid0.Coords) (arg2 : Memref sig .tc .vmem S16384x64 .f32) (harg2 : arg2.IsWhole) (arg3 : Memref sig .tc .vmem S1x16384 .i32) (harg3 : arg3.IsWhole) (arg4 : Memref sig .tc .vmem S1x104x67 .f32) (harg4 : arg4.IsWhole) (hc0 : cond0_0 i)
    (x0 : Vec F S16384x64 .f32) (x1 : Vec F S1x16384 .i32) (y : S1x104x67.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S1x104x67.size (by sl_kernel_rfl) y

/-- Case A: the output block after the point, as the stored pieces read back (over arbitrary prior contents,
    which the covering stores hide). -/
def out0_A_2 (c : Dev nD) (i : grid0.Coords) (arg2 : Memref sig .tc .vmem S16384x64 .f32) (harg2 : arg2.IsWhole) (arg3 : Memref sig .tc .vmem S1x16384 .i32) (harg3 : arg3.IsWhole) (arg4 : Memref sig .tc .vmem S1x104x67 .f32) (harg4 : arg4.IsWhole) (hc0 : cond0_0 i)
    (x0 : Vec F S16384x64 .f32) (x1 : Vec F S1x16384 .i32) : Vec F S1x104x67 .f32 :=
  VO0_2.read (Elt F) (VO0_2.writes (Elt F) VO0_2.junk (kernelRun0_A c i arg2 harg2 arg3 harg3 arg4 harg4 hc0 x0 x1).1)

/-- Case B: the one whole-block store covers every position of the output block. -/
theorem cover0_B_2 (c : Dev nD) (i : grid0.Coords) (arg2 : Memref sig .tc .vmem S16384x64 .f32) (harg2 : arg2.IsWhole) (arg3 : Memref sig .tc .vmem S1x16384 .i32) (harg3 : arg3.IsWhole) (arg4 : Memref sig .tc .vmem S1x104x67 .f32) (harg4 : arg4.IsWhole) (hc0 : ¬cond0_0 i)
    (x0 : Vec F S16384x64 .f32) (x1 : Vec F S1x16384 .i32) (xo2 : Vec F S1x104x67 .f32) (y : S1x104x67.Idx) :
    ∃ pc ∈ (kernelRun0_B c i arg2 harg2 arg3 harg3 arg4 harg4 hc0 x0 x1 xo2).1, y ∈ pc.1.set :=
  View.cover_of_tiledL (kernelRun0_B c i arg2 harg2 arg3 harg3 arg4 harg4 hc0 x0 x1 xo2).1 S1x104x67.size (by sl_kernel_rfl) y

/-- Case B: the output block after the point, given that it held `xo2` before. -/
def out0_B_2 (c : Dev nD) (i : grid0.Coords) (arg2 : Memref sig .tc .vmem S16384x64 .f32) (harg2 : arg2.IsWhole) (arg3 : Memref sig .tc .vmem S1x16384 .i32) (harg3 : arg3.IsWhole) (arg4 : Memref sig .tc .vmem S1x104x67 .f32) (harg4 : arg4.IsWhole) (hc0 : ¬cond0_0 i)
    (x0 : Vec F S16384x64 .f32) (x1 : Vec F S1x16384 .i32) (xo2 : Vec F S1x104x67 .f32) : Vec F S1x104x67 .f32 :=
  VO0_2.read (Elt F) (VO0_2.writes (Elt F) VO0_2.junk (kernelRun0_B c i arg2 harg2 arg3 harg3 arg4 harg4 hc0 x0 x1 xo2).1)

/-! ## The output block after each grid point -/

/-- The running contents of the output block. Point n = 16·h + i: at i = 0 the block restarts from zeros and takes
    the update of the point's two input blocks; at i > 0 it takes the update of the point's input blocks on top of
    what point n − 1 left (the block is written back to its array only after i = 15, so between consecutive points
    of one outer row it stays in place). By recursion on n. -/
def outsAt0 (c : Dev nD) : (n : ℕ) → n < cfg0.N → Vec F S1x104x67 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk m c 0 ⟨0, hn⟩) (iblk m c 1 ⟨0, hn⟩)
  | n + 1, hn =>
    if h0 : (n + 1) % 16 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk m c 0 ⟨n + 1, hn⟩) (iblk m c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn))

/-- At a point divisible by 16 the running contents are case A's. -/
theorem outsAt0_A (c : Dev nD) (t : Fin cfg0.N) (h0 : t.val % 16 = 0) :
    outsAt0 m c t.val t.isLt = out0_A_2 c (grid0.coords t) (ms0_0 t) (hs0_0 t) (ms0_1 t) (hs0_1 t) (ms0_2 t) (hs0_2 t) ((hcond0_0 t).mpr h0) (iblk m c 0 t) (iblk m c 1 t) := by
  obtain ⟨n, hn⟩ := t
  cases n with
  | zero => exact rfl
  | succ n => exact (dif_pos h0).trans rfl

/-- At any other point they are case B's, on top of what the point before left. -/
theorem outsAt0_B (c : Dev nD) (t : Fin cfg0.N) (h0 : ¬t.val % 16 = 0) :
    outsAt0 m c t.val t.isLt = out0_B_2 c (grid0.coords t) (ms0_0 t) (hs0_0 t) (ms0_1 t) (hs0_1 t) (ms0_2 t) (hs0_2 t) (fun h => h0 ((hcond0_0 t).mp h)) (iblk m c 0 t) (iblk m c 1 t) (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans rfl

/-! ## The pipeline's proof data -/

/-- Per core: the three arrays as the region finds them; after the body at point t the two input blocks unchanged
    and the output block at its running contents; the invariant is the rest of the scoped memory and the
    generator register, the same at every point; every share is full; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outsAt0 m c t.val t.isLt
  Φ _ := Pipeline.ΦA spec0 c
  q _ := fullShare
  owed _ := 0

/-- The arrays of the proof data are the region-entry contents (a projection; the fold over the host operations
    before the region is never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outsAt0 m c t.val t.isLt := by dsimp only [dats]

/-- Each input window's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a point not divisible by 16 the output window's current staging buffer holds what the point before left:
    the point is not the first, the point before it is not congruent to 15 modulo 16 so the block was not written
    back in between, and the window is never idle and never clipped. -/
theorem before0_2_B (c : Dev nD) (t : Fin cfg0.N) (h0 : ¬t.val % 16 = 0) (d) :
    (dats m 0 c).before 2 t d = outsAt0 m c (t.val - 1) (Nat.lt_of_le_of_lt (Nat.sub_le _ _) t.isLt) := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation at a generic point -/

/-- What the body is called with at point t: the invariant, what the core owes, and each window's current staging
    buffer at what it holds before the body. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- What it returns: the same with each buffer at what the body leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 1600000 in
/-- The body at any point. The input buffers hold their blocks. If the point is divisible by 16 the body is in
    case A, which accepts the output buffer at any contents; otherwise it is in case B and the output buffer holds
    what the point before left. Either way the case's run applies, the inputs come back unchanged, and the output
    buffer comes back with the case's pieces written, which cover it. The invariant and the owed amount pass
    through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hN : t.val < 32 := lt_of_lt_of_eq t.isLt (show cfg0.N = 32 from N_0)
  by_cases h0 : t.val % 16 = 0
  · rw [outsAt0_A m c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B m c t h0]
    simp only [before0_2_B m c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

/-- The body obligation of the pipeline rule, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the whole program on the cores terminates,
    and in every final state each array of the pipeline holds what the proof data computes for it and every other
    unscoped buffer holds what the host operations after the region leave in it. -/
theorem run_main : θ_run defs (onTc (τ := τ) (main (F := F))) (s₀ m ρ) (Pipeline.FramePost cfgs (dats m) 0 (Pipeline.afterTail₀ cfgs (dats m) 0 (V0 m) (tailOps (F := F)))) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps (F := F)) (hsub := sfx_sub) (hfresh := sfx_fresh) (hkeep := sfx_keeps)
    (hmain := hmain m Variants.none) (hA := A_eq m) (hΦ := fun _ _ => rfl)

/-- The five argument arrays of the program end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4)) :=
  frame_of m ρ (dats m) (A_eq m) (run_main m ρ)

/-! ## The two cases in closed form -/

/-- Case A in closed form: the block is zeroed and then updated, so it ends at the update of the two input blocks
    applied to the all-zeros block. -/
theorem out0_A_2_eq (c : Dev nD) (i : grid0.Coords) (arg2 : Memref sig .tc .vmem S16384x64 .f32) (harg2 : arg2.IsWhole) (arg3 : Memref sig .tc .vmem S1x16384 .i32) (harg3 : arg3.IsWhole) (arg4 : Memref sig .tc .vmem S1x104x67 .f32) (harg4 : arg4.IsWhole) (hc0 : cond0_0 i)
    (x0 : Vec F S16384x64 .f32) (x1 : Vec F S1x16384 .i32) :
    out0_A_2 c i arg2 harg2 arg3 harg3 arg4 harg4 hc0 x0 x1 = Gen.k0_pay2 x0 x1 (Gen.k0_pay1 (F := F)) := by
  have hz : (![0, 0, 0] : Fin 3 → Nat) = fun _ => 0 := by funext a; fin_cases a <;> rfl
  have hz2 : (![0, 0] : Fin 2 → Nat) = fun _ => 0 := by funext a; fin_cases a <;> rfl
  unfold out0_A_2
  rw [View.read_writes_eq_canon _ _ _ (cover0_A_2 c i arg2 harg2 arg3 harg3 arg4 harg4 hc0 x0 x1)]
  unfold kernelRun0_A
  dsimp only
  sl_unfold_words
  rw [View.canon_cons_unit_zero (S := S1x104x67) hz]
  simp only [View.readAt_eq_ld, harg2.read_unread, harg3.read_unread, View.ld_unit_zero (S := S16384x64) hz2,
    View.ld_unit_zero (S := S1x16384) hz2, View.readCov_unit_zero (S := S1x104x67) _ hz]

/-- Case B in closed form: the block ends at the update of the two input blocks applied to what it held. -/
theorem out0_B_2_eq (c : Dev nD) (i : grid0.Coords) (arg2 : Memref sig .tc .vmem S16384x64 .f32) (harg2 : arg2.IsWhole) (arg3 : Memref sig .tc .vmem S1x16384 .i32) (harg3 : arg3.IsWhole) (arg4 : Memref sig .tc .vmem S1x104x67 .f32) (harg4 : arg4.IsWhole) (hc0 : ¬cond0_0 i)
    (x0 : Vec F S16384x64 .f32) (x1 : Vec F S1x16384 .i32) (xo2 : Vec F S1x104x67 .f32) :
    out0_B_2 c i arg2 harg2 arg3 harg3 arg4 harg4 hc0 x0 x1 xo2 = Gen.k0_pay2 x0 x1 xo2 := by
  have hz : (![0, 0, 0] : Fin 3 → Nat) = fun _ => 0 := by funext a; fin_cases a <;> rfl
  have hz2 : (![0, 0] : Fin 2 → Nat) = fun _ => 0 := by funext a; fin_cases a <;> rfl
  unfold out0_B_2
  rw [View.read_writes_eq_canon _ _ _ (cover0_B_2 c i arg2 harg2 arg3 harg3 arg4 harg4 hc0 x0 x1 xo2)]
  unfold kernelRun0_B
  dsimp only
  sl_unfold_words
  rw [View.canon_unit_zero (S := S1x104x67) hz]
  simp only [View.readAt_eq_ld, harg2.read_unread, harg3.read_unread, harg4.read_unread, View.ld_unit_zero (S := S16384x64) hz2,
    View.ld_unit_zero (S := S1x16384) hz2, View.ld_unit_zero (S := S1x104x67) hz]

end Cert.KernelIdeal.Fr

end
-- ==== Proof.Spec.lean ====
/-
  The mathematics both programs compute, stated once over extended reals and 32-bit words, with no program in sight.

  Rows n < 524288 carry a class word tgt n, a cloud word bat n and a feature row feat n (64 entries); cen holds 13 centre
  rows. A row is VALID when its class word is not -1. Its class is the word itself when valid and 0 otherwise; its
  bucket word is  bat n * 13 + class n  (arithmetic on words). The accumulating program marks an invalid row's bucket
  as -1, which matches none of the 104 bucket numbers; the scattering program keeps the bucket but weighs the row by 0.

  Kernel side: one table acc[bc, k] = sum over rows of [bucket n = bc] * rhs n k, where rhs n is the feature row followed
  by 1, the row's squared norm, and that norm minus itself. From it: the per-bucket feature sums, counts and squared-norm
  sums, the per-bucket sum of squared distances to the class centre by the expansion |f|^2 - 2 c.f + |c|^2, and the
  per-cloud totals.
  Reference side: each row's squared distance to its (clamped) class centre, weighed by validity, summed per cloud; the
  weights summed per cloud; the weighed feature rows and the weights summed per bucket.
  `arrays_eq`: on finite inputs with every class word in [-1, 13) and every cloud word in [0, 8) the four pairs agree.
-/
import Idealize.ShloMosaic.PureOps.Ideal.Laws
import Idealize.ShloMosaic.Lib.ValueIdx

noncomputable section

open scoped BigOperators

namespace Cert.Spec

open Idealize.ShloMosaic Idealize.ShloMosaic.ValueIdx

abbrev SN : Shape := ⟨1, ![524288]⟩
abbrev SNx64 : Shape := ⟨2, ![524288, 64]⟩
abbrev SCx64 : Shape := ⟨2, ![13, 64]⟩

variable (tgt bat : IVec SN 32) (feat : SNx64.Idx → EReal) (cen : SCx64.Idx → EReal)

/-! ## Row by row -/

/-- The class word of row n, with the ignored label -1 replaced by 0. -/
def tg (n : Fin 524288) : BitVec 32 := if tgt (ix1 n) ≠ 4294967295#32 then tgt (ix1 n) else 0#32
/-- The bucket word of row n: cloud * 13 + class, on 32-bit words. -/
def sgR (n : Fin 524288) : BitVec 32 := bat (ix1 n) * 13#32 + tg tgt n
/-- The bucket word the accumulating program compares: -1 for an ignored row. -/
def sgK (n : Fin 524288) : BitVec 32 := if tgt (ix1 n) ≠ 4294967295#32 then sgR tgt bat n else 4294967295#32
/-- The validity weight of row n. -/
def vf (n : Fin 524288) : EReal := if tgt (ix1 n) ≠ 4294967295#32 then 1 else 0
/-- The centre row the reference reads for row n: the class word, a negative one moved up by 13, read signed and clamped into [0, 12]. -/
def gi (n : Fin 524288) : Fin 13 :=
  ⟨min (if (tg tgt n).slt 0#32 then tg tgt n + 13#32 else tg tgt n).toInt.toNat 12, by omega⟩
/-- The squared norm of feature row n. -/
def ssq (n : Fin 524288) : EReal := ∑ d : Fin 64, feat (ix2 n d) * feat (ix2 n d)
/-- The 67 columns the accumulating program sums per bucket: the features, 1, the squared norm, and the squared norm less itself. -/
def rhs (n : Fin 524288) (k : Fin 67) : EReal :=
  if h : k.val < 64 then feat (ix2 n ⟨k.val, h⟩) else if k.val = 64 then 1 else if k.val = 65 then ssq feat n else ssq feat n - ssq feat n

/-! ## The accumulating side -/

/-- The table of per-bucket column sums. -/
def accK (bc : Fin 104) (k : Fin 67) : EReal :=
  ∑ n : Fin 524288, (if sgK tgt bat n = BitVec.ofNat 32 bc.val then (1 : EReal) else 0) * rhs feat n k

/-- Bucket number of cloud b and class c. -/
abbrev bkt (b : Fin 8) (c : Fin 13) : Fin 104 := ⟨13 * b.val + c.val, by omega⟩

def fsumK (b : Fin 8) (c : Fin 13) (d : Fin 64) : EReal := accK tgt bat feat (bkt b c) ⟨d.val, by omega⟩
def ccntK (b : Fin 8) (c : Fin 13) : EReal := accK tgt bat feat (bkt b c) ⟨64, by omega⟩
def ssqK (b : Fin 8) (c : Fin 13) : EReal := accK tgt bat feat (bkt b c) ⟨65, by omega⟩ + accK tgt bat feat (bkt b c) ⟨66, by omega⟩
def cdotK (b : Fin 8) (c : Fin 13) : EReal := ∑ d : Fin 64, cen (ix2 c d) * fsumK tgt bat feat b c d
def cnsq (c : Fin 13) : EReal := ∑ d : Fin 64, cen (ix2 c d) * cen (ix2 c d)
def d2sumK (b : Fin 8) (c : Fin 13) : EReal :=
  (ssqK tgt bat feat b c - (2 : EReal) * cdotK tgt bat feat cen b c) + ccntK tgt bat feat b c * cnsq cen c
def cntbK (b : Fin 8) : EReal := ∑ c : Fin 13, ccntK tgt bat feat b c
def sumbK (b : Fin 8) : EReal := ∑ c : Fin 13, d2sumK tgt bat feat cen b c

/-! ## The scattering side -/

/-- Row n's squared distance to its class centre, weighed by validity. -/
def d2 (n : Fin 524288) : EReal :=
  (∑ d : Fin 64, (feat (ix2 n d) - cen (ix2 (gi tgt n) d)) * (feat (ix2 n d) - cen (ix2 (gi tgt n) d))) * vf tgt n
def sumbR (b : Fin 8) : EReal := ∑ n ∈ Finset.univ.filter (fun n : Fin 524288 => (bat (ix1 n)).toInt = (b.val : Int)), d2 tgt feat cen n
def cntbR (b : Fin 8) : EReal := ∑ n ∈ Finset.univ.filter (fun n : Fin 524288 => (bat (ix1 n)).toInt = (b.val : Int)), vf tgt n
def fsumR (b : Fin 8) (c : Fin 13) (d : Fin 64) : EReal :=
  ∑ n ∈ Finset.univ.filter (fun n : Fin 524288 => (sgR tgt bat n).toInt = ((bkt b c).val : Int)), feat (ix2 n d) * vf tgt n
def ccntR (b : Fin 8) (c : Fin 13) : EReal :=
  ∑ n ∈ Finset.univ.filter (fun n : Fin 524288 => (sgR tgt bat n).toInt = ((bkt b c).val : Int)), vf tgt n

/-! ## The four arrays, as arrays -/

abbrev S8 : Shape := ⟨1, ![8]⟩
abbrev S8x13 : Shape := ⟨2, ![8, 13]⟩
abbrev S8x13x64 : Shape := ⟨3, ![8, 13, 64]⟩
def arr1 (f : Fin 8 → EReal) : S8.Idx → EReal := fun i => f (i 0)
def arr2 (f : Fin 8 → Fin 13 → EReal) : S8x13.Idx → EReal := fun i => f (i 0) (i 1)
def arr3 (f : Fin 8 → Fin 13 → Fin 64 → EReal) : S8x13x64.Idx → EReal := fun i => f (i 0) (i 1) (i 2)

end Cert.Spec

end
-- ==== Proof.KDefs.lean ====
/-
  The accumulating program's host arithmetic between its table and the shared closing stretch, as pure functions:
  the table summed over its two halves; its feature, count and squared-norm columns laid out per cloud and class; the
  per-bucket sum of squared distances by the expansion |f|^2 - 2 c.f + |c|^2; the per-cloud totals. Also the bucket row
  the host prepares for the kernel (cloud * 13 + class for a valid row, -1 otherwise, laid out as one row), and the
  entry formula the table's two halves satisfy: half h sums the rows n with n / 262144 = h.
-/
import proofs.«412901_j12807592477411_3_alg».proof.KernelIdeal
import proofs.«412901_j12807592477411_3_alg».proof.Proof.Spec

noncomputable section

open scoped BigOperators

namespace Cert.KernelIdeal

open Idealize.ShloMosaic Idealize.ShloMosaic.ValueIdx

variable {F : FTy → Type} [FloatOps F] [Facts]
open Facts₀ Facts

/-- The two halves of the table summed. -/
def accOf (out : FVec F S2x104x67 .f32) : FVec F S104x67 .f32 :=
  Host.reduceAdd out (constant S_ .f32 0x00000000#32) reducesTo_S2x104x67_S104x67_d0 h_S_
/-- The feature sums, per cloud and class. -/
def fsumOf (v9 : FVec F S104x67 .f32) : FVec F S8x13x64 .f32 :=
  let v10 : FVec F S104x64 .f32 := extractStridedSlice S104x64 ![0, 0] v9 slices_S104x67_S104x64_0_0
  shapeCast _ v10 shapeCasts_S104x64_S8x13x64
/-- The counts, per cloud and class. -/
def ccntOf (v9 : FVec F S104x67 .f32) : FVec F S8x13 .f32 :=
  let v12 : FVec F S104x1 .f32 := extractStridedSlice S104x1 ![0, 64] v9 slices_S104x67_S104x1_0_64
  let v13 : FVec F S104 .f32 := shapeCast _ v12 shapeCasts_S104x1_S104
  shapeCast _ v13 shapeCasts_S104_S8x13
/-- The sums of squared norms, per cloud and class: the two columns that carry them, added. -/
def ssqOf (v9 : FVec F S104x67 .f32) : FVec F S8x13 .f32 :=
  let v15 : FVec F S104x1 .f32 := extractStridedSlice S104x1 ![0, 65] v9 slices_S104x67_S104x1_0_65
  let v16 : FVec F S104 .f32 := shapeCast _ v15 shapeCasts_S104x1_S104
  let v17 : FVec F S104x1 .f32 := extractStridedSlice S104x1 ![0, 66] v9 slices_S104x67_S104x1_0_66
  let v18 : FVec F S104 .f32 := shapeCast _ v17 shapeCasts_S104x1_S104
  let v19 : FVec F S104 .f32 := addf v16 v18
  shapeCast _ v19 shapeCasts_S104_S8x13
/-- The per-bucket sums of squared distances to the class centre, by the expansion. -/
def d2sumOf (v20 : FVec F S8x13 .f32) (v11 : FVec F S8x13x64 .f32) (v14 : FVec F S8x13 .f32) (cen : FVec F S13x64 .f32) : FVec F S8x13 .f32 :=
  let v21 : FVec F S1x13x64 .f32 := broadcastInDim S1x13x64 ![1, 2] bcast_S13x64_S1x13x64_1_2 cen
  let v22 : FVec F S8x13x64 .f32 := broadcastInDim S8x13x64 ![0, 1, 2] bcast_S1x13x64_S8x13x64_0_1_2 v21
  let v23 : FVec F S8x13x64 .f32 := mulf v22 v11
  let v24 : FVec F S8x13 .f32 := Host.reduceAdd v23 (constant S_ .f32 0x00000000#32) reducesTo_S8x13x64_S8x13_d2 h_S_
  let v25 : FVec F S13x64 .f32 := mulf cen cen
  let v26 : FVec F S13 .f32 := Host.reduceAdd v25 (constant S_ .f32 0x00000000#32) reducesTo_S13x64_S13_d1 h_S_
  let v27 : FVec F S8x13 .f32 := broadcastInDim S8x13 ![] bcast_S_S8x13 (constant S_ .f32 0x40000000#32)
  let v28 : FVec F S8x13 .f32 := mulf v27 v24
  let v29 : FVec F S8x13 .f32 := subf v20 v28
  let v30 : FVec F S1x13 .f32 := broadcastInDim S1x13 ![1] bcast_S13_S1x13_1 v26
  let v31 : FVec F S8x13 .f32 := broadcastInDim S8x13 ![0, 1] bcast_S1x13_S8x13_0_1 v30
  let v32 : FVec F S8x13 .f32 := mulf v14 v31
  addf v29 v32
/-- A per-bucket quantity totalled per cloud. -/
def perCloud (v : FVec F S8x13 .f32) : FVec F S8 .f32 :=
  Host.reduceAdd v (constant S_ .f32 0x00000000#32) reducesTo_S8x13_S8_d1 h_S_

/-- The bucket row the host hands the kernel. -/
def segOf (tgt bat : IVec S524288 32) : IVec S1x524288 32 :=
  let v0 : IVec S524288 32 := broadcastInDim S524288 ![] bcast_S_S524288 (constantI S_ 32 4294967295#32)
  let v1 : IVec S524288 1 := cmpi .ne tgt v0
  let w0 : IVec S524288 32 := broadcastInDim S524288 ![] bcast_S_S524288 (id (constantI S_ 32 0#32))
  let v2 : IVec S524288 32 := select v1 tgt w0
  let v3 : IVec S524288 32 := broadcastInDim S524288 ![] bcast_S_S524288 (constantI S_ 32 13#32)
  let v4 : IVec S524288 32 := muli bat v3
  let v5 : IVec S524288 32 := addi v4 v2
  let w1 : IVec S524288 32 := broadcastInDim S524288 ![] bcast_S_S524288 (id (constantI S_ 32 4294967295#32))
  let v6 : IVec S524288 32 := select v1 v5 w1
  shapeCast _ v6 shapeCasts_S524288_S1x524288

/-- Entry (h, bc, k) of the table the region leaves: the rows of half h whose bucket word is bc, column k summed. -/
def outEntry (feat : Spec.SNx64.Idx → EReal) (seg2 : IVec S1x524288 32) (h : Fin 2) (bc : Fin 104) (k : Fin 67) : EReal :=
  ∑ n : Fin 524288, if n.val / 262144 = h.val then
    (if seg2 (ix2 (0 : Fin 1) n) = BitVec.ofNat 32 bc.val then (1 : EReal) else 0) * Spec.rhs feat n k else 0

end Cert.KernelIdeal

end
-- ==== Proof.Tail.lean ====
/-
  The closing stretch both programs share. From the per-cloud sums of squared distances (sumb), the per-cloud counts
  (cntb), the per-bucket feature sums (fsum) and the per-bucket counts (ccnt) the loss is computed in the same way by
  both: a cloud is present when its count is positive; its intra term is sumb / max(cntb, 1); the class means are
  fsum / max(ccnt, 1); for every ordered pair of distinct classes both present in a cloud the hinge max(1/2 - |mean
  difference|, 0) is averaged over the number of such pairs (at least 1); the intra and inter terms of the present
  clouds are summed, each divided by the number of present clouds (at least 1), added, and scaled by the single-precision
  value nearest 0.01. Stated as one function (in four steps) so that neither side ever opens it.
-/
import proofs.«412901_j12807592477411_3_alg».proof.KernelIdeal

noncomputable section

namespace Cert.KernelIdeal

open Idealize.ShloMosaic

variable {F : FTy → Type} [FloatOps F] [Facts]
open Facts₀ Facts

/-- Which ordered pairs of classes count in each cloud: both present (count positive) and distinct. -/
def pairMask (ccnt : FVec F S8x13 .f32) : IVec S8x13x13 1 :=
  let v41 : FVec F S8x13 .f32 := broadcastInDim S8x13 ![] bcast_S_S8x13 (constant S_ .f32 0x00000000#32)
  let v42 : IVec S8x13 1 := cmpf .ogt ccnt v41
  let v55 : IVec S13x13 32 := iotaInDim S13x13 32 0
  let v56 : IVec S13x13 32 := iotaInDim S13x13 32 1
  let v57 : IVec S13x13 32 := broadcastInDim S13x13 ![] bcast_S_S13x13 (constantI S_ 32 0#32)
  let v58 : IVec S13x13 32 := addi v55 v57
  let v59 : IVec S13x13 1 := cmpi .eq v58 v56
  let v60 : IVec S8x13x1 1 := broadcastInDim S8x13x1 ![0, 1] bcast_S8x13_S8x13x1_0_1 v42
  let v61 : IVec S8x1x13 1 := broadcastInDim S8x1x13 ![0, 2] bcast_S8x13_S8x1x13_0_2 v42
  let v62 : IVec S8x13x13 1 := broadcastInDim S8x13x13 ![0, 1, 2] bcast_S8x13x1_S8x13x13_0_1_2 v60
  let v63 : IVec S8x13x13 1 := broadcastInDim S8x13x13 ![0, 1, 2] bcast_S8x1x13_S8x13x13_0_1_2 v61
  let v64 : IVec S8x13x13 1 := andi v62 v63
  let v65 : IVec S13x13 1 := noti v59
  let v66 : IVec S1x13x13 1 := broadcastInDim S1x13x13 ![1, 2] bcast_S13x13_S1x13x13_1_2 v65
  let v67 : IVec S8x13x13 1 := broadcastInDim S8x13x13 ![0, 1, 2] bcast_S1x13x13_S8x13x13_0_1_2 v66
  andi v64 v67

/-- The squared distance between the class means of every ordered pair of classes, per cloud. -/
def pairDist2 (fsum : FVec F S8x13x64 .f32) (ccnt : FVec F S8x13 .f32) : FVec F S8x13x13 .f32 :=
  let v43 : FVec F S8x13 .f32 := broadcastInDim S8x13 ![] bcast_S_S8x13 (constant S_ .f32 0x3F800000#32)
  let v44 : FVec F S8x13 .f32 := maximumf ccnt v43
  let v45 : FVec F S8x13x1 .f32 := broadcastInDim S8x13x1 ![0, 1] bcast_S8x13_S8x13x1_0_1 v44
  let v46 : FVec F S8x13x64 .f32 := broadcastInDim S8x13x64 ![0, 1, 2] bcast_S8x13x1_S8x13x64_0_1_2 v45
  let v47 : FVec F S8x13x64 .f32 := Host.divf fsum v46
  let v48 : FVec F S8x13x1x64 .f32 := broadcastInDim S8x13x1x64 ![0, 1, 3] bcast_S8x13x64_S8x13x1x64_0_1_3 v47
  let v49 : FVec F S8x1x13x64 .f32 := broadcastInDim S8x1x13x64 ![0, 2, 3] bcast_S8x13x64_S8x1x13x64_0_2_3 v47
  let v50 : FVec F S8x13x13x64 .f32 := broadcastInDim S8x13x13x64 ![0, 1, 2, 3] bcast_S8x13x1x64_S8x13x13x64_0_1_2_3 v48
  let v51 : FVec F S8x13x13x64 .f32 := broadcastInDim S8x13x13x64 ![0, 1, 2, 3] bcast_S8x1x13x64_S8x13x13x64_0_1_2_3 v49
  let v52 : FVec F S8x13x13x64 .f32 := subf v50 v51
  let v53 : FVec F S8x13x13x64 .f32 := mulf v52 v52
  Host.reduceAdd v53 (constant S_ .f32 0x00000000#32) reducesTo_S8x13x13x64_S8x13x13_d3 h_S_

/-- The inter term of each cloud: the hinge on the distance of the counted pairs, averaged over their number (at least 1). -/
def interTerm (v68 : IVec S8x13x13 1) (v54 : FVec F S8x13x13 .f32) : FVec F S8 .f32 :=
  let w1 : FVec F S8x13x13 .f32 := broadcastInDim S8x13x13 ![] bcast_S_S8x13x13 (id (constant S_ .f32 0x3F800000#32))
  let v69 : FVec F S8x13x13 .f32 := select v68 v54 w1
  let v70 : FVec F S8x13x13 .f32 := Host.sqrt v69
  let v71 : FVec F S8x13x13 .f32 := broadcastInDim S8x13x13 ![] bcast_S_S8x13x13 (constant S_ .f32 0x3F000000#32)
  let v72 : FVec F S8x13x13 .f32 := subf v71 v70
  let v73 : FVec F S8x13x13 .f32 := broadcastInDim S8x13x13 ![] bcast_S_S8x13x13 (constant S_ .f32 0x00000000#32)
  let v74 : FVec F S8x13x13 .f32 := maximumf v72 v73
  let w0 : FVec F S8x13x13 .f32 := broadcastInDim S8x13x13 ![] bcast_S_S8x13x13 (id (constant S_ .f32 0x00000000#32))
  let v75 : FVec F S8x13x13 .f32 := select v68 v74 w0
  let v76 : IVec S8x13x13 32 := extui 32 v68 natLt_1_32
  let v77 : IVec S8 32 := Host.reduce IntOp.addi v76 (constantI S_ 32 0#32) reducesTo_S8x13x13_S8_d1_2 h_S_
  let v78 : FVec F S8 .f32 := Host.reduceAdd v75 (constant S_ .f32 0x00000000#32) reducesTo_S8x13x13_S8_d1_2 h_S_
  let v79 : IVec S8 32 := broadcastInDim S8 ![] bcast_S_S8 (constantI S_ 32 1#32)
  let v80 : IVec S8 32 := maxsi v77 v79
  let v81 : FVec F S8 .f32 := sitofp .f32 v80
  Host.divf v78 v81

/-- The loss from the per-cloud sums, counts and inter terms. -/
def lossOf (sumb cntb v82 : FVec F S8 .f32) : FVec F S_ .f32 :=
  let v36 : FVec F S8 .f32 := broadcastInDim S8 ![] bcast_S_S8 (constant S_ .f32 0x00000000#32)
  let v37 : IVec S8 1 := cmpf .ogt cntb v36
  let v38 : FVec F S8 .f32 := broadcastInDim S8 ![] bcast_S_S8 (constant S_ .f32 0x3F800000#32)
  let v39 : FVec F S8 .f32 := maximumf cntb v38
  let v40 : FVec F S8 .f32 := Host.divf sumb v39
  let v83 : IVec S8 32 := extui 32 v37 natLt_1_32
  let v84 : IVec S_ 32 := Host.reduce IntOp.addi v83 (constantI S_ 32 0#32) reducesTo_S8_S_d0 h_S_
  let v85 : IVec S_ 32 := maxsi v84 (constantI S_ 32 1#32)
  let v86 : FVec F S_ .f32 := sitofp .f32 v85
  let z8 : FVec F S8 .f32 := broadcastInDim S8 ![] bcast_S_S8 (id (constant S_ .f32 0x00000000#32))
  let v87 : FVec F S8 .f32 := select v37 v40 z8
  let v88 : FVec F S_ .f32 := Host.reduceAdd v87 (constant S_ .f32 0x00000000#32) reducesTo_S8_S_d0 h_S_
  let v89 : FVec F S8 .f32 := select v37 v82 z8
  let v90 : FVec F S_ .f32 := Host.reduceAdd v89 (constant S_ .f32 0x00000000#32) reducesTo_S8_S_d0 h_S_
  let v91 : FVec F S_ .f32 := mulf (constant S_ .f32 0x3F800000#32) v88
  let v92 : FVec F S_ .f32 := Host.divf v91 v86
  let v93 : FVec F S_ .f32 := mulf (constant S_ .f32 0x3F800000#32) v90
  let v94 : FVec F S_ .f32 := Host.divf v93 v86
  let v95 : FVec F S_ .f32 := addf v92 v94
  mulf (constant S_ .f32 0x3C23D70A#32) v95

/-- The loss as a function of the four intermediate arrays. -/
def lossTail (sumb cntb : FVec F S8 .f32) (fsum : FVec F S8x13x64 .f32) (ccnt : FVec F S8x13 .f32) : FVec F S_ .f32 :=
  lossOf sumb cntb (interTerm (pairMask ccnt) (pairDist2 fsum ccnt))

end Cert.KernelIdeal

end
-- ==== Proof.KTerm.lean ====
/-
  The accumulating program's run read back as one pure term. The sixteen host operations before the region leave, in
  the array the second window stages, the bucket row of the targets and the cloud numbers; the operations after the
  region compute the loss from the table the region leaves and the class centres, and that composed term is the closing
  stretch applied to the per-cloud totals, the feature sums and the counts read off the table summed over its two halves.
  No operation writes an argument.
-/
import proofs.«412901_j12807592477411_3_alg».proof.Proof.KFrame
import proofs.«412901_j12807592477411_3_alg».proof.Proof.KDefs
import proofs.«412901_j12807592477411_3_alg».proof.Proof.Tail
import Idealize.ShloMosaic.Lib.StableHlo.Run

set_option maxRecDepth 16384

noncomputable section

namespace Cert.KernelIdeal.KVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Before the region -/

/-- The array of the second window when the region is entered: the bucket row of the targets and the cloud numbers. -/
theorem V_main_v7 (c : Dev nD) : Fr.V m c main_v7 = segOf (m ((c : Thread nD τ).loc main_arg1)) (m ((c : Thread nD τ).loc main_arg3)) := by
  show StableHlo.after (List.flatten (Fr.preOps (F := F))) (fun b => m (c, b)) (Proc.devRef .tc main_v7) = _
  simp only [Fr.preOps, Gen.hostOps0, Gen.hostOps0_1, Gen.hostOps0_2, Gen.hostOps0_3, Gen.hostOps0_4, List.flatten_cons, List.flatten_nil, List.append_nil, List.cons_append, List.nil_append]
  after_results
  simp only [StableHlo.TRef.ofBuf, StableHlo.TRef.toBuf, cast_eq]
  rfl

/-! ## After the region -/

/-- The loss as the closing operations compute it from the table and the class centres. -/
def lossOfTable (out : FVec F S2x104x67 .f32) (cen : FVec F S13x64 .f32) : FVec F S_ .f32 :=
  lossTail (perCloud (d2sumOf (ssqOf (accOf out)) (fsumOf (accOf out)) (ccntOf (accOf out)) cen))
    (perCloud (ccntOf (accOf out))) (fsumOf (accOf out)) (ccntOf (accOf out))

set_option maxHeartbeats 4000000 in
/-- From any contents W the operations after the region leave, in the result buffer, the loss of the table and the
    class centres W holds: each operation's result is its function of its operands' contents, composed in order. -/
theorem tail_v96 (W : Valuation τ sig (Elt F)) :
    StableHlo.after (List.flatten (Fr.tailOps (F := F))) W (Proc.devRef .tc main_v96)
      = lossOfTable (W (Proc.devRef .tc main_v8)) (W (Proc.devRef .tc main_arg4)) := by
  simp only [Fr.tailOps, Gen.hostOps1, Gen.hostOps1_1, Gen.hostOps1_2, Gen.hostOps1_3, Gen.hostOps1_4, Gen.hostOps1_5, Gen.hostOps1_6, Gen.hostOps1_7, Gen.hostOps1_8, List.flatten_cons, List.flatten_nil, List.append_nil, List.cons_append, List.nil_append]
  after_results_simp
  simp only [StableHlo.TRef.ofBuf, StableHlo.TRef.toBuf, cast_eq]
  rfl

/-! ### The arguments no window stages: no operation after the region is their result's -/

private theorem tail_arg0 (W : Valuation τ sig (Elt F)) :
    StableHlo.after (List.flatten (Fr.tailOps (F := F))) W (Proc.devRef .tc main_arg0) = W (Proc.devRef .tc main_arg0) := by
  simp only [Fr.tailOps, Gen.hostOps1, Gen.hostOps1_1, Gen.hostOps1_2, Gen.hostOps1_3, Gen.hostOps1_4, Gen.hostOps1_5, Gen.hostOps1_6, Gen.hostOps1_7, Gen.hostOps1_8, List.flatten_cons, List.flatten_nil, List.append_nil, List.cons_append, List.nil_append]
  after_results_simp

private theorem tail_arg1 (W : Valuation τ sig (Elt F)) :
    StableHlo.after (List.flatten (Fr.tailOps (F := F))) W (Proc.devRef .tc main_arg1) = W (Proc.devRef .tc main_arg1) := by
  simp only [Fr.tailOps, Gen.hostOps1, Gen.hostOps1_1, Gen.hostOps1_2, Gen.hostOps1_3, Gen.hostOps1_4, Gen.hostOps1_5, Gen.hostOps1_6, Gen.hostOps1_7, Gen.hostOps1_8, List.flatten_cons, List.flatten_nil, List.append_nil, List.cons_append, List.nil_append]
  after_results_simp

private theorem tail_arg3 (W : Valuation τ sig (Elt F)) :
    StableHlo.after (List.flatten (Fr.tailOps (F := F))) W (Proc.devRef .tc main_arg3) = W (Proc.devRef .tc main_arg3) := by
  simp only [Fr.tailOps, Gen.hostOps1, Gen.hostOps1_1, Gen.hostOps1_2, Gen.hostOps1_3, Gen.hostOps1_4, Gen.hostOps1_5, Gen.hostOps1_6, Gen.hostOps1_7, Gen.hostOps1_8, List.flatten_cons, List.flatten_nil, List.append_nil, List.cons_append, List.nil_append]
  after_results_simp

private theorem tail_arg4 (W : Valuation τ sig (Elt F)) :
    StableHlo.after (List.flatten (Fr.tailOps (F := F))) W (Proc.devRef .tc main_arg4) = W (Proc.devRef .tc main_arg4) := by
  simp only [Fr.tailOps, Gen.hostOps1, Gen.hostOps1_1, Gen.hostOps1_2, Gen.hostOps1_3, Gen.hostOps1_4, Gen.hostOps1_5, Gen.hostOps1_6, Gen.hostOps1_7, Gen.hostOps1_8, List.flatten_cons, List.flatten_nil, List.append_nil, List.cons_append, List.nil_append]
  after_results_simp

/-! ### The contents after the operations that follow the region -/

private theorem afterTail_arg0 (c : Dev nD) :
    Pipeline.afterTail₀ cfgs (Fr.dats m) 0 (Fr.V0 m) (Fr.tailOps (F := F)) c main_arg0 = m ((c.tc : Thread nD τ).loc main_arg0) := by
  unfold Pipeline.afterTail₀
  rw [tail_arg0, Pipeline.withArrays_of_ne _ c (Fr.V0 m c) _ main_arg0 (by decide)]
  exact Fr.V_main_arg0 m c

private theorem afterTail_arg1 (c : Dev nD) :
    Pipeline.afterTail₀ cfgs (Fr.dats m) 0 (Fr.V0 m) (Fr.tailOps (F := F)) c main_arg1 = m ((c.tc : Thread nD τ).loc main_arg1) := by
  unfold Pipeline.afterTail₀
  rw [tail_arg1, Pipeline.withArrays_of_ne _ c (Fr.V0 m c) _ main_arg1 (by decide)]
  exact Fr.V_main_arg1 m c

private theorem afterTail_arg3 (c : Dev nD) :
    Pipeline.afterTail₀ cfgs (Fr.dats m) 0 (Fr.V0 m) (Fr.tailOps (F := F)) c main_arg3 = m ((c.tc : Thread nD τ).loc main_arg3) := by
  unfold Pipeline.afterTail₀
  rw [tail_arg3, Pipeline.withArrays_of_ne _ c (Fr.V0 m c) _ main_arg3 (by decide)]
  exact Fr.V_main_arg3 m c

private theorem afterTail_arg4 (c : Dev nD) :
    Pipeline.afterTail₀ cfgs (Fr.dats m) 0 (Fr.V0 m) (Fr.tailOps (F := F)) c main_arg4 = m ((c.tc : Thread nD τ).loc main_arg4) := by
  unfold Pipeline.afterTail₀
  rw [tail_arg4, Pipeline.withArrays_of_ne _ c (Fr.V0 m c) _ main_arg4 (by decide)]
  exact Fr.V_main_arg4 m c

/-- The result buffer after the operations that follow the region: the loss of the table the region leaves (the
    third window's array after every write-back) and the class centres as launched. -/
theorem afterTail_v96 (c : Dev nD) :
    Pipeline.afterTail₀ cfgs (Fr.dats m) 0 (Fr.V0 m) (Fr.tailOps (F := F)) c main_v96
      = lossOfTable ((Fr.dats m 0 c).arrAt 2 cfg0.N : FVec F S2x104x67 .f32) (m ((c.tc : Thread nD τ).loc main_arg4)) := by
  unfold Pipeline.afterTail₀
  rw [tail_v96]
  have e8 : Pipeline.withArrays (cfgs 0).spec c (Fr.V0 m c) (fun w => (Fr.dats m 0 c).arrAt w (cfgs 0).N) (Proc.devRef .tc main_v8)
      = (Fr.dats m 0 c).arrAt 2 cfg0.N := Pipeline.withArrays_arr spec0 Gen.launch0.win.arr_inj c _ _ 2
  have e4 : Pipeline.withArrays (cfgs 0).spec c (Fr.V0 m c) (fun w => (Fr.dats m 0 c).arrAt w (cfgs 0).N) (Proc.devRef .tc main_arg4)
      = m ((c.tc : Thread nD τ).loc main_arg4) :=
    (Pipeline.withArrays_of_ne _ c (Fr.V0 m c) _ main_arg4 (by decide)).trans (Fr.V_main_arg4 m c)
  rw [e8, e4]

/-! ## The run -/

/-- Every run of the program ends with the result buffer at the loss of the table the region leaves and the class
    centres, and with the five arguments as launched. -/
theorem kernel_term_run (ρ : Dev nD → PrngReg) : θ_run defs (onTc (τ := τ) (main (F := F))) ⟨m, fun _ => 0, ρ⟩ (fun r => ∀ c : Dev nD,
      r.2.mem ((c.tc : Thread nD τ).loc main_v96)
        = lossTail (perCloud (d2sumOf (ssqOf (accOf ((Fr.dats m 0 c).arrAt 2 cfg0.N : FVec F S2x104x67 .f32))) (fsumOf (accOf ((Fr.dats m 0 c).arrAt 2 cfg0.N : FVec F S2x104x67 .f32))) (ccntOf (accOf ((Fr.dats m 0 c).arrAt 2 cfg0.N : FVec F S2x104x67 .f32))) (m ((c.tc : Thread nD τ).loc main_arg4))))
            (perCloud (ccntOf (accOf ((Fr.dats m 0 c).arrAt 2 cfg0.N : FVec F S2x104x67 .f32)))) (fsumOf (accOf ((Fr.dats m 0 c).arrAt 2 cfg0.N : FVec F S2x104x67 .f32))) (ccntOf (accOf ((Fr.dats m 0 c).arrAt 2 cfg0.N : FVec F S2x104x67 .f32)))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4)) :=
  (θ_run defs _ _).mono (fun _ h c =>
    ⟨((h c).2 main_v96 (Pipeline.mem_restRefs_of main_v96 (by decide) (by decide))).trans (afterTail_v96 m c),
     ((h c).2 main_arg0 (Pipeline.mem_restRefs_of main_arg0 (by decide) (by decide))).trans (afterTail_arg0 m c),
     ((h c).2 main_arg1 (Pipeline.mem_restRefs_of main_arg1 (by decide) (by decide))).trans (afterTail_arg1 m c),
     ((h c).1 0).trans (((Fr.dats m 0 c).arrAt_in 0 rfl _).trans ((Fr.A_eq m c 0).trans (Fr.V_main_arg2 m c))),
     ((h c).2 main_arg3 (Pipeline.mem_restRefs_of main_arg3 (by decide) (by decide))).trans (afterTail_arg3 m c),
     ((h c).2 main_arg4 (Pipeline.mem_restRefs_of main_arg4 (by decide) (by decide))).trans (afterTail_arg4 m c)⟩) (Fr.run_main m ρ)

end Cert.KernelIdeal.KVal

end
-- ==== Proof.LibPlainDot.lean ====
/-
  A plain matrix product read at one entry. For the dimension numbers "rows × contraction by contraction × columns"
  with no batch axis, the product into a zero accumulator, at row `r` and column `q`, is the sum over the contracted
  coordinate `j` of the left operand at (r, j) times the right operand at (j, q). The same holds for the host's
  `dot_general`. Both are stated over extended reals, where the product is the exact sum.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The left operand's index at output entry (r, q) and contracted coordinate `j` is (r, j). -/
theorem plain_lhsIdx (M K N : Nat) (r : Fin M) (q : Fin N) (j : Fin K) :
    (DotDims.plain M K N).lhsIdx (ix2 r q) ((contrEquiv1 (DotDims.plain M K N) K rfl rfl).symm j) = ix2 r j := by
  have hj := contrEquiv1_symm_val (DotDims.plain M K N) K rfl rfl j
  funext a
  apply Fin.ext
  match a with
  | ⟨0, _⟩ => rfl
  | ⟨1, _⟩ => refine Eq.trans ?_ hj; rfl

/-- The right operand's index at output entry (r, q) and contracted coordinate `j` is (j, q). -/
theorem plain_rhsIdx (M K N : Nat) (r : Fin M) (q : Fin N) (j : Fin K) :
    (DotDims.plain M K N).rhsIdx (ix2 r q) ((contrEquiv1 (DotDims.plain M K N) K rfl rfl).symm j) = ix2 j q := by
  have hj := contrEquiv1_symm_val (DotDims.plain M K N) K rfl rfl j
  funext a
  apply Fin.ext
  match a with
  | ⟨0, _⟩ => refine Eq.trans ?_ hj; rfl
  | ⟨1, _⟩ => rfl

/-- The matrix unit's product into a zero accumulator, at one entry. -/
theorem matmul_plain_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    FloatOps.matmul (DotDims.plain M K N) prec A B (constant ⟨2, ![M, N]⟩ .f32 0x00000000#32) (ix2 r q)
      = ∑ j : Fin K, A (ix2 r j) * B (ix2 j q) := by
  rw [Ideal.matmul_constant_zero_apply, ← Equiv.sum_comp (contrEquiv1 (DotDims.plain M K N) K rfl rfl).symm]
  refine Finset.sum_congr rfl fun j _ => ?_
  rw [plain_lhsIdx, plain_rhsIdx]

/-- The host's `dot_general`, at one entry. -/
theorem dotGeneral_plain_apply {φ₁ φ₂ : FTy} (M K N : Nat) (prec : Option ContractPrecision) (sched : HostSchedule)
    (A : FVec Ideal ⟨2, ![M, K]⟩ φ₁) (B : FVec Ideal ⟨2, ![K, N]⟩ φ₂) (r : Fin M) (q : Fin N) :
    FloatOps.dotGeneral (DotDims.plain M K N) prec sched A B (ix2 r q) = ∑ j : Fin K, A (ix2 r j) * B (ix2 j q) := by
  rw [Ideal.dotGeneral_apply, ← Equiv.sum_comp (contrEquiv1 (DotDims.plain M K N) K rfl rfl).symm]
  refine Finset.sum_congr rfl fun j _ => ?_
  rw [plain_lhsIdx, plain_rhsIdx]

end Cert.LibPlainDot

end
-- ==== Proof.PayIdx.lean ====
/-
  What the kernel body's two stored values hold, entry by entry, over the extended reals (a float is an extended real,
  every operation exact, a format change the identity, the float of a word its integer value).

  The first stored value is the zero block. The second is the previous accumulator block plus a matrix product: the
  left factor is the one-hot matrix of the segment words (entry (c, r) is one where row r's segment word is the class
  number c, zero elsewhere), the right factor has 67 columns per row r: the 64 features, a one, the row's squared norm,
  and the squared norm less itself. So entry (c, k) of the product is the sum, over the rows r of class c, of column k.
-/
import proofs.«412901_j12807592477411_3_alg».proof.Proof.Gen.KernelIdeal.Skeleton
import proofs.«412901_j12807592477411_3_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.PayIdx

open Idealize.ShloMosaic Idealize.ShloMosaic.ValueIdx Cert.KernelIdeal Cert.KernelIdeal.Gen

/-- The squared norm of row r of a feature block. -/
def ssqRow (x0 : Vec Ideal S16384x64 .f32) (r : Fin 16384) : EReal := ∑ d : Fin 64, x0 (ix2 r d) * x0 (ix2 r d)

/-- The 67 columns of row r: the features, 1, the squared norm, the squared norm less itself. -/
def rhsRow (x0 : Vec Ideal S16384x64 .f32) (r : Fin 16384) (k : Fin 67) : EReal :=
  if h : k.val < 64 then x0 (ix2 r ⟨k.val, h⟩) else if k.val = 64 then 1 else if k.val = 65 then ssqRow x0 r else ssqRow x0 r - ssqRow x0 r

/-- The stored zero block holds zero at every entry. -/
theorem pay1_apply (j : S1x104x67.Idx) : k0_pay1 (F := Ideal) j = 0 := by
  unfold k0_pay1
  exact Ideal.ofBits_zero_f32

/-- The lane sum of the squared features, at row r, is the squared norm of that row. -/
theorem sumsq_apply (x0 : FVec Ideal S16384x64 .f32) (h : S16384x64.Reduces [1] S16384) (hφ : FKind.Formats .f32)
    (hacc : (0x00000000#32 : BitVec FTy.f32.bits) = FKind.add.neutral .f32 hφ) (r : Fin 16384) :
    multiReduction (F := Ideal) .add [1] S16384 (mulf x0 x0) 0x00000000#32 h hφ hacc (ix1 r) = ssqRow x0 r := by
  refine (Ideal.multiReduction_add_single (mulf x0 x0) _ h hφ hacc (ix1 r)).trans ?_
  refine Finset.sum_congr rfl fun (d : Fin 64) _ => ?_
  have e : h.lift (ix1 r) d = ix2 r d := by
    funext c
    apply Fin.ext
    show h.liftVal (ix1 r) d.val c = _
    unfold Shape.Reduces.liftVal
    match c with
    | ⟨0, _⟩ => rfl
    | ⟨1, _⟩ => rfl
  rw [e]
  rfl

/-- The same sums as a one-column matrix. -/
theorem sumsqCol_apply (v : FVec Ideal S16384 .f32) (hc : S16384.ShapeCasts S16384x1) (r : Fin 16384) (u : Fin 1) :
    shapeCast S16384x1 v hc (ix2 r u) = v (ix1 r) := by
  refine shapeCast_apply v hc (ix2 r u) (ix1 r) ?_
  rw [Shape.rowMajor_val_one, Shape.rowMajor_val_two]
  show r.val = r.val * 1 + u.val
  omega

/-- The segment word of row r compared with the class number bc, as a float: one where they agree, zero elsewhere. -/
theorem onehot_apply (x1 : IVec S1x16384 32) (hs : S1x16384.ShapeCasts S1x16384) (hb : S1x16384.Broadcasts S104x16384)
    (hi : S104x16384.Iotas .tc 32 [0]) (hlt : 1 < 32) (hbits : FTy.bf16.bits < FTy.f32.bits) (bc : Fin 104) (r : Fin 16384) :
    (truncf .bf16 (sitofp (F := Ideal) .f32 (extui 32 (cmpi .eq (broadcastTo S104x16384 (shapeCast S1x16384 (shapeCast S1x16384 x1 hs) hs) hb)
        (iota .tc S104x16384 32 [0] hi)) hlt)) hbits : FVec Ideal S104x16384 .bf16) (ix2 bc r)
      = if x1 (ix2 (0 : Fin 1) r) = BitVec.ofNat 32 bc.val then (1 : EReal) else 0 := by
  have e1 : broadcastTo S104x16384 (shapeCast S1x16384 (shapeCast S1x16384 x1 hs) hs) hb (ix2 bc r) = x1 (ix2 (0 : Fin 1) r) := by
    rw [shapeCast_self, shapeCast_self]
    exact broadcastTo_1b_ab_apply x1 hb bc r
  have e2 : iota .tc S104x16384 32 [0] hi (ix2 bc r) = BitVec.ofNat 32 bc.val :=
    iota_single_apply .tc S104x16384 32 0 hi (ix2 bc r)
  show ((((IntOp.cmpi .eq (broadcastTo S104x16384 (shapeCast S1x16384 (shapeCast S1x16384 x1 hs) hs) hb (ix2 bc r))
      (iota .tc S104x16384 32 [0] hi (ix2 bc r))).setWidth 32).toInt : ℝ) : EReal) = _
  rw [e1, e2]
  by_cases h : x1 (ix2 (0 : Fin 1) r) = BitVec.ofNat 32 bc.val
  · rw [if_pos h, h]
    simp [IntOp.cmpi]
  · rw [if_neg h]
    have : (x1 (ix2 (0 : Fin 1) r) == BitVec.ofNat 32 bc.val) = false := by simpa using h
    simp [IntOp.cmpi, this]

/-- The bf16 word 0x3F80 is one. -/
theorem one_bf16 : Ideal.ofBits .bf16 0x3F80#16 = 1 := by
  rw [show (1 : EReal) = ((1 : ℝ) : EReal) by norm_cast]
  simp [Ideal.ofBits, Ideal.ieee, -EReal.coe_mul]; norm_num

/-- The four blocks that are laid side by side: the features, a column of ones, the squared norms, and the squared norms less themselves. -/
def rhsPieces (x0 : FVec Ideal S16384x64 .f32) (col : FVec Ideal S16384x1 .f32) (hbits : FTy.bf16.bits < FTy.f32.bits) :
    List ((s : Shape) × (s.Idx → Ideal .bf16)) :=
  [⟨S16384x64, truncf .bf16 x0 hbits⟩, ⟨S16384x1, broadcast S16384x1 (Scalar.ofBits (F := Ideal) .bf16 0x3F80#16)⟩,
    ⟨S16384x1, truncf .bf16 col hbits⟩, ⟨S16384x1, truncf .bf16 (subf col col) hbits⟩]

/-- The four blocks laid side by side, read at row r and column k. -/
theorem rhs_apply (x0 : FVec Ideal S16384x64 .f32) (col : FVec Ideal S16384x1 .f32) (hbits : FTy.bf16.bits < FTy.f32.bits)
    (hc : Shape.Concatenates ((rhsPieces x0 col hbits).map (·.1)) S16384x67 1)
    (hcol : ∀ (r : Fin 16384) (u : Fin 1), col (ix2 r u) = ssqRow x0 r) (r : Fin 16384) (k : Fin 67) :
    concatenate S16384x67 1 (rhsPieces x0 col hbits) hc (ix2 r k) = rhsRow x0 r k := by
  unfold rhsRow
  by_cases h0 : k.val < 64
  · rw [dif_pos h0]
    exact concatenate_apply_piece (1 : Fin 2) (rhsPieces x0 col hbits) hc (ix2 r k) 0 (by simp [rhsPieces]) S16384x64 _ rfl rfl 0 rfl
      (ix2 r ⟨k.val, h0⟩) (fun b hb => match b, hb with | ⟨0, _⟩, _ => rfl | ⟨1, _⟩, hb => absurd rfl hb) (Nat.zero_add _)
  · rw [dif_neg h0]
    by_cases h1 : k.val = 64
    · rw [if_pos h1]
      refine (concatenate_apply_piece (1 : Fin 2) (rhsPieces x0 col hbits) hc (ix2 r k) 1 (by simp [rhsPieces]) S16384x1 _ rfl rfl 64 rfl
        (ix2 r (0 : Fin 1)) (fun b hb => match b, hb with | ⟨0, _⟩, _ => rfl | ⟨1, _⟩, hb => absurd rfl hb) h1.symm).trans ?_
      exact one_bf16
    · rw [if_neg h1]
      by_cases h2 : k.val = 65
      · rw [if_pos h2]
        refine (concatenate_apply_piece (1 : Fin 2) (rhsPieces x0 col hbits) hc (ix2 r k) 2 (by simp [rhsPieces]) S16384x1 _ rfl rfl 65 rfl
          (ix2 r (0 : Fin 1)) (fun b hb => match b, hb with | ⟨0, _⟩, _ => rfl | ⟨1, _⟩, hb => absurd rfl hb) h2.symm).trans ?_
        exact hcol r 0
      · rw [if_neg h2]
        have h3 : k.val = 66 := by have := k.isLt; omega
        refine (concatenate_apply_piece (1 : Fin 2) (rhsPieces x0 col hbits) hc (ix2 r k) 3 (by simp [rhsPieces]) S16384x1 _ rfl rfl 66 rfl
          (ix2 r (0 : Fin 1)) (fun b hb => match b, hb with | ⟨0, _⟩, _ => rfl | ⟨1, _⟩, hb => absurd rfl hb) h3.symm).trans ?_
        show col (ix2 r 0) - col (ix2 r 0) = _
        rw [hcol r 0]

/-- The stored accumulator block, entry by entry: the previous block plus, over the rows whose segment word is the
    class number, the sum of the row's 67 columns. -/
theorem pay2_apply (x0 : Vec Ideal S16384x64 .f32) (x1 : Vec Ideal S1x16384 .i32) (prev : Vec Ideal S1x104x67 .f32) (bc : Fin 104) (k : Fin 67) :
    k0_pay2 (F := Ideal) x0 x1 prev (ix3 (0 : Fin 1) bc k)
      = prev (ix3 (0 : Fin 1) bc k) + ∑ r : Fin 16384, (if x1 (ix2 (0 : Fin 1) r) = BitVec.ofNat 32 bc.val then (1 : EReal) else 0) * rhsRow x0 r k := by
  unfold k0_pay2
  refine (shapeCast_ab_1ab_apply (a := 104) (b := 67) _ _ (0 : Fin 1) bc k).trans ?_
  refine (addf_apply _ _ (ix2 bc k)).trans ?_
  refine congrArg₂ (· + ·) (shapeCast_1ab_ab_apply (a := 104) (b := 67) prev _ bc k) ?_
  refine (Cert.LibPlainDot.matmul_plain_apply 104 16384 67 none _ _ bc k).trans ?_
  refine Finset.sum_congr rfl fun (r : Fin 16384) _ => ?_
  refine congrArg₂ (· * ·) (onehot_apply x1 _ _ _ _ _ bc r) ?_
  refine rhs_apply x0 _ _ _ (fun r u => ?_) r k
  refine (sumsqCol_apply _ _ r u).trans ?_
  exact sumsq_apply x0 _ _ _ r

end Cert.KernelIdeal.PayIdx

end
-- ==== Proof.KPoints.lean ====
/-
  What the kernel's output block holds after each grid point, entry by entry, over the extended reals.

  The grid has 32 points t = 16 h + i. At every point the kernel adds to the block, for each bucket bc and column k,
  the sum over the point's 16384 rows of [the row's bucket word is bc] times column k of the row's right-hand side
  (the 64 features, 1, the squared norm, and the squared norm less itself); at the points with i = 0 it first clears
  the block. Row r of point t's blocks is row 16384 t + r of the arrays. Hence after point t the block holds the sum
  over the rows n with 16384 (t - t % 16) ≤ n < 16384 (t + 1): the rows of the current half seen so far.
-/
import proofs.«412901_j12807592477411_3_alg».proof.Proof.KFrame
import proofs.«412901_j12807592477411_3_alg».proof.Proof.PayIdx
import proofs.«412901_j12807592477411_3_alg».proof.Proof.KDefs
import Mathlib.Algebra.BigOperators.Group.Finset.Basic
import Mathlib.Algebra.BigOperators.Fin

set_option maxRecDepth 16384

noncomputable section

open scoped BigOperators

namespace Cert.KernelIdeal.KVal

open Cert.KernelIdeal Cert.KernelIdeal.Gen
open Idealize.ShloMosaic Idealize.ShloMosaic.TcCoe Idealize.ShloMosaic.Tactic
open Idealize.ShloMosaic.ValueIdx
open Idealize.ShloMosaic.Pipeline (Dat Cfg Window BodyObligation cellOf)

variable (m : (ℓ : Loc nD τ sig) → Buf (Elt Ideal) ℓ)

/-! ## Sums over a block of rows -/

/-- A sum over the B rows of block t is the sum over all N rows of the same terms kept on the interval
    [B t, B (t + 1)) and replaced by 0 elsewhere. -/
theorem sum_block_eq_sum_indicator {M : Type} [AddCommMonoid M] (B N t : ℕ) (h : B * (t + 1) ≤ N) (g : Fin N → M) :
    (∑ r : Fin B, g ⟨B * t + r.val, by have := r.isLt; have hs : B * (t + 1) = B * t + B := Nat.mul_succ B t; omega⟩)
      = ∑ n : Fin N, if B * t ≤ n.val ∧ n.val < B * (t + 1) then g n else 0 := by
  have hs : B * (t + 1) = B * t + B := Nat.mul_succ B t
  rw [← Finset.sum_filter]
  refine Finset.sum_bij (fun r _ => (⟨B * t + r.val, by have := r.isLt; omega⟩ : Fin N)) ?_ ?_ ?_ ?_
  · intro r _
    rw [Finset.mem_filter]
    refine ⟨Finset.mem_univ _, ?_⟩
    show B * t ≤ B * t + r.val ∧ B * t + r.val < B * (t + 1)
    have := r.isLt; omega
  · intro r _ r' _ e
    have e' : B * t + r.val = B * t + r'.val := congrArg Fin.val e
    exact Fin.ext (by omega)
  · intro n hn
    rw [Finset.mem_filter] at hn
    obtain ⟨-, h1, h2⟩ := hn
    exact ⟨⟨n.val - B * t, by omega⟩, Finset.mem_univ _, Fin.ext (by show B * t + (n.val - B * t) = n.val; omega)⟩
  · intro r _; rfl

/-- Terms kept on [a, b) plus the same terms kept on [b, c) are the terms kept on [a, c). -/
theorem indicator_add {M : Type} [AddMonoid M] (a b c n : ℕ) (hab : a ≤ b) (hbc : b ≤ c) (x : M) :
    (if a ≤ n ∧ n < b then x else 0) + (if b ≤ n ∧ n < c then x else 0) = if a ≤ n ∧ n < c then x else 0 := by
  by_cases h1 : n < b
  · rw [if_neg (by omega : ¬(b ≤ n ∧ n < c)), add_zero]
    exact if_congr (by omega) rfl rfl
  · rw [if_neg (by omega : ¬(a ≤ n ∧ n < b)), zero_add]
    exact if_congr (by omega) rfl rfl

/-! ## The windows' blocks inside their arrays -/

/-- There are 32 grid points. -/
theorem t_lt (t : Fin cfg0.N) : t.val < 32 := lt_of_lt_of_eq t.isLt Gen.N_0

/-- Row r of block t is row 16384 t + r of the array. -/
abbrev grow (t : Fin cfg0.N) (r : Fin 16384) : Fin 524288 := ⟨16384 * t.val + r.val, by have := t_lt t; have := r.isLt; omega⟩

/-- The printed index maps, decided over the grid: at point t the feature window is at block row t, block column 0,
    and the segment window at block row 0, block column t. -/
theorem idx_facts : ∀ t : Fin cfg0.N, win0_0.index t (0 : Fin 2) = t.val ∧ win0_0.index t (1 : Fin 2) = 0
    ∧ win0_1.index t (0 : Fin 2) = 0 ∧ win0_1.index t (1 : Fin 2) = t.val :=
  (by decide +kernel : ∀ t : Fin grid0.N, _)

/-- The feature block of point t, read at (r, d), is the feature array at (16384 t + r, d). -/
theorem iblk_feat (c : Dev nD) (t : Fin cfg0.N) (r : Fin 16384) (d : Fin 64) :
    Fr.iblk m c 0 t (ix2 r d) = Fr.V m c main_arg2 (ix2 (grow t r) d) := by
  obtain ⟨e0, e1, -, -⟩ := idx_facts t
  show Fr.V m c main_arg2 (((cfg0.win 0).blk t).view.emb (ix2 r d)) = Fr.V m c main_arg2 (ix2 (grow t r) d)
  refine congrArg _ ?_
  funext a; apply Fin.ext
  match a with
  | ⟨0, _⟩ => show win0_0.index t (0 : Fin 2) * 16384 + 1 * r.val = 16384 * t.val + r.val; omega
  | ⟨1, _⟩ => show win0_0.index t (1 : Fin 2) * 64 + 1 * d.val = d.val; omega

/-- The segment block of point t, read at (0, r), is the segment row at (0, 16384 t + r). -/
theorem iblk_seg (c : Dev nD) (t : Fin cfg0.N) (r : Fin 16384) :
    Fr.iblk m c 1 t (ix2 (0 : Fin 1) r) = Fr.V m c main_v7 (ix2 (0 : Fin 1) (grow t r)) := by
  obtain ⟨-, -, e2, e3⟩ := idx_facts t
  show Fr.V m c main_v7 (((cfg0.win 1).blk t).view.emb (ix2 (0 : Fin 1) r)) = Fr.V m c main_v7 (ix2 (0 : Fin 1) (grow t r))
  refine congrArg _ ?_
  funext a; apply Fin.ext
  match a with
  | ⟨0, _⟩ => show win0_1.index t (0 : Fin 2) * 1 + 1 * (0 : Fin 1).val = (0 : Fin 1).val; omega
  | ⟨1, _⟩ => show win0_1.index t (1 : Fin 2) * 16384 + 1 * r.val = 16384 * t.val + r.val; omega

/-! ## One point's contribution -/

/-- The segment row and the feature array as the region finds them, and the two input blocks of point t. -/
abbrev segA (c : Dev nD) : IVec S1x524288 32 := Fr.V m c main_v7
abbrev featA (c : Dev nD) : Spec.SNx64.Idx → EReal := Fr.V m c main_arg2
abbrev fblk (c : Dev nD) (t : Fin cfg0.N) : Vec Ideal S16384x64 .f32 := Fr.iblk m c 0 t
abbrev sblk (c : Dev nD) (t : Fin cfg0.N) : Vec Ideal S1x16384 .i32 := Fr.iblk m c 1 t

theorem fblk_apply (c : Dev nD) (t : Fin cfg0.N) (r : Fin 16384) (d : Fin 64) :
    fblk m c t (ix2 r d) = featA m c (ix2 (grow t r) d) := iblk_feat m c t r d
theorem sblk_apply (c : Dev nD) (t : Fin cfg0.N) (r : Fin 16384) :
    sblk m c t (ix2 (0 : Fin 1) r) = segA m c (ix2 (0 : Fin 1) (grow t r)) := iblk_seg m c t r

/-- What row n adds to entry (bc, k): column k of its right-hand side if its bucket word is bc. -/
abbrev term (c : Dev nD) (bc : Fin 104) (k : Fin 67) (n : Fin 524288) : EReal :=
  (if segA m c (ix2 (0 : Fin 1) n) = BitVec.ofNat 32 bc.val then (1 : EReal) else 0) * Spec.rhs (featA m c) n k

/-- The squared norm of row r of the block is the squared norm of row 16384 t + r of the array. -/
theorem ssqRow_blk (c : Dev nD) (t : Fin cfg0.N) (r : Fin 16384) :
    PayIdx.ssqRow (fblk m c t) r = Spec.ssq (featA m c) (grow t r) := by
  unfold PayIdx.ssqRow Spec.ssq
  exact Finset.sum_congr rfl (fun d _ => by rw [fblk_apply])

/-- The right-hand side of row r of the block is that of row 16384 t + r of the array. -/
theorem rhsRow_blk (c : Dev nD) (t : Fin cfg0.N) (r : Fin 16384) (k : Fin 67) :
    PayIdx.rhsRow (fblk m c t) r k = Spec.rhs (featA m c) (grow t r) k := by
  unfold PayIdx.rhsRow Spec.rhs
  rw [ssqRow_blk]
  by_cases h : k.val < 64
  · rw [dif_pos h, dif_pos h]; exact fblk_apply m c t r ⟨k.val, h⟩
  · rw [dif_neg h, dif_neg h]

/-- Point t's contribution to entry (bc, k), a sum over the block's rows, is the sum of the rows' terms over the
    interval [16384 t, 16384 (t + 1)). -/
theorem blockSum_eq (c : Dev nD) (t : Fin cfg0.N) (bc : Fin 104) (k : Fin 67) :
    (∑ r : Fin 16384, (if sblk m c t (ix2 (0 : Fin 1) r) = BitVec.ofNat 32 bc.val then (1 : EReal) else 0) * PayIdx.rhsRow (fblk m c t) r k)
      = ∑ n : Fin 524288, if 16384 * t.val ≤ n.val ∧ n.val < 16384 * (t.val + 1) then term m c bc k n else 0 := by
  refine Eq.trans ?_ (sum_block_eq_sum_indicator 16384 524288 t.val (by have := t_lt t; omega) (term m c bc k))
  refine Finset.sum_congr rfl (fun r _ => ?_)
  rw [sblk_apply, rhsRow_blk]

/-- At a point with inner coordinate 0 the block is cleared first: it ends holding the point's contribution alone. -/
theorem point_A (c : Dev nD) (t : Fin cfg0.N) (h0 : t.val % 16 = 0) (bc : Fin 104) (k : Fin 67) :
    Fr.outsAt0 m c t.val t.isLt (ix3 (0 : Fin 1) bc k)
      = ∑ n : Fin 524288, if 16384 * t.val ≤ n.val ∧ n.val < 16384 * (t.val + 1) then term m c bc k n else 0 := by
  refine (congrFun (Fr.outsAt0_A m c t h0) (ix3 (0 : Fin 1) bc k)).trans ?_
  refine (congrFun (Fr.out0_A_2_eq (F := Ideal) c (grid0.coords t) (Fr.ms0_0 t) (Fr.hs0_0 t) (Fr.ms0_1 t) (Fr.hs0_1 t) (Fr.ms0_2 t) (Fr.hs0_2 t)
    ((Fr.hcond0_0 t).mpr h0) (fblk m c t) (sblk m c t)) (ix3 (0 : Fin 1) bc k)).trans ?_
  refine (PayIdx.pay2_apply (fblk m c t) (sblk m c t) (k0_pay1 (F := Ideal)) bc k).trans ?_
  rw [PayIdx.pay1_apply, zero_add]
  exact blockSum_eq m c t bc k

/-- At any other point the block ends holding what the point before left plus the point's contribution. -/
theorem point_B (c : Dev nD) (t : Fin cfg0.N) (h0 : ¬t.val % 16 = 0) (bc : Fin 104) (k : Fin 67) :
    Fr.outsAt0 m c t.val t.isLt (ix3 (0 : Fin 1) bc k)
      = Fr.outsAt0 m c (t.val - 1) (Nat.lt_of_le_of_lt (Nat.sub_le _ _) t.isLt) (ix3 (0 : Fin 1) bc k)
        + ∑ n : Fin 524288, if 16384 * t.val ≤ n.val ∧ n.val < 16384 * (t.val + 1) then term m c bc k n else 0 := by
  refine (congrFun (Fr.outsAt0_B m c t h0) (ix3 (0 : Fin 1) bc k)).trans ?_
  refine (congrFun (Fr.out0_B_2_eq (F := Ideal) c (grid0.coords t) (Fr.ms0_0 t) (Fr.hs0_0 t) (Fr.ms0_1 t) (Fr.hs0_1 t) (Fr.ms0_2 t) (Fr.hs0_2 t)
    (fun h => h0 ((Fr.hcond0_0 t).mp h)) (fblk m c t) (sblk m c t)
    (Fr.outsAt0 m c (t.val - 1) (Nat.lt_of_le_of_lt (Nat.sub_le _ _) t.isLt))) (ix3 (0 : Fin 1) bc k)).trans ?_
  refine (PayIdx.pay2_apply (fblk m c t) (sblk m c t) (Fr.outsAt0 m c (t.val - 1) (Nat.lt_of_le_of_lt (Nat.sub_le _ _) t.isLt)) bc k).trans ?_
  rw [blockSum_eq]

/-! ## The accumulation invariant -/

/-- After point n the block holds, at (bc, k), the terms of the rows from the start of point n's half
    (row 16384 (n - n % 16)) up to the end of point n's block: by induction on the point, the sum restarting at the
    points divisible by 16 and growing by one block at the others. -/
theorem outsAt0_nat (c : Dev nD) (bc : Fin 104) (k : Fin 67) : ∀ (n : ℕ) (hn : n < cfg0.N),
    Fr.outsAt0 m c n hn (ix3 (0 : Fin 1) bc k)
      = ∑ j : Fin 524288, if 16384 * (n - n % 16) ≤ j.val ∧ j.val < 16384 * (n + 1) then term m c bc k j else 0 := by
  intro n
  induction n using Nat.strong_induction_on with
  | _ n ih =>
    intro hn
    by_cases h0 : n % 16 = 0
    · refine (point_A m c ⟨n, hn⟩ h0 bc k).trans ?_
      show (∑ j : Fin 524288, if 16384 * n ≤ j.val ∧ j.val < 16384 * (n + 1) then term m c bc k j else 0) = _
      rw [show n - n % 16 = n by omega]
    · have hn1 : n - 1 < n := by omega
      refine (point_B m c ⟨n, hn⟩ h0 bc k).trans ?_
      show Fr.outsAt0 m c (n - 1) _ (ix3 (0 : Fin 1) bc k)
        + (∑ j : Fin 524288, if 16384 * n ≤ j.val ∧ j.val < 16384 * (n + 1) then term m c bc k j else 0) = _
      rw [ih (n - 1) hn1 _, ← Finset.sum_add_distrib]
      refine Finset.sum_congr rfl (fun j _ => ?_)
      have e1 : n - 1 - (n - 1) % 16 = n - n % 16 := by omega
      have e2 : n - 1 + 1 = n := by omega
      rw [e1, e2]
      exact indicator_add (16384 * (n - n % 16)) (16384 * n) (16384 * (n + 1)) j.val (by omega) (by omega) (term m c bc k j)

/-- THE INVARIANT at a grid point. -/
theorem outsAt0_apply (c : Dev nD) (t : Fin cfg0.N) (bc : Fin 104) (k : Fin 67) :
    Fr.outsAt0 m c t.val t.isLt (ix3 (0 : Fin 1) bc k)
      = ∑ n : Fin 524288, if 16384 * (t.val - t.val % 16) ≤ n.val ∧ n.val < 16384 * (t.val + 1) then
          (if (Fr.V m c main_v7) (ix2 (0 : Fin 1) n) = BitVec.ofNat 32 bc.val then (1 : EReal) else 0) * Spec.rhs (Fr.V m c main_arg2) n k else 0 :=
  outsAt0_nat m c bc k t.val t.isLt

end Cert.KernelIdeal.KVal

end
-- ==== Proof.KOut.lean ====
/- The output array after the region, entry by entry. The output window's block at grid point t is block t / 16 of
   the first axis (the whole of the other two), written back at the points t with t % 16 = 15, that is at the last point
   of each half of the grid. So block h of the array is what the last point of half h wrote: the running contents of the
   output block after point 16 h + 15. Those contents sum, per bucket and column, the rows read since the last reset:
   the 16 blocks of 16384 rows of half h, the rows n with n / 262144 = h. -/
import proofs.«412901_j12807592477411_3_alg».proof.Proof.KPoints
import proofs.«412901_j12807592477411_3_alg».proof.Proof.KDefs
import Idealize.ShloMosaic.Lib.Pipeline.Value
import Idealize.ShloMosaic.Lib.ValueIdxCoords

set_option maxRecDepth 16384

noncomputable section

open scoped BigOperators

namespace Cert.KernelIdeal.KVal

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-! ## The output window's block index over the grid

The output window's index map returns the outer grid coordinate and two zeros, so at point t (outer coordinate
t / 16) its block is block t / 16 of the first axis and the whole of the other two. -/

/-- The block index of the output window at point t is (t / 16, 0, 0). -/
theorem out_index0_2 : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)

/-- The running contents at equal points, read at equal entries, are equal. -/
theorem out_outsAt0_congr (c : Dev nD) {n n' : ℕ} (hn : n < cfg0.N) (hn' : n' < cfg0.N) (e : n = n')
    {j j' : S1x104x67.Idx} (ej : j = j') : Fr.outsAt0 m c n hn j = Fr.outsAt0 m c n' hn' j' := by
  subst e; subst ej; rfl

/-- The last point of half h is a grid point. -/
theorem out_last_lt (h : Fin 2) : 16 * h.val + 15 < cfg0.N := by
  have := h.isLt
  rw [show cfg0.N = 32 from N_0]; omega

/-- Entry (h, bc, k) of the table: what the last point of half h left at (0, bc, k) of the output block. -/
def outEntryAt (c : Dev nD) (h : Fin 2) (bc : Fin 104) (k : Fin 67) : EReal :=
  Fr.outsAt0 m c (16 * h.val + 15) (out_last_lt h) (ix3 (0 : Fin 1) bc k)

/-- The table as contents of the output array. -/
def outTable (c : Dev nD) : Buf (Elt Ideal) ((c : Thread nD τ).loc main_v8) :=
  fun i => outEntryAt m c (i 0) (i 1) (i 2)

/-- The two points that write the output block back write blocks of the table: at such a point t (t % 16 = 15) the
    block written is the running contents after t, and entry (0, bc, k) of block t / 16 of the table is the running
    contents after point 16 (t / 16) + 15 = t at (0, bc, k). -/
theorem out_flushed_eq (c : Dev nD) (t : Fin cfg0.N) (hf : (cfg0.win 2).flush t = true) :
    (Fr.dats m 0 c).flushed 2 t = ((cfg0.win 2).blk t).view.read (Elt Ideal) (outTable m c) := by
  have h15 : t.val % 16 = 15 := (flush0_2 t).mp hf
  obtain ⟨i0, i1, i2⟩ := out_index0_2 t
  funext y
  show (Fr.dats m 0 c).after 2 t ((cfg0.win 2).xinj (grid0.coords t) y) = _
  rw [Fr.after0_2, View.read_apply]
  have y0 : (y 0).val = 0 := by have : (y 0).val < 1 := (y 0).isLt; omega
  have e0 : ((((cfg0.win 2).blk t).view.emb y) 0).val = win0_2.index t 0 * 1 + 1 * (y 0).val := rfl
  have e1 : ((((cfg0.win 2).blk t).view.emb y) 1).val = win0_2.index t 1 * 104 + 1 * (y 1).val := rfl
  have e2 : ((((cfg0.win 2).blk t).view.emb y) 2).val = win0_2.index t 2 * 67 + 1 * (y 2).val := rfl
  show Fr.outsAt0 m c t.val t.isLt _ = Fr.outsAt0 m c (16 * ((((cfg0.win 2).blk t).view.emb y) 0).val + 15) _ (ix3 (0 : Fin 1) ((((cfg0.win 2).blk t).view.emb y) 1) ((((cfg0.win 2).blk t).view.emb y) 2))
  refine out_outsAt0_congr m c _ _ (by rw [e0, i0, y0]; omega) (funext fun a => Fin.ext ?_)
  match a with
  | ⟨0, _⟩ => exact y0
  | ⟨1, _⟩ => show (y 1).val = ((((cfg0.win 2).blk t).view.emb y) 1).val; rw [e1, i1]; omega
  | ⟨2, _⟩ => show (y 2).val = ((((cfg0.win 2).blk t).view.emb y) 2).val; rw [e2, i2]; omega

/-- Every entry of the output array lies in a block that is written back: entry (h, bc, k) in the block of the last
    point of half h, which is block h of the first axis and the whole of the other two. -/
theorem out_cover (i : S2x104x67.Idx) :
    ∃ t : Fin cfg0.N, (cfg0.win 2).flush t = true ∧ i ∈ ((cfg0.win 2).blk t).view.set := by
  have hh : (i 0).val < 2 := (i 0).isLt
  have hb : (i 1).val < 104 := (i 1).isLt
  have hk : (i 2).val < 67 := (i 2).isLt
  have ht : 16 * (i 0).val + 15 < cfg0.N := by rw [show cfg0.N = 32 from N_0]; omega
  obtain ⟨i0, i1, i2⟩ := out_index0_2 ⟨16 * (i 0).val + 15, ht⟩
  refine ⟨⟨16 * (i 0).val + 15, ht⟩, (flush0_2 _).mpr (by show (16 * (i 0).val + 15) % 16 = 15; omega), ?_⟩
  show i ∈ ((View.whole main_v8).slice (win0_2.rect ⟨16 * (i 0).val + 15, ht⟩)).set
  rw [View.set_slice_whole, Rect.mem_set_unit]
  intro a
  match a with
  | ⟨0, _⟩ =>
    show win0_2.index ⟨16 * (i 0).val + 15, ht⟩ 0 * 1 ≤ (i 0).val ∧ (i 0).val < win0_2.index ⟨16 * (i 0).val + 15, ht⟩ 0 * 1 + 1
    rw [i0]; show (16 * (i 0).val + 15) / 16 * 1 ≤ (i 0).val ∧ (i 0).val < (16 * (i 0).val + 15) / 16 * 1 + 1; omega
  | ⟨1, _⟩ =>
    show win0_2.index ⟨16 * (i 0).val + 15, ht⟩ 1 * 104 ≤ (i 1).val ∧ (i 1).val < win0_2.index ⟨16 * (i 0).val + 15, ht⟩ 1 * 104 + 104
    rw [i1]; omega
  | ⟨2, _⟩ =>
    show win0_2.index ⟨16 * (i 0).val + 15, ht⟩ 2 * 67 ≤ (i 2).val ∧ (i 2).val < win0_2.index ⟨16 * (i 0).val + 15, ht⟩ 2 * 67 + 67
    rw [i2]; omega

/-- So after the region the output array holds the table. -/
theorem out_arr_final (c : Dev nD) : (Fr.dats m 0 c).arrAt 2 cfg0.N = outTable m c :=
  (Fr.dats m 0 c).arrAt_eq_of_cover 2 (outTable m c) (out_flushed_eq m c) out_cover

/-- Entry (h, bc, k) of the output array after the region: the rows of half h (those n with n / 262144 = h, the
    16 blocks of 16384 rows that the 16 points of half h read) whose bucket word is bc, column k summed. The last
    point of half h is t = 16 h + 15; the rows summed up to it since the last reset are those n with
    16384 (t - t % 16) ≤ n < 16384 (t + 1), that is 262144 h ≤ n < 262144 (h + 1). -/
theorem out_final (c : Dev nD) (h : Fin 2) (bc : Fin 104) (k : Fin 67) :
    (Fr.dats m 0 c).arrAt 2 cfg0.N (ix3 h bc k) = outEntry (Fr.V m c main_arg2) (Fr.V m c main_v7) h bc k := by
  rw [out_arr_final]
  refine (outsAt0_apply m c ⟨16 * h.val + 15, out_last_lt h⟩ bc k).trans ?_
  unfold outEntry
  refine Finset.sum_congr rfl fun n _ => ?_
  have hh := h.isLt
  have hn := n.isLt
  refine if_congr ?_ rfl rfl
  show (16384 * (16 * h.val + 15 - (16 * h.val + 15) % 16) ≤ n.val ∧ n.val < 16384 * (16 * h.val + 15 + 1)) ↔ n.val / 262144 = h.val
  omega

end Cert.KernelIdeal.KVal

end
-- ==== Proof.LibIdxSum.lean ====
/-
  Sums over the index set of a literal rank-3 or rank-5 shape as iterated sums over the coordinates: the index set is
  the product of its coordinate ranges (the rank-2 case is the library's `ValueIdx.sum_idx2`), in any commutative
  additive monoid — the extended reals in particular, where no other law of sums is available.
-/
import Idealize.ShloMosaic.Lib.ValueIdx

namespace Cert.LibIdxSum

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-5 index set is the product of its five coordinate ranges. -/
def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

/-- A sum over a rank-5 index set is the fivefold sum over the coordinates. -/
theorem sum_idx5 {M : Type*} [AddCommMonoid M] {n0 n1 n2 n3 n4 : Nat}
    (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f,
    Fintype.sum_prod_type]
  refine Finset.sum_congr rfl fun a _ => ?_
  rw [Fintype.sum_prod_type]
  refine Finset.sum_congr rfl fun b _ => ?_
  rw [Fintype.sum_prod_type]
  refine Finset.sum_congr rfl fun c _ => ?_
  rw [Fintype.sum_prod_type]
  rfl

end Cert.LibIdxSum
-- ==== Proof.KIdx.lean ====
/-
  The host arithmetic around the bucket table, read entry by entry over the extended reals.

  The bucket row at (0, n) is the bucket word of row n. The table's two halves add up to the full column sums: half h
  holds the rows n with n / 262144 = h, and every n < 524288 lies in exactly one half. From a table whose entries are
  the column sums, the slices and reshapes read entry (13 b + c, d) as entry (b, c, d); the feature sums, counts and
  squared-norm sums are those columns; the per-bucket squared distances follow the expansion
  |f|^2 - 2 c.f + |c|^2; the per-cloud totals sum the 13 classes of a cloud.
-/
import proofs.«412901_j12807592477411_3_alg».proof.Proof.KDefs
import proofs.«412901_j12807592477411_3_alg».proof.Proof.LibIdxSum
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.KVal

open Idealize.ShloMosaic Idealize.ShloMosaic.ValueIdx
open Cert.KernelIdeal Cert.KernelIdeal.Facts₀ Cert.KernelIdeal.Facts

variable [Cert.KernelIdeal.Facts]

/-! ## The bucket row -/

/-- Entry (0, n) of the bucket row is the bucket word of row n: cloud * 13 + class for a valid row, -1 otherwise. -/
theorem segOf_apply (tgt bat : IVec S524288 32) (n : Fin 524288) :
    segOf tgt bat (ix2 (0 : Fin 1) n) = Spec.sgK tgt bat n := by
  unfold segOf
  rw [shapeCast_a_1a_apply]
  show Scalar.select (IntOp.cmpi .ne (tgt (ix1 n)) 4294967295#32)
      (IntOp.addi (IntOp.muli (bat (ix1 n)) 13#32)
        (Scalar.select (IntOp.cmpi .ne (tgt (ix1 n)) 4294967295#32) (tgt (ix1 n)) 0#32)) 4294967295#32 = _
  unfold Spec.sgK Spec.sgR Spec.tg
  by_cases h : tgt (ix1 n) = 4294967295#32
  · simp [h, IntOp.cmpi, Scalar.select]
  · have hb : (tgt (ix1 n) != 4294967295#32) = true := bne_iff_ne.mpr h
    simp [h, hb, IntOp.cmpi, Scalar.select, IntOp.addi, IntOp.muli]

/-! ## The table's two halves -/

/-- The table summed over its halves: every row lies in exactly one half, so the two partial sums make the full one. -/
theorem acc_apply (feat : Spec.SNx64.Idx → EReal) (seg2 : IVec S1x524288 32) (out : FVec Ideal S2x104x67 .f32)
    (hout : ∀ (h : Fin 2) (bc : Fin 104) (k : Fin 67), out (ix3 h bc k) = outEntry feat seg2 h bc k) (bc : Fin 104) (k : Fin 67) :
    accOf (F := Ideal) out (ix2 bc k) = ∑ n : Fin 524288, (if seg2 (ix2 (0 : Fin 1) n) = BitVec.ofNat 32 bc.val then (1 : EReal) else 0) * Spec.rhs feat n k := by
  unfold accOf
  simp only [Host.reduceAdd, Ideal.hostReduceAdd_def]
  rw [Ideal.hostReduceAdd_single reducesTo_S2x104x67_S104x67_d0 (by decide)]
  have h0 : (constant (F := Ideal) S_ .f32 0x00000000#32) (Shape.Idx.first h_S_) = 0 := by
    rw [constant_apply, Ideal.ofBits_zero_f32]
  rw [h0, zero_add]
  show ∑ h : Fin 2, out _ = _
  have hl : ∀ h : Fin 2, out ((by decide : S2x104x67.Reduces [0] S104x67).lift (ix2 bc k) h) = outEntry feat seg2 h bc k := by
    intro h
    rw [← hout h bc k]
    exact congrArg out (funext fun a => Fin.ext (by match a with | ⟨0, _⟩ => rfl | ⟨1, _⟩ => rfl | ⟨2, _⟩ => rfl))
  rw [Finset.sum_congr rfl fun h _ => hl h]
  unfold outEntry
  rw [Finset.sum_comm]
  refine Finset.sum_congr rfl fun n _ => ?_
  rw [Finset.sum_eq_single (⟨n.val / 262144, by omega⟩ : Fin 2)]
  · rw [if_pos rfl]
  · intro h _ hne
    rw [if_neg]
    intro heq
    exact hne (Fin.ext heq.symm)
  · intro h
    exact absurd (Finset.mem_univ _) h

/-! ## The table's columns, per cloud and class -/

/-- Entry (b, c, d) of the feature sums is entry (13 b + c, d) of the table. -/
theorem fsumOf_apply (a : FVec Ideal S104x67 .f32) (b : Fin 8) (c : Fin 13) (d : Fin 64) :
    fsumOf (F := Ideal) a (ix3 b c d) = a (ix2 (Spec.bkt b c) (⟨d.val, by omega⟩ : Fin 67)) := by
  unfold fsumOf
  rw [shapeCast_apply _ shapeCasts_S104x64_S8x13x64 (ix3 b c d) (ix2 (Spec.bkt b c) d) (by
    rw [Shape.rowMajor_val_two, Shape.rowMajor_val_three]
    show (13 * b.val + c.val) * 64 + d.val = (b.val * 13 + c.val) * 64 + d.val
    omega)]
  exact slice2_axis1_apply 0 a slices_S104x67_S104x64_0_0 (Spec.bkt b c) d _ (Nat.zero_add _).symm

/-- A column of the table laid out per cloud and class: entry (b, c) is entry (13 b + c, col). -/
theorem col_apply (a : FVec Ideal S104x67 .f32) (o : Nat) (ho : o < 67)
    (hs : S104x67.Slices ![0, o] S104x1) (b : Fin 8) (c : Fin 13) :
    shapeCast S8x13 (shapeCast S104 (extractStridedSlice S104x1 ![0, o] a hs) shapeCasts_S104x1_S104) shapeCasts_S104_S8x13 (ix2 b c)
      = a (ix2 (Spec.bkt b c) (⟨o, ho⟩ : Fin 67)) := by
  rw [shapeCast_apply _ shapeCasts_S104_S8x13 (ix2 b c) (ix1 (Spec.bkt b c)) (by
    rw [Shape.rowMajor_val_one, Shape.rowMajor_val_two]
    show 13 * b.val + c.val = b.val * 13 + c.val
    omega)]
  rw [shapeCast_apply _ shapeCasts_S104x1_S104 (ix1 (Spec.bkt b c)) (ix2 (Spec.bkt b c) (0 : Fin 1)) (by
    rw [Shape.rowMajor_val_one, Shape.rowMajor_val_two]
    show (13 * b.val + c.val) * 1 + 0 = 13 * b.val + c.val
    omega)]
  exact slice2_axis1_apply o a hs (Spec.bkt b c) (0 : Fin 1) _ (Nat.add_zero _).symm

/-- Entry (b, c) of the counts is entry (13 b + c, 64) of the table. -/
theorem ccntOf_apply (a : FVec Ideal S104x67 .f32) (b : Fin 8) (c : Fin 13) :
    ccntOf (F := Ideal) a (ix2 b c) = a (ix2 (Spec.bkt b c) (⟨64, by omega⟩ : Fin 67)) := by
  unfold ccntOf
  exact col_apply a 64 (by omega) slices_S104x67_S104x1_0_64 b c

/-- Entry (b, c) of the squared-norm sums is entry (13 b + c, 65) plus entry (13 b + c, 66) of the table. -/
theorem ssqOf_apply (a : FVec Ideal S104x67 .f32) (b : Fin 8) (c : Fin 13) :
    ssqOf (F := Ideal) a (ix2 b c)
      = a (ix2 (Spec.bkt b c) (⟨65, by omega⟩ : Fin 67)) + a (ix2 (Spec.bkt b c) (⟨66, by omega⟩ : Fin 67)) := by
  unfold ssqOf
  rw [shapeCast_apply _ shapeCasts_S104_S8x13 (ix2 b c) (ix1 (Spec.bkt b c)) (by
    rw [Shape.rowMajor_val_one, Shape.rowMajor_val_two]
    show 13 * b.val + c.val = b.val * 13 + c.val
    omega)]
  rw [addf_apply]
  rw [shapeCast_apply _ shapeCasts_S104x1_S104 (ix1 (Spec.bkt b c)) (ix2 (Spec.bkt b c) (0 : Fin 1)) (by
    rw [Shape.rowMajor_val_one, Shape.rowMajor_val_two]
    show (13 * b.val + c.val) * 1 + 0 = 13 * b.val + c.val
    omega)]
  rw [shapeCast_apply _ shapeCasts_S104x1_S104 (ix1 (Spec.bkt b c)) (ix2 (Spec.bkt b c) (0 : Fin 1)) (by
    rw [Shape.rowMajor_val_one, Shape.rowMajor_val_two]
    show (13 * b.val + c.val) * 1 + 0 = 13 * b.val + c.val
    omega)]
  rw [slice2_axis1_apply 65 a slices_S104x67_S104x1_0_65 (Spec.bkt b c) (0 : Fin 1) (⟨65, by omega⟩ : Fin 67) (Nat.add_zero _).symm,
    slice2_axis1_apply 66 a slices_S104x67_S104x1_0_66 (Spec.bkt b c) (0 : Fin 1) (⟨66, by omega⟩ : Fin 67) (Nat.add_zero _).symm]

/-! ## The expansion and the totals -/

/-- The f32 pattern 0x40000000 is the number two. -/
theorem ofBits_two_f32 : Ideal.ofBits .f32 0x40000000#32 = (2 : EReal) := by
  rw [show (2 : EReal) = ((2 : ℝ) : EReal) by norm_cast]
  simp [Ideal.ofBits, Ideal.ieee, -EReal.coe_mul]; norm_num

/-- Entry (b, c) of the squared-distance sums: |f|^2 - 2 c.f + count |c|^2. -/
theorem d2sumOf_apply (v20 : FVec Ideal S8x13 .f32) (v11 : FVec Ideal S8x13x64 .f32) (v14 : FVec Ideal S8x13 .f32)
    (cen : FVec Ideal S13x64 .f32) (b : Fin 8) (c : Fin 13) :
    d2sumOf (F := Ideal) v20 v11 v14 cen (ix2 b c)
      = (v20 (ix2 b c) - (2 : EReal) * ∑ d : Fin 64, cen (ix2 c d) * v11 (ix3 b c d))
        + v14 (ix2 b c) * ∑ d : Fin 64, cen (ix2 c d) * cen (ix2 c d) := by
  unfold d2sumOf
  dsimp only
  rw [addf_apply, subf_apply, mulf_apply, mulf_apply]
  have h0 : (constant (F := Ideal) S_ .f32 0x00000000#32) (Shape.Idx.first h_S_) = 0 := by
    rw [constant_apply, Ideal.ofBits_zero_f32]
  -- the constant two
  have h2 : broadcastInDim S8x13 ![] bcast_S_S8x13 (constant (F := Ideal) S_ .f32 0x40000000#32) (ix2 b c) = (2 : EReal) := by
    rw [broadcastInDim_apply ![] bcast_S_S8x13 _ (ix2 b c) ix0 (fun a => a.elim0), constant_apply, ofBits_two_f32]
  -- the dot product of the centre row with the feature sums
  have h24 : Host.reduceAdd (F := Ideal)
      (mulf (broadcastInDim S8x13x64 ![0, 1, 2] bcast_S1x13x64_S8x13x64_0_1_2
        (broadcastInDim S1x13x64 ![1, 2] bcast_S13x64_S1x13x64_1_2 cen)) v11)
      (constant S_ .f32 0x00000000#32) reducesTo_S8x13x64_S8x13_d2 h_S_ (ix2 b c)
      = ∑ d : Fin 64, cen (ix2 c d) * v11 (ix3 b c d) := by
    simp only [Host.reduceAdd, Ideal.hostReduceAdd_def]
    rw [Ideal.hostReduceAdd_single reducesTo_S8x13x64_S8x13_d2 (by decide), h0, zero_add]
    show ∑ d : Fin 64, _ = _
    refine Finset.sum_congr rfl fun d _ => ?_
    have hi : (by decide : S8x13x64.Reduces [2] S8x13).lift (ix2 b c) d = ix3 b c d :=
      funext fun a => Fin.ext (by match a with | ⟨0, _⟩ => rfl | ⟨1, _⟩ => rfl | ⟨2, _⟩ => rfl)
    rw [hi, mulf_apply]
    congr 1
    rw [broadcastInDim_apply ![0, 1, 2] bcast_S1x13x64_S8x13x64_0_1_2 _ (ix3 b c d) (ix3 (0 : Fin 1) c d) (fun a => by
      match a with
      | ⟨0, _⟩ => rfl
      | ⟨1, _⟩ => show c.val = if (13 : Nat) = 1 then 0 else c.val; rw [if_neg (by decide)]
      | ⟨2, _⟩ => show d.val = if (64 : Nat) = 1 then 0 else d.val; rw [if_neg (by decide)])]
    exact broadcastInDim_apply ![1, 2] bcast_S13x64_S1x13x64_1_2 cen (ix3 (0 : Fin 1) c d) (ix2 c d) (fun a => by
      match a with
      | ⟨0, _⟩ => show c.val = if (13 : Nat) = 1 then 0 else c.val; rw [if_neg (by decide)]
      | ⟨1, _⟩ => show d.val = if (64 : Nat) = 1 then 0 else d.val; rw [if_neg (by decide)])
  -- the squared norm of the centre row
  have h31 : broadcastInDim S8x13 ![0, 1] bcast_S1x13_S8x13_0_1
      (broadcastInDim S1x13 ![1] bcast_S13_S1x13_1
        (Host.reduceAdd (F := Ideal) (mulf cen cen) (constant S_ .f32 0x00000000#32) reducesTo_S13x64_S13_d1 h_S_)) (ix2 b c)
      = ∑ d : Fin 64, cen (ix2 c d) * cen (ix2 c d) := by
    rw [broadcastInDim_apply ![0, 1] bcast_S1x13_S8x13_0_1 _ (ix2 b c) (ix2 (0 : Fin 1) c) (fun a => by
      match a with
      | ⟨0, _⟩ => rfl
      | ⟨1, _⟩ => show c.val = if (13 : Nat) = 1 then 0 else c.val; rw [if_neg (by decide)])]
    rw [broadcastInDim_apply ![1] bcast_S13_S1x13_1 _ (ix2 (0 : Fin 1) c) (ix1 c) (fun a => by
      match a with
      | ⟨0, _⟩ => show c.val = if (13 : Nat) = 1 then 0 else c.val; rw [if_neg (by decide)])]
    simp only [Host.reduceAdd, Ideal.hostReduceAdd_def]
    rw [Ideal.hostReduceAdd_single reducesTo_S13x64_S13_d1 (by decide), h0, zero_add]
    show ∑ d : Fin 64, _ = _
    refine Finset.sum_congr rfl fun d _ => ?_
    have hi : (by decide : S13x64.Reduces [1] S13).lift (ix1 c) d = ix2 c d :=
      funext fun a => Fin.ext (by match a with | ⟨0, _⟩ => rfl | ⟨1, _⟩ => rfl)
    rw [hi, mulf_apply]
  rw [h2, h24, h31]

/-- Entry b of a per-cloud total is the sum over the 13 classes. -/
theorem perCloud_apply (v : FVec Ideal S8x13 .f32) (b : Fin 8) :
    perCloud (F := Ideal) v (ix1 b) = ∑ c : Fin 13, v (ix2 b c) := by
  unfold perCloud
  simp only [Host.reduceAdd, Ideal.hostReduceAdd_def]
  rw [Ideal.hostReduceAdd_single reducesTo_S8x13_S8_d1 (by decide)]
  have h0 : (constant (F := Ideal) S_ .f32 0x00000000#32) (Shape.Idx.first h_S_) = 0 := by
    rw [constant_apply, Ideal.ofBits_zero_f32]
  rw [h0, zero_add]
  show ∑ c : Fin 13, _ = _
  refine Finset.sum_congr rfl fun c _ => ?_
  exact congrArg v (funext fun a => Fin.ext (by match a with | ⟨0, _⟩ => rfl | ⟨1, _⟩ => rfl))

/-! ## From the table to the four arrays -/

/-- From a table of column sums: the per-cloud totals of the squared distances and of the counts, the feature sums and
    the counts are the four arrays of the accumulating side. -/
theorem arrays_of_acc (tgt bat : IVec S524288 32) (feat : Spec.SNx64.Idx → EReal) (cen : FVec Ideal S13x64 .f32) (a : FVec Ideal S104x67 .f32)
    (ha : ∀ (bc : Fin 104) (k : Fin 67), a (ix2 bc k) = Spec.accK tgt bat feat bc k) :
    perCloud (F := Ideal) (d2sumOf (ssqOf a) (fsumOf a) (ccntOf a) cen) = Spec.arr1 (Spec.sumbK tgt bat feat cen)
    ∧ perCloud (F := Ideal) (ccntOf a) = Spec.arr1 (Spec.cntbK tgt bat feat)
    ∧ fsumOf (F := Ideal) a = Spec.arr3 (Spec.fsumK tgt bat feat) ∧ ccntOf (F := Ideal) a = Spec.arr2 (Spec.ccntK tgt bat feat) := by
  have hf : ∀ (b : Fin 8) (c : Fin 13) (d : Fin 64), fsumOf (F := Ideal) a (ix3 b c d) = Spec.fsumK tgt bat feat b c d := by
    intro b c d
    rw [fsumOf_apply, ha]
    rfl
  have hc : ∀ (b : Fin 8) (c : Fin 13), ccntOf (F := Ideal) a (ix2 b c) = Spec.ccntK tgt bat feat b c := by
    intro b c
    rw [ccntOf_apply, ha]
    rfl
  have hs : ∀ (b : Fin 8) (c : Fin 13), ssqOf (F := Ideal) a (ix2 b c) = Spec.ssqK tgt bat feat b c := by
    intro b c
    rw [ssqOf_apply, ha, ha]
    rfl
  refine ⟨?_, ?_, ?_, ?_⟩
  · funext j
    obtain ⟨b, rfl⟩ : ∃ b : Fin 8, j = ix1 b := ⟨j 0, eq_ix1 j⟩
    rw [perCloud_apply]
    show _ = Spec.sumbK tgt bat feat cen b
    unfold Spec.sumbK
    refine Finset.sum_congr rfl fun c _ => ?_
    rw [d2sumOf_apply, hs, hc]
    unfold Spec.d2sumK Spec.cdotK Spec.cnsq
    rw [Finset.sum_congr rfl fun d _ => by rw [hf b c d]]
  · funext j
    obtain ⟨b, rfl⟩ : ∃ b : Fin 8, j = ix1 b := ⟨j 0, eq_ix1 j⟩
    rw [perCloud_apply]
    show _ = Spec.cntbK tgt bat feat b
    unfold Spec.cntbK
    exact Finset.sum_congr rfl fun c _ => hc b c
  · funext j
    obtain ⟨b, c, d, rfl⟩ : ∃ (b : Fin 8) (c : Fin 13) (d : Fin 64), j = ix3 b c d := ⟨j 0, j 1, j 2, eq_ix3 j⟩
    exact hf b c d
  · funext j
    obtain ⟨b, c, rfl⟩ : ∃ (b : Fin 8) (c : Fin 13), j = ix2 b c := ⟨j 0, j 1, eq_ix2 j⟩
    exact hc b c

end Cert.KernelIdeal.KVal

end
-- ==== Proof.KValue.lean ====
/-
  What the accumulating program computes: its run ends with the result at the shared closing function of the four
  intermediate arrays in the specification's accumulating-side form. The region's output array holds, in half h, the
  column sums over the rows of that half whose bucket word matches; the host adds the halves, lays the columns out per
  cloud and class, and expands the squared distances.
-/
import proofs.«412901_j12807592477411_3_alg».proof.Proof.KTerm
import proofs.«412901_j12807592477411_3_alg».proof.Proof.KOut
import proofs.«412901_j12807592477411_3_alg».proof.Proof.KIdx

noncomputable section

namespace Cert.KernelIdeal.KVal

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ) (ρ : Dev nD → PrngReg)

/-- The summed table, entry by entry: the specification's table at the arguments. -/
theorem acc_eq (c : Dev nD) (bc : Fin 104) (k : Fin 67) :
    accOf (F := Ideal) ((Fr.dats m 0 c).arrAt 2 cfg0.N) (ix2 bc k)
      = Cert.Spec.accK (m ((c.tc : Thread nD τ).loc main_arg1)) (m ((c.tc : Thread nD τ).loc main_arg3)) (m ((c.tc : Thread nD τ).loc main_arg2)) bc k := by
  rw [acc_apply (Fr.V m c main_arg2) (Fr.V m c main_v7) _ (fun h bc k => out_final m c h bc k) bc k]
  unfold Cert.Spec.accK
  refine Finset.sum_congr rfl fun n _ => ?_
  rw [V_main_v7 m c, segOf_apply, Fr.V_main_arg2 m c]

/-- The accumulating program's run, with its result in the specification's form. -/
theorem kernel_run : θ_run defs (onTc (τ := τ) (main (F := Ideal))) ⟨m, fun _ => 0, ρ⟩ (fun r => ∀ c : Dev nD,
      r.2.mem ((c.tc : Thread nD τ).loc main_v96)
        = lossTail (F := Ideal)
            (Cert.Spec.arr1 (Cert.Spec.sumbK (m ((c.tc : Thread nD τ).loc main_arg1)) (m ((c.tc : Thread nD τ).loc main_arg3)) (m ((c.tc : Thread nD τ).loc main_arg2)) (m ((c.tc : Thread nD τ).loc main_arg4))))
            (Cert.Spec.arr1 (Cert.Spec.cntbK (m ((c.tc : Thread nD τ).loc main_arg1)) (m ((c.tc : Thread nD τ).loc main_arg3)) (m ((c.tc : Thread nD τ).loc main_arg2))))
            (Cert.Spec.arr3 (Cert.Spec.fsumK (m ((c.tc : Thread nD τ).loc main_arg1)) (m ((c.tc : Thread nD τ).loc main_arg3)) (m ((c.tc : Thread nD τ).loc main_arg2))))
            (Cert.Spec.arr2 (Cert.Spec.ccntK (m ((c.tc : Thread nD τ).loc main_arg1)) (m ((c.tc : Thread nD τ).loc main_arg3)) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨(h c).1.trans ?_, (h c).2⟩) (kernel_term_run m ρ)
  obtain ⟨e1, e2, e3, e4⟩ := arrays_of_acc (m ((c.tc : Thread nD τ).loc main_arg1)) (m ((c.tc : Thread nD τ).loc main_arg3))
    (m ((c.tc : Thread nD τ).loc main_arg2)) (m ((c.tc : Thread nD τ).loc main_arg4)) _ (acc_eq m c)
  rw [e1, e2, e3, e4]

end Cert.KernelIdeal.KVal

end
-- ==== Proof.LibVecScatter.lean ====
/-
  A vector scatter-add read at one entry. For the dimension numbers "each update e lands on the operand entry its index
  word names" (no update window axis, inserted window axis 0, the index vector of length one on axis 1), the accumulating
  scatter at entry `r` is the operand there plus the sum, over the updates `e` whose index word read as a signed integer
  is `r`, of the update at `e`. An index word that names no entry contributes nothing.
-/
import Idealize.ShloMosaic.PureOps.Ideal.Laws
import Idealize.ShloMosaic.Lib.ValueIdx

noncomputable section

open scoped BigOperators

namespace Cert.LibVecScatter

open Idealize.ShloMosaic Idealize.ShloMosaic.ValueIdx

/-- Those dimension numbers for an operand `[R]`, scatter indices `[E, 1]` and updates `[E]`. -/
abbrev vecDims (R E : Nat) (wf : ScatterDims.WF ⟨1, ![R]⟩ ⟨2, ![E, 1]⟩ ⟨1, ![E]⟩ [] [0] [0] 1) :
    ScatterDims ⟨1, ![R]⟩ ⟨2, ![E, 1]⟩ ⟨1, ![E]⟩ where
  updateWindowDims := []
  insertedWindowDims := [0]
  scatterDimsToOperandDims := [0]
  indexVectorDim := 1
  wf := wf

/-- On the operand's one axis the window starts at the index word of the update, read signed. -/
private theorem start0 {R E w : Nat} (wf : ScatterDims.WF ⟨1, ![R]⟩ ⟨2, ![E, 1]⟩ ⟨1, ![E]⟩ [] [0] [0] 1)
    (idx : IVec ⟨2, ![E, 1]⟩ w) (j : (⟨1, ![E]⟩ : Shape).Idx) :
    (vecDims R E wf).start j idx (0 : Fin 1) = (idx (ix2 (j 0) (0 : Fin 1))).toInt := by
  unfold ScatterDims.start
  rw [dif_pos (show (0 : Fin 1) ∈ (vecDims R E wf).scatterDimsToOperandDims from List.mem_singleton.mpr rfl)]
  have hsi : (vecDims R E wf).siIdx j ⟨List.idxOf (0 : Fin 1) (vecDims R E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The operand's one axis is an inserted window axis: the window coordinate there is 0. -/
private theorem window0 {R E : Nat} (wf : ScatterDims.WF ⟨1, ![R]⟩ ⟨2, ![E, 1]⟩ ⟨1, ![E]⟩ [] [0] [0] 1)
    (j : (⟨1, ![E]⟩ : Shape).Idx) :
    (vecDims R E wf).window j (0 : Fin 1) = 0 := by
  unfold ScatterDims.window
  have hn : (0 : Fin 1) ∉ (vecDims R E wf).sKept :=
    show ¬ (0 : Fin 1) ∈ (List.finRange 1).filter (· ∉ ([0] : List (Fin 1))) by decide
  rw [dif_neg hn]

/-- Update `j` lands at entry `r` exactly when its index word reads `r`. -/
private theorem resultIdx_iff {R E w : Nat} (wf : ScatterDims.WF ⟨1, ![R]⟩ ⟨2, ![E, 1]⟩ ⟨1, ![E]⟩ [] [0] [0] 1)
    (idx : IVec ⟨2, ![E, 1]⟩ w) (r : Fin R) (j : (⟨1, ![E]⟩ : Shape).Idx) :
    (vecDims R E wf).resultIdx? j idx = some (ix1 r) ↔ (idx (ix2 (j 0) (0 : Fin 1))).toInt = (r.val : Int) := by
  unfold ScatterDims.resultIdx?
  split
  · rename_i h
    rw [Option.some.injEq]
    have h0 := h (0 : Fin 1)
    rw [start0, window0] at h0
    constructor
    · intro hEq
      have e0 := congrArg (fun f => (f (0 : Fin 1)).val) hEq
      simp only [start0, window0] at e0
      change _ = r.val at e0
      omega
    · intro g0
      funext b
      refine Fin.ext ?_
      match b with
      | ⟨0, _⟩ =>
        show ((vecDims R E wf).start j idx (0 : Fin 1) + ((vecDims R E wf).window j (0 : Fin 1) : Int)).toNat = r.val
        rw [start0, window0]; omega
  · rename_i h
    constructor
    · intro hEq; exact absurd hEq (by simp)
    · intro g0
      exfalso
      apply h
      intro b
      match b with
      | ⟨0, _⟩ =>
        show 0 ≤ (vecDims R E wf).start j idx (0 : Fin 1) + ((vecDims R E wf).window j (0 : Fin 1) : Int) ∧
          (vecDims R E wf).start j idx (0 : Fin 1) + ((vecDims R E wf).window j (0 : Fin 1) : Int) < (R : Int)
        rw [start0, window0]; have := r.isLt; omega

/-- The accumulating vector scatter at entry `r`. -/
theorem scatterAdd_vec_apply {R E w : Nat} (wf : ScatterDims.WF ⟨1, ![R]⟩ ⟨2, ![E, 1]⟩ ⟨1, ![E]⟩ [] [0] [0] 1)
    (x : (⟨1, ![R]⟩ : Shape).Idx → EReal) (idx : IVec ⟨2, ![E, 1]⟩ w) (upd : (⟨1, ![E]⟩ : Shape).Idx → EReal) (r : Fin R) :
    Ideal.hostScatterAdd (vecDims R E wf) x idx upd (ix1 r)
      = x (ix1 r) + ∑ e ∈ Finset.univ.filter (fun e : Fin E => (idx (ix2 e (0 : Fin 1))).toInt = (r.val : Int)), upd (ix1 e) := by
  have hback : ∀ j : (⟨1, ![E]⟩ : Shape).Idx, ix1 (j 0 : Fin E) = j := fun j => (eq_ix1 j).symm
  unfold Ideal.hostScatterAdd
  congr 1
  refine Finset.sum_nbij' (fun j => (j 0 : Fin E)) (fun e => ix1 e) ?_ ?_ ?_ ?_ ?_
  · intro j hj
    rw [Finset.mem_filter] at hj
    exact Finset.mem_filter.mpr ⟨Finset.mem_univ _, (resultIdx_iff wf idx r j).mp hj.2⟩
  · intro e he
    rw [Finset.mem_filter] at he ⊢
    exact ⟨Finset.mem_univ _, (resultIdx_iff wf idx r (ix1 e)).mpr he.2⟩
  · intro j _
    exact hback j
  · intro e _
    rfl
  · intro j _
    exact congrArg upd (hback j).symm

end Cert.LibVecScatter

end
-- ==== Proof.LibRowScatter.lean ====
/-
  A scatter-add of rows read at one entry. For the dimension numbers "each update row e is added onto the operand row
  its index word names" (the update's axis 1 is the window axis and runs along the operand's axis 1, the operand's
  axis 0 is an inserted window axis, the index vector has length one on axis 1 and names the operand's axis 0), the
  accumulating scatter at entry (r, q) is the operand there plus the sum, over the update rows e whose index word read
  as a signed integer is r, of the update at (e, q). An index word that names no row contributes nothing.
-/
import Idealize.ShloMosaic.PureOps.Ideal.Laws
import Idealize.ShloMosaic.Lib.ValueIdx

noncomputable section

open scoped BigOperators

namespace Cert.LibRowScatter

open Idealize.ShloMosaic Idealize.ShloMosaic.ValueIdx

/-- Those dimension numbers for an operand [R, C], scatter indices [E, 1] and updates [E, C]. -/
abbrev rowDims (R C E : Nat) (wf : ScatterDims.WF ⟨2, ![R, C]⟩ ⟨2, ![E, 1]⟩ ⟨2, ![E, C]⟩ [1] [0] [0] 1) :
    ScatterDims ⟨2, ![R, C]⟩ ⟨2, ![E, 1]⟩ ⟨2, ![E, C]⟩ where
  updateWindowDims := [1]
  insertedWindowDims := [0]
  scatterDimsToOperandDims := [0]
  indexVectorDim := 1
  wf := wf

section
variable {R C E w : Nat} (wf : ScatterDims.WF ⟨2, ![R, C]⟩ ⟨2, ![E, 1]⟩ ⟨2, ![E, C]⟩ [1] [0] [0] 1)

/-- On the operand's row axis the window starts at the index word of the update's row, read signed. -/
private theorem start0 (idx : IVec ⟨2, ![E, 1]⟩ w) (j : (⟨2, ![E, C]⟩ : Shape).Idx) :
    (rowDims R C E wf).start j idx (0 : Fin 2) = (idx (ix2 (j 0) (0 : Fin 1))).toInt := by
  unfold ScatterDims.start
  rw [dif_pos (show (0 : Fin 2) ∈ (rowDims R C E wf).scatterDimsToOperandDims from List.mem_singleton.mpr rfl)]
  have hsi : (rowDims R C E wf).siIdx j ⟨List.idxOf (0 : Fin 2) (rowDims R C E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The index vector does not name the operand's column axis: the window starts at 0 there. -/
private theorem start1 (idx : IVec ⟨2, ![E, 1]⟩ w) (j : (⟨2, ![E, C]⟩ : Shape).Idx) :
    (rowDims R C E wf).start j idx (1 : Fin 2) = 0 := by
  unfold ScatterDims.start
  have hn : (1 : Fin 2) ∉ (rowDims R C E wf).scatterDimsToOperandDims :=
    show ¬ (1 : Fin 2) ∈ ([0] : List (Fin 2)) by decide
  rw [dif_neg hn]

/-- The operand's row axis is an inserted window axis: the window coordinate there is 0. -/
private theorem window0 (j : (⟨2, ![E, C]⟩ : Shape).Idx) :
    (rowDims R C E wf).window j (0 : Fin 2) = 0 := by
  unfold ScatterDims.window
  have hn : (0 : Fin 2) ∉ (rowDims R C E wf).sKept :=
    show ¬ (0 : Fin 2) ∈ (List.finRange 2).filter (· ∉ ([0] : List (Fin 2))) by decide
  rw [dif_neg hn]

/-- The operand's column axis is the window axis: the window coordinate there is the update's column. -/
private theorem window1 (j : (⟨2, ![E, C]⟩ : Shape).Idx) :
    (rowDims R C E wf).window j (1 : Fin 2) = (j 1).val := by
  unfold ScatterDims.window
  have hp : (1 : Fin 2) ∈ (rowDims R C E wf).sKept :=
    show (1 : Fin 2) ∈ (List.finRange 2).filter (· ∉ ([0] : List (Fin 2))) by decide
  rw [dif_pos hp]
  rfl

/-- Update (e, c) lands at entry (r, q) exactly when the index word of row e reads r and c = q. -/
private theorem resultIdx_iff (idx : IVec ⟨2, ![E, 1]⟩ w) (r : Fin R) (q : Fin C) (j : (⟨2, ![E, C]⟩ : Shape).Idx) :
    (rowDims R C E wf).resultIdx? j idx = some (ix2 r q)
      ↔ (idx (ix2 (j 0) (0 : Fin 1))).toInt = (r.val : Int) ∧ (j 1).val = q.val := by
  unfold ScatterDims.resultIdx?
  split
  · rename_i h
    rw [Option.some.injEq]
    have h0 := h (0 : Fin 2)
    rw [start0, window0] at h0
    constructor
    · intro hEq
      have e0 := congrArg (fun f => (f (0 : Fin 2)).val) hEq
      have e1 := congrArg (fun f => (f (1 : Fin 2)).val) hEq
      simp only [start0, window0] at e0
      simp only [start1, window1] at e1
      change _ = r.val at e0
      change _ = q.val at e1
      exact ⟨by omega, by omega⟩
    · rintro ⟨g0, g1⟩
      funext b
      refine Fin.ext ?_
      match b with
      | ⟨0, _⟩ =>
        show ((rowDims R C E wf).start j idx (0 : Fin 2) + ((rowDims R C E wf).window j (0 : Fin 2) : Int)).toNat = r.val
        rw [start0, window0]; omega
      | ⟨1, _⟩ =>
        show ((rowDims R C E wf).start j idx (1 : Fin 2) + ((rowDims R C E wf).window j (1 : Fin 2) : Int)).toNat = q.val
        rw [start1, window1]; omega
  · rename_i h
    constructor
    · intro hEq; exact absurd hEq (by simp)
    · rintro ⟨g0, g1⟩
      exfalso
      apply h
      intro b
      match b with
      | ⟨0, _⟩ =>
        show 0 ≤ (rowDims R C E wf).start j idx (0 : Fin 2) + ((rowDims R C E wf).window j (0 : Fin 2) : Int) ∧
          (rowDims R C E wf).start j idx (0 : Fin 2) + ((rowDims R C E wf).window j (0 : Fin 2) : Int) < (R : Int)
        rw [start0, window0]; have := r.isLt; omega
      | ⟨1, _⟩ =>
        show 0 ≤ (rowDims R C E wf).start j idx (1 : Fin 2) + ((rowDims R C E wf).window j (1 : Fin 2) : Int) ∧
          (rowDims R C E wf).start j idx (1 : Fin 2) + ((rowDims R C E wf).window j (1 : Fin 2) : Int) < (C : Int)
        rw [start1, window1]; have := q.isLt; omega

end

/-- The accumulating scatter of rows at entry (r, q): the operand there plus the updates at (e, q) over the rows e whose
    index word reads r. -/
theorem scatterAdd_rows_apply {R C E w : Nat} (wf : ScatterDims.WF ⟨2, ![R, C]⟩ ⟨2, ![E, 1]⟩ ⟨2, ![E, C]⟩ [1] [0] [0] 1)
    (x : (⟨2, ![R, C]⟩ : Shape).Idx → EReal) (idx : IVec ⟨2, ![E, 1]⟩ w) (upd : (⟨2, ![E, C]⟩ : Shape).Idx → EReal)
    (r : Fin R) (q : Fin C) :
    Ideal.hostScatterAdd (rowDims R C E wf) x idx upd (ix2 r q)
      = x (ix2 r q) + ∑ e ∈ Finset.univ.filter (fun e : Fin E => (idx (ix2 e (0 : Fin 1))).toInt = (r.val : Int)),
          upd (ix2 e q) := by
  have hback : ∀ j : (⟨2, ![E, C]⟩ : Shape).Idx, (j 1).val = q.val → ix2 (j 0 : Fin E) q = j := by
    intro j hj
    have hq : (j 1 : Fin C) = q := Fin.ext hj
    rw [← hq]
    exact (eq_ix2 j).symm
  unfold Ideal.hostScatterAdd
  congr 1
  refine Finset.sum_nbij' (fun j => (j 0 : Fin E)) (fun e => ix2 e q) ?_ ?_ ?_ ?_ ?_
  · intro j hj
    rw [Finset.mem_filter] at hj
    exact Finset.mem_filter.mpr ⟨Finset.mem_univ _, ((resultIdx_iff wf idx r q j).mp hj.2).1⟩
  · intro e he
    rw [Finset.mem_filter] at he ⊢
    exact ⟨Finset.mem_univ _, (resultIdx_iff wf idx r q (ix2 e q)).mpr ⟨he.2, rfl⟩⟩
  · intro j hj
    rw [Finset.mem_filter] at hj
    exact hback j ((resultIdx_iff wf idx r q j).mp hj.2).2
  · intro e _
    rfl
  · intro j hj
    rw [Finset.mem_filter] at hj
    exact congrArg upd (hback j ((resultIdx_iff wf idx r q j).mp hj.2).2).symm

end Cert.LibRowScatter

end
-- ==== Proof.LibRowGather.lean ====
/-
  A gather of rows read at one entry. For the dimension numbers "result row e is the operand row its start index
  names" (the result's axis 1 is the offset axis and runs along the operand's axis 1 with the full slice size, the
  operand's axis 0 is collapsed with slice size one, the index vector has length one on axis 1 and names the operand's
  axis 0), the gather at entry (e, q) is the operand at (k, q), where k is the start index of row e read as a signed
  integer and clamped into [0, N − 1].
-/
import Idealize.ShloMosaic.PureOps.Ideal.Laws
import Idealize.ShloMosaic.Lib.ValueIdx

noncomputable section

namespace Cert.LibRowGather

open Idealize.ShloMosaic Idealize.ShloMosaic.ValueIdx

/-- Those dimension numbers for an operand [N, C], start indices [E, 1] and result [E, C]. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section
variable {N C E w : Nat} (wf : GatherDims.WF ⟨2, ![N, C]⟩ ⟨2, ![E, 1]⟩ ⟨2, ![E, C]⟩ [1] [0] [] [0] [] 1 ![1, C])

/-- On the operand's row axis the slice starts at the start index of the result's row, read signed and clamped into
    [0, N − 1]. -/
private theorem start0 (idx : IVec ⟨2, ![E, 1]⟩ w) (j : (⟨2, ![E, C]⟩ : Shape).Idx) :
    (rowGatherDims N C E wf).start j idx (0 : Fin 2) = min (idx (ix2 (j 0) (0 : Fin 1))).toInt.toNat (N - 1) := by
  unfold GatherDims.start
  rw [dif_pos (show (0 : Fin 2) ∈ (rowGatherDims N C E wf).startIndexMap from List.mem_singleton.mpr rfl)]
  have hsi : (rowGatherDims N C E wf).siIdx j ⟨List.idxOf (0 : Fin 2) (rowGatherDims N C E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The start index map does not name the operand's column axis: the slice starts at 0 there. -/
private theorem start1 (idx : IVec ⟨2, ![E, 1]⟩ w) (j : (⟨2, ![E, C]⟩ : Shape).Idx) :
    (rowGatherDims N C E wf).start j idx (1 : Fin 2) = 0 := by
  unfold GatherDims.start
  have hn : (1 : Fin 2) ∉ (rowGatherDims N C E wf).startIndexMap :=
    show ¬ (1 : Fin 2) ∈ ([0] : List (Fin 2)) by decide
  rw [dif_neg hn]

/-- The operand's row axis is collapsed: the offset coordinate there is 0. -/
private theorem offCoord0 (j : (⟨2, ![E, C]⟩ : Shape).Idx) :
    (rowGatherDims N C E wf).offCoord j (0 : Fin 2) = 0 :=
  GatherDims.offCoord_eq_zero _ _ _ (fun h => ((GatherDims.mem_sKept _ _).mp h).1 (List.mem_singleton.mpr rfl))

/-- The operand's column axis is the offset axis: the offset coordinate there is the result's column. -/
private theorem offCoord1 (j : (⟨2, ![E, C]⟩ : Shape).Idx) :
    (rowGatherDims N C E wf).offCoord j (1 : Fin 2) = (j 1).val := by
  unfold GatherDims.offCoord
  have hp : (1 : Fin 2) ∈ (rowGatherDims N C E wf).sKept :=
    show (1 : Fin 2) ∈ (List.finRange 2).filter (· ∉ (([0] : List (Fin 2)) ++ [])) by decide
  rw [dif_pos hp]
  rfl

end

/-- The gather of rows at entry (e, q): the operand at (k, q), k the start index of row e read signed and clamped into
    [0, N − 1]. -/
theorem gather_rows_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N C E wf) x idx (ix2 e q)
      = x (ix2 ⟨min (idx (ix2 e (0 : Fin 1))).toInt.toNat (N - 1), by omega⟩ q) := by
  unfold Host.gather
  congr 1
  funext a
  refine Fin.ext ?_
  match a with
  | ⟨0, _⟩ =>
    show (rowGatherDims N C E wf).start (ix2 e q) idx (0 : Fin 2) + (rowGatherDims N C E wf).batchCoord (ix2 e q) (0 : Fin 2)
        + (rowGatherDims N C E wf).offCoord (ix2 e q) (0 : Fin 2) = min (idx (ix2 e (0 : Fin 1))).toInt.toNat (N - 1)
    rw [GatherDims.batchCoord_eq_zero _ _ _ List.not_mem_nil, offCoord0, start0]
    rfl
  | ⟨1, _⟩ =>
    show (rowGatherDims N C E wf).start (ix2 e q) idx (1 : Fin 2) + (rowGatherDims N C E wf).batchCoord (ix2 e q) (1 : Fin 2)
        + (rowGatherDims N C E wf).offCoord (ix2 e q) (1 : Fin 2) = q.val
    rw [GatherDims.batchCoord_eq_zero _ _ _ List.not_mem_nil, offCoord1, start1]
    show 0 + 0 + q.val = q.val
    omega

end Cert.LibRowGather

end
-- ==== Proof.RefValue.lean ====
/-
  What the scattering program computes: its run read back, and its four intermediate arrays read entry by entry.

  The program first forms, row by row, the class word (the ignored label -1 replaced by 0), the validity weight (1 or 0),
  the squared distance of the feature row to the centre row of the class (the class word, a negative one moved up by 13,
  read signed and clamped into [0, 12]) weighed by validity, and the bucket word cloud * 13 + class. Four accumulating
  scatters follow: the weighed distances and the weights per cloud (8 entries each), the weighed feature rows per bucket
  (104 rows of 64, read as an [8, 13, 64] array: entry (b, c, d) is column d of row 13 b + c) and the weights per
  bucket (104 entries, read as [8, 13]). An accumulating scatter at an entry is the sum of the updates whose index word,
  read signed, names that entry; the operand is zero. Everything after the four arrays is the shared closing function.
-/
import proofs.«412901_j12807592477411_3_alg».proof.Proof.RefRun
import proofs.«412901_j12807592477411_3_alg».proof.Proof.RefRead
import proofs.«412901_j12807592477411_3_alg».proof.Proof.Spec
import proofs.«412901_j12807592477411_3_alg».proof.Proof.Tail
import proofs.«412901_j12807592477411_3_alg».proof.Proof.LibVecScatter
import proofs.«412901_j12807592477411_3_alg».proof.Proof.LibRowScatter
import proofs.«412901_j12807592477411_3_alg».proof.Proof.LibRowGather

noncomputable section

open scoped BigOperators

namespace Cert.ReferenceIdeal.RefValue

open Cert.ReferenceIdeal Cert.ReferenceIdeal.Gen Idealize.ShloMosaic Idealize.ShloMosaic.ValueIdx Idealize.ShloMosaic.TcCoe Idealize.SL.Sem

/-! ## The closing stretch

From the four intermediate arrays on, the scattering program's operations are, one for one, those of the shared
closing function: unfolding both sides leaves the same term. -/

section Tail
variable {F : FTy → Type} [FloatOps F] [Cert.ReferenceIdeal.Facts] [Cert.KernelIdeal.Facts]

/-- The last stage is the closing function of the per-cloud distance sums, the per-cloud counts, the per-bucket feature
    sums and the per-bucket counts. -/
theorem tail_eq (x1 : (⟨S524288, .i32⟩ : BufTy).Contents (Elt F)) (x2 : (⟨S524288x64, .f32⟩ : BufTy).Contents (Elt F))
    (x3 : (⟨S524288, .i32⟩ : BufTy).Contents (Elt F)) (x4 : (⟨S13x64, .f32⟩ : BufTy).Contents (Elt F)) :
    Read.val_main_v95 (F := F) x1 x2 x3 x4
      = Cert.KernelIdeal.lossTail (F := F) (Read.val_main_v17 (F := F) x1 x2 x3 x4) (Read.val_main_v20 (F := F) x1 x3)
          (Read.val_main_v35 (F := F) x1 x2 x3) (Read.val_main_v39 (F := F) x1 x3) := by
  simp only [Read.val_main_v95, Read.val_main_v94, Read.val_main_v93, Read.val_main_v92, Read.val_main_v91, Read.val_main_v90,
    Read.val_main_v89, Read.val_main_v88, Read.val_main_v87, Read.val_main_v86, Read.val_main_v85, Read.val_main_v84,
    Read.val_main_v83, Read.val_main_v82, Read.val_main_v81, Read.val_main_v80, Read.val_main_v79, Read.val_main_v78,
    Read.val_main_v77, Read.val_main_v76, Read.val_main_v75, Read.val_main_v74, Read.val_main_v73, Read.val_main_v72,
    Read.val_main_v71, Read.val_main_v70, Read.val_main_v69, Read.val_main_v68, Read.val_main_v67, Read.val_main_v66,
    Read.val_main_v65, Read.val_main_v64, Read.val_main_v63, Read.val_main_v62, Read.val_main_v61, Read.val_main_v60,
    Read.val_main_v59, Read.val_main_v58, Read.val_main_v57, Read.val_main_v56, Read.val_main_v55, Read.val_main_v54,
    Read.val_main_v53, Read.val_main_v52, Read.val_main_v51, Read.val_main_v50, Read.val_main_v49, Read.val_main_v48,
    Read.val_main_v47, Read.val_main_v46, Read.val_main_v45, Read.val_main_v44, Read.val_main_v43, Read.val_main_v42,
    Read.val_main_v41, Read.val_main_v40, Read.val_main_v25, Read.val_main_v24, Read.val_main_v23, Read.val_main_v22,
    Read.val_main_v21,
    Read.val_main_cst_5, Read.val_main_cst_6, Read.val_main_cst_10, Read.val_main_cst_11, Read.val_main_cst_12,
    Read.val_main_c_13, Read.val_main_cst_14, Read.val_main_cst_15, Read.val_main_cst_16, Read.val_main_cst_17,
    Read.val_main_c_18, Read.val_main_cst_19, Read.val_main_c_20, Read.val_main_c_21, Read.val_main_c_22,
    Read.val_main_cst_23, Read.val_main_cst_24, Read.val_main_cst_25, Read.val_main_cst_26, Read.val_main_cst_27,
    Read.val_main_cst_28, Read.val_main_cst_29,
    Read.val_main_call1_v0, Read.val_main_call1_v1, Read.val_main_call2_v0, Read.val_main_call2_v1,
    Read.val_main_call3_v0, Read.val_main_call3_v1, Read.val_main_call4_v0, Read.val_main_call4_v1,
    Cert.KernelIdeal.lossTail, Cert.KernelIdeal.lossOf, Cert.KernelIdeal.interTerm, Cert.KernelIdeal.pairMask,
    Cert.KernelIdeal.pairDist2]

end Tail

/-! ## Words and weights at one row -/

section Rows
variable [Cert.ReferenceIdeal.Facts]

/-- A select on "a differs from b" is the `if`. -/
private theorem sel_ne {α : Type} (a b : BitVec 32) (p q : α) :
    Scalar.select (IntOp.cmpi .ne a b) p q = if a ≠ b then p else q := by
  by_cases h : a = b
  · subst h; simp [Scalar.select, IntOp.cmpi]
  · have hb : (a != b) = true := bne_iff_ne.mpr h
    simp [Scalar.select, IntOp.cmpi, hb, h]

/-- A select on "a is below b, signed" is the `if`. -/
private theorem sel_slt {α : Type} (a b : BitVec 32) (p q : α) :
    Scalar.select (IntOp.cmpi .slt a b) p q = if a.slt b then p else q := by
  cases h : a.slt b <;> simp [Scalar.select, IntOp.cmpi, h]

/-- The one-bit word "a differs from b", converted to a float, is 1 or 0. -/
private theorem uitofp_ne (a b : BitVec 32) :
    FloatOps.uitofp (F := Ideal) .f32 (IntOp.cmpi .ne a b) = if a ≠ b then (1 : EReal) else 0 := by
  by_cases h : a = b
  · subst h; show (((IntOp.cmpi .ne a a).toNat : ℝ) : EReal) = _; simp [IntOp.cmpi]
  · have hb : (a != b) = true := bne_iff_ne.mpr h
    show (((IntOp.cmpi .ne a b).toNat : ℝ) : EReal) = _; simp [IntOp.cmpi, hb, h]

variable (x1 x3 : (⟨S524288, .i32⟩ : BufTy).Contents (Elt Ideal)) (x2 : (⟨S524288x64, .f32⟩ : BufTy).Contents (Elt Ideal))
  (x4 : (⟨S13x64, .f32⟩ : BufTy).Contents (Elt Ideal))

/-- The validity weight of row e. -/
theorem v3_at (e : Fin 524288) : Read.val_main_v3 (F := Ideal) x1 (ix1 e) = Cert.Spec.vf x1 e := by
  rw [Read.val_main_v3_apply, Read.val_main_v1_apply, Read.val_main_v0_apply, Read.val_main_c_apply, uitofp_ne]
  rfl

/-- The class word of row e, the ignored label replaced by 0. -/
theorem v2_at (e : Fin 524288) : Read.val_main_v2 (F := Ideal) x1 (ix1 e) = Cert.Spec.tg x1 e := by
  rw [Read.val_main_v2_apply, Read.val_main_v1_apply, Read.val_main_v0_apply, Read.val_main_c_apply,
    Read.val_main_call0_v1_apply, Read.val_main_call0_v0_apply, Read.val_main_c_0_apply, sel_ne]
  rfl

/-- The cloud word of row e, as the first per-cloud scatter reads it. -/
theorem v16_at (e : Fin 524288) : Read.val_main_v16 (F := Ideal) x3 (ix2 e (0 : Fin 1)) = x3 (ix1 e) := by
  rw [Read.val_main_v16_apply]
  exact congrArg x3 (funext fun a => match a with | ⟨0, _⟩ => rfl)

/-- The cloud word of row e, as the second per-cloud scatter reads it. -/
theorem v19_at (e : Fin 524288) : Read.val_main_v19 (F := Ideal) x3 (ix2 e (0 : Fin 1)) = x3 (ix1 e) := by
  rw [Read.val_main_v19_apply]
  exact congrArg x3 (funext fun a => match a with | ⟨0, _⟩ => rfl)

/-- The start index of row e's centre: the class word, a negative one moved up by 13. -/
theorem v9_at (e : Fin 524288) : Read.val_main_v9 (F := Ideal) x1 (ix2 e (0 : Fin 1))
    = (if (Cert.Spec.tg x1 e).slt 0#32 then Cert.Spec.tg x1 e + 13#32 else Cert.Spec.tg x1 e) := by
  have h : Read.idx_main_v9 (ix2 e (0 : Fin 1)) = ix1 e := funext fun a => match a with | ⟨0, _⟩ => rfl
  rw [Read.val_main_v9_apply, h, Read.val_main_v8_apply, Read.val_main_v5_apply, Read.val_main_v7_apply, v2_at,
    Read.val_main_v4_apply, Read.val_main_c_1_apply, Read.val_main_v6_apply, Read.val_main_c_2_apply, sel_slt]
  rfl

/-- The gathered centre row of row e is the centre row of its clamped class. -/
theorem v10_at (e : Fin 524288) (q : Fin 64) :
    Read.val_main_v10 (F := Ideal) x1 x4 (ix2 e q) = x4 (ix2 (Cert.Spec.gi x1 e) q) := by
  unfold Read.val_main_v10
  refine (Cert.LibRowGather.gather_rows_apply (N := 13) (C := 64) (E := 524288) (by decide)
    Facts₀.gather_S13x64_S524288x1_S524288x64_1_0_n_n_0_1_164_wf x4 (Read.val_main_v9 (F := Ideal) x1) e q).trans ?_
  refine congrArg (fun k => x4 (ix2 k q)) (Fin.ext ?_)
  show min (Read.val_main_v9 (F := Ideal) x1 (ix2 e (0 : Fin 1))).toInt.toNat (13 - 1) = _
  rw [v9_at]
  rfl

/-- Row e's squared distance to its class centre, weighed by validity. -/
theorem v14_at (e : Fin 524288) : Read.val_main_v14 (F := Ideal) x1 x2 x4 (ix1 e) = Cert.Spec.d2 x1 x2 x4 e := by
  rw [Read.val_main_v14_apply, Ideal.mulf_def, v3_at, Read.val_main_v13_apply, Read.val_main_cst_apply, Ideal.ofBits_def,
    Ideal.ofBits_zero_f32, zero_add]
  unfold Cert.Spec.d2
  congr 1
  refine Finset.sum_congr rfl fun k _ => ?_
  have h : Read.idx_main_v13 (ix1 e) k = ix2 e k :=
    funext fun a => match a with | ⟨0, _⟩ => rfl | ⟨1, _⟩ => rfl
  rw [h, Read.val_main_v12_apply, Ideal.mulf_def, Read.val_main_v11_apply, Ideal.subf_def, v10_at]

/-- The bucket word of row e. -/
theorem v28_at (e : Fin 524288) : Read.val_main_v28 (F := Ideal) x1 x3 (ix1 e) = Cert.Spec.sgR x1 x3 e := by
  rw [Read.val_main_v28_apply, Read.val_main_v27_apply, Read.val_main_v26_apply, Read.val_main_c_7_apply, v2_at]
  rfl

/-- The bucket word of row e, as the scatter of rows reads it. -/
theorem v33_at (e : Fin 524288) : Read.val_main_v33 (F := Ideal) x1 x3 (ix2 e (0 : Fin 1)) = Cert.Spec.sgR x1 x3 e := by
  have h : Read.idx_main_v33 (ix2 e (0 : Fin 1)) = ix1 e := funext fun a => match a with | ⟨0, _⟩ => rfl
  rw [Read.val_main_v33_apply, h, v28_at]

/-- The bucket word of row e, as the scatter of weights reads it. -/
theorem v37_at (e : Fin 524288) : Read.val_main_v37 (F := Ideal) x1 x3 (ix2 e (0 : Fin 1)) = Cert.Spec.sgR x1 x3 e := by
  have h : Read.idx_main_v37 (ix2 e (0 : Fin 1)) = ix1 e := funext fun a => match a with | ⟨0, _⟩ => rfl
  rw [Read.val_main_v37_apply, h, v28_at]

/-- The weighed feature of row e in column q. -/
theorem v31_at (e : Fin 524288) (q : Fin 64) :
    Read.val_main_v31 (F := Ideal) x1 x2 (ix2 e q) = x2 (ix2 e q) * Cert.Spec.vf x1 e := by
  have h : Read.idx_main_v30 (ix2 e q) = ix2 e (0 : Fin 1) :=
    funext fun a => match a with | ⟨0, _⟩ => rfl | ⟨1, _⟩ => rfl
  have h' : Read.idx_main_v29 (ix2 e (0 : Fin 1)) = ix1 e := funext fun a => match a with | ⟨0, _⟩ => rfl
  rw [Read.val_main_v31_apply, Ideal.mulf_def, Read.val_main_v30_apply, h, Read.val_main_v29_apply, h', v3_at]

end Rows

/-! ## The four intermediate arrays, entry by entry -/

section Arrays
variable [Cert.ReferenceIdeal.Facts]
variable (x1 x3 : (⟨S524288, .i32⟩ : BufTy).Contents (Elt Ideal)) (x2 : (⟨S524288x64, .f32⟩ : BufTy).Contents (Elt Ideal))
  (x4 : (⟨S13x64, .f32⟩ : BufTy).Contents (Elt Ideal))

/-- The dimension numbers of the two per-cloud scatters are those of a vector scatter into 8 entries. -/
private theorem dims8 : scatter_S8_S524288x1_S524288_n_0_0_1
    = Cert.LibVecScatter.vecDims 8 524288 Facts₀.scatter_S8_S524288x1_S524288_n_0_0_1_wf := rfl

/-- The dimension numbers of the scatter of weights per bucket are those of a vector scatter into 104 entries. -/
private theorem dims104 : scatter_S104_S524288x1_S524288_n_0_0_1
    = Cert.LibVecScatter.vecDims 104 524288 Facts₀.scatter_S104_S524288x1_S524288_n_0_0_1_wf := rfl

/-- The dimension numbers of the scatter of feature rows are those of a scatter of rows into 104 rows of 64. -/
private theorem dimsRows : scatter_S104x64_S524288x1_S524288x64_1_0_0_1
    = Cert.LibRowScatter.rowDims 104 64 524288 Facts₀.scatter_S104x64_S524288x1_S524288x64_1_0_0_1_wf := rfl

/-- The per-cloud sums of weighed squared distances: entry b adds the rows whose cloud word reads b. -/
theorem sumb_eq : Read.val_main_v17 (F := Ideal) x1 x2 x3 x4 = Cert.Spec.arr1 (Cert.Spec.sumbR x1 x3 x2 x4) := by
  funext j
  obtain ⟨r, rfl⟩ : ∃ r : Fin 8, j = ix1 r := ⟨j 0, eq_ix1 j⟩
  unfold Read.val_main_v17 Host.scatterAdd Cert.Spec.arr1 Cert.Spec.sumbR
  rw [dims8, Ideal.hostScatterAdd_def, Cert.LibVecScatter.scatterAdd_vec_apply, Read.val_main_v15_apply,
    Read.val_main_cst_3_apply, Ideal.ofBits_def, Ideal.ofBits_zero_f32, zero_add]
  refine Finset.sum_congr (Finset.filter_congr fun e _ => ?_) (fun e _ => v14_at x1 x2 x4 e)
  exact Eq.to_iff (congrArg (fun w : BitVec 32 => w.toInt = ((r.val : Nat) : Int)) (v16_at x3 e))

/-- The per-cloud counts of valid rows. -/
theorem cntb_eq : Read.val_main_v20 (F := Ideal) x1 x3 = Cert.Spec.arr1 (Cert.Spec.cntbR x1 x3) := by
  funext j
  obtain ⟨r, rfl⟩ : ∃ r : Fin 8, j = ix1 r := ⟨j 0, eq_ix1 j⟩
  unfold Read.val_main_v20 Host.scatterAdd Cert.Spec.arr1 Cert.Spec.cntbR
  rw [dims8, Ideal.hostScatterAdd_def, Cert.LibVecScatter.scatterAdd_vec_apply, Read.val_main_v18_apply,
    Read.val_main_cst_4_apply, Ideal.ofBits_def, Ideal.ofBits_zero_f32, zero_add]
  refine Finset.sum_congr (Finset.filter_congr fun e _ => ?_) (fun e _ => v3_at x1 e)
  exact Eq.to_iff (congrArg (fun w : BitVec 32 => w.toInt = ((r.val : Nat) : Int)) (v19_at x3 e))

/-- The per-bucket sums of weighed feature rows: entry (b, c, d) is column d of row 13 b + c of the scatter of rows. -/
theorem fsum_eq : Read.val_main_v35 (F := Ideal) x1 x2 x3 = Cert.Spec.arr3 (Cert.Spec.fsumR x1 x3 x2) := by
  funext j
  obtain ⟨b, c, d, rfl⟩ : ∃ (b : Fin 8) (c : Fin 13) (d : Fin 64), j = ix3 b c d := ⟨j 0, j 1, j 2, eq_ix3 j⟩
  have hb := b.isLt
  have hc := c.isLt
  have hd := d.isLt
  have h : Read.idx_main_v35 (ix3 b c d) = ix2 (Cert.Spec.bkt b c) d :=
    funext fun a => match a with
      | ⟨0, _⟩ => Fin.ext (by show ((b.val * 13 + c.val) * 64 + d.val) / 64 = 13 * b.val + c.val; omega)
      | ⟨1, _⟩ => Fin.ext (by show ((b.val * 13 + c.val) * 64 + d.val) % 64 = d.val; omega)
  rw [Read.val_main_v35_apply, h]
  unfold Read.val_main_v34 Host.scatterAdd Cert.Spec.arr3 Cert.Spec.fsumR
  rw [dimsRows, Ideal.hostScatterAdd_def, Cert.LibRowScatter.scatterAdd_rows_apply, Read.val_main_v32_apply,
    Read.val_main_cst_8_apply, Ideal.ofBits_def, Ideal.ofBits_zero_f32, zero_add]
  refine Finset.sum_congr (Finset.filter_congr fun e _ => ?_) (fun e _ => v31_at x1 x2 e d)
  exact Eq.to_iff (congrArg (fun w : BitVec 32 => w.toInt = (((Cert.Spec.bkt b c).val : Nat) : Int)) (v33_at x1 x3 e))

/-- The per-bucket counts of valid rows: entry (b, c) is entry 13 b + c of the scatter of weights. -/
theorem ccnt_eq : Read.val_main_v39 (F := Ideal) x1 x3 = Cert.Spec.arr2 (Cert.Spec.ccntR x1 x3) := by
  funext j
  obtain ⟨b, c, rfl⟩ : ∃ (b : Fin 8) (c : Fin 13), j = ix2 b c := ⟨j 0, j 1, eq_ix2 j⟩
  have hb := b.isLt
  have hc := c.isLt
  have h : Read.idx_main_v39 (ix2 b c) = ix1 (Cert.Spec.bkt b c) :=
    funext fun a => match a with
      | ⟨0, _⟩ => Fin.ext (by show b.val * 13 + c.val = 13 * b.val + c.val; omega)
  rw [Read.val_main_v39_apply, h]
  unfold Read.val_main_v38 Host.scatterAdd Cert.Spec.arr2 Cert.Spec.ccntR
  rw [dims104, Ideal.hostScatterAdd_def, Cert.LibVecScatter.scatterAdd_vec_apply, Read.val_main_v36_apply,
    Read.val_main_cst_9_apply, Ideal.ofBits_def, Ideal.ofBits_zero_f32, zero_add]
  refine Finset.sum_congr (Finset.filter_congr fun e _ => ?_) (fun e _ => v3_at x1 e)
  exact Eq.to_iff (congrArg (fun w : BitVec 32 => w.toInt = (((Cert.Spec.bkt b c).val : Nat) : Int)) (v37_at x1 x3 e))

end Arrays

/-! ## The run -/

/-- Every weakly fair execution of the scattering program ends with its result at the closing function of the four
    arrays of the inputs, each read entry by entry over the extended reals, and with the arguments unchanged. -/
theorem ref_run [Cert.ReferenceIdeal.Facts] [Cert.KernelIdeal.Facts]
    (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v95)
        = Cert.KernelIdeal.lossTail (F := Ideal)
            (Cert.Spec.arr1 (Cert.Spec.sumbR (m ((c.tc : Thread nD τ).loc main_arg1)) (m ((c.tc : Thread nD τ).loc main_arg3))
              (m ((c.tc : Thread nD τ).loc main_arg2)) (m ((c.tc : Thread nD τ).loc main_arg4))))
            (Cert.Spec.arr1 (Cert.Spec.cntbR (m ((c.tc : Thread nD τ).loc main_arg1)) (m ((c.tc : Thread nD τ).loc main_arg3))))
            (Cert.Spec.arr3 (Cert.Spec.fsumR (m ((c.tc : Thread nD τ).loc main_arg1)) (m ((c.tc : Thread nD τ).loc main_arg3))
              (m ((c.tc : Thread nD τ).loc main_arg2))))
            (Cert.Spec.arr2 (Cert.Spec.ccntR (m ((c.tc : Thread nD τ).loc main_arg1)) (m ((c.tc : Thread nD τ).loc main_arg3))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run (Cert.ReferenceIdeal.defs (F := Ideal)) _ _).mono (fun r h c => ⟨(h c).1.trans ?_, (h c).2⟩)
    (Cert.ReferenceIdeal.Value.run (F := Ideal) m ρ)
  rw [Read.val_main_v95_eq, tail_eq, sumb_eq, cntb_eq, fsum_eq, ccnt_eq]

end Cert.ReferenceIdeal.RefValue

end
-- ==== Proof.RowFacts.lean ====
/-
  Row facts on 32-bit words.

  For a row with class word t (signed reading in [-1, 13)) and cloud word b (signed reading in [0, 8)):
  the class word with -1 replaced by 0 reads, signed or unsigned, as a number gamma < 13, it is not negative, and
  clamping it into [0, 12] changes nothing; the bucket word b * 13 + class is at most 7 * 13 + 12 = 103, so the word
  arithmetic does not wrap and its signed reading is 13 * beta + gamma; the marked bucket word is that word for a valid
  row and the word -1 = 4294967295 otherwise, which is none of the words 0 .. 103.
-/
import proofs.«412901_j12807592477411_3_alg».proof.Proof.Spec

namespace Cert.Spec

open Idealize.ShloMosaic Idealize.ShloMosaic.ValueIdx

/-- The signed reading of a 32-bit word is its unsigned reading below 2^31 and that less 2^32 from 2^31 on. -/
private theorem toInt_cases (x : BitVec 32) :
    (x.toNat < 2147483648 ∧ x.toInt = (x.toNat : Int)) ∨
    (2147483648 ≤ x.toNat ∧ x.toInt = (x.toNat : Int) - 4294967296) := by
  rw [BitVec.toInt_eq_toNat_cond]
  have := x.isLt
  split <;> omega

/-- The four facts, on two words and the class word w = (t unless t is -1, then 0). -/
private theorem word_facts (t b : BitVec 32)
    (ht : -1 ≤ t.toInt ∧ t.toInt < 13) (hb : 0 ≤ b.toInt ∧ b.toInt < 8)
    (w : BitVec 32) (hw : w = if t ≠ 4294967295#32 then t else 0#32) :
    ∃ (β : Fin 8) (γ : Fin 13),
      b.toInt = (β.val : Int) ∧
      min (if w.slt 0#32 then w + 13#32 else w).toInt.toNat 12 = γ.val ∧
      (∀ bc : Fin 104, (b * 13#32 + w).toInt = (bc.val : Int) ↔ 13 * β.val + γ.val = bc.val) ∧
      (∀ bc : Fin 104, (if t ≠ 4294967295#32 then b * 13#32 + w else 4294967295#32) = BitVec.ofNat 32 bc.val ↔
        (t ≠ 4294967295#32 ∧ 13 * β.val + γ.val = bc.val)) := by
  -- the cloud word reads unsigned as a number below 8
  have hbn : b.toNat < 8 ∧ b.toInt = (b.toNat : Int) := by
    rcases toInt_cases b with h | h <;> omega
  -- the class word is either below 13 or the word -1
  have htn : (t.toNat < 13 ∧ t ≠ 4294967295#32) ∨ t = 4294967295#32 := by
    rcases toInt_cases t with h | h
    · left
      refine ⟨by omega, ?_⟩
      intro e
      rw [e] at h
      simp at h
    · right
      apply BitVec.eq_of_toNat_eq
      have := t.isLt
      simp
      omega
  -- so w reads unsigned as a number below 13, and is t itself on a valid row
  have hwn : w.toNat < 13 ∧ (t ≠ 4294967295#32 → w = t) := by
    rcases htn with ⟨h1, h2⟩ | h
    · rw [if_pos h2] at hw
      subst hw
      exact ⟨h1, fun _ => rfl⟩
    · subst h
      simp at hw
      subst hw
      simp
  have hwi : w.toInt = (w.toNat : Int) := by
    rcases toInt_cases w with h | h <;> omega
  have hslt : w.slt 0#32 = false := by
    simp [BitVec.slt, hwi]
  -- the bucket word does not wrap
  have hs : (b * 13#32 + w).toNat = 13 * b.toNat + w.toNat := by
    simp only [BitVec.toNat_add, BitVec.toNat_mul, BitVec.toNat_ofNat]
    omega
  have hsi : (b * 13#32 + w).toInt = ((13 * b.toNat + w.toNat : Nat) : Int) := by
    rcases toInt_cases (b * 13#32 + w) with h | h <;> omega
  refine ⟨⟨b.toNat, hbn.1⟩, ⟨w.toNat, hwn.1⟩, hbn.2, ?_, ?_, ?_⟩
  · rw [hslt, if_neg Bool.false_ne_true, hwi, Int.toNat_natCast]
    show min w.toNat 12 = w.toNat
    omega
  · intro bc
    show (b * 13#32 + w).toInt = (bc.val : Int) ↔ 13 * b.toNat + w.toNat = bc.val
    rw [hsi]
    omega
  · intro bc
    show _ ↔ (t ≠ 4294967295#32 ∧ 13 * b.toNat + w.toNat = bc.val)
    have hbc := bc.isLt
    rcases htn with ⟨_, h2⟩ | h
    · rw [if_pos h2]
      constructor
      · intro e
        refine ⟨h2, ?_⟩
        have := congrArg BitVec.toNat e
        rw [hs, BitVec.toNat_ofNat] at this
        omega
      · rintro ⟨_, e⟩
        apply BitVec.eq_of_toNat_eq
        rw [hs, BitVec.toNat_ofNat]
        omega
    · subst h
      rw [if_neg (by simp)]
      constructor
      · intro e
        exfalso
        have := congrArg BitVec.toNat e
        rw [BitVec.toNat_ofNat] at this
        simp at this
        omega
      · rintro ⟨h, _⟩
        exact absurd rfl h

/-- The row facts: cloud beta and class gamma of row n, and what the two bucket words are in terms of them. -/
theorem row_facts (tgt bat : IVec SN 32)
    (htgt : ∀ n : Fin 524288, -1 ≤ (tgt (ix1 n)).toInt ∧ (tgt (ix1 n)).toInt < 13)
    (hbat : ∀ n : Fin 524288, 0 ≤ (bat (ix1 n)).toInt ∧ (bat (ix1 n)).toInt < 8) (n : Fin 524288) :
    ∃ (β : Fin 8) (γ : Fin 13),
      (bat (ix1 n)).toInt = (β.val : Int) ∧ gi tgt n = γ ∧
      (∀ bc : Fin 104, (sgR tgt bat n).toInt = (bc.val : Int) ↔ 13 * β.val + γ.val = bc.val) ∧
      (∀ bc : Fin 104, sgK tgt bat n = BitVec.ofNat 32 bc.val ↔ (tgt (ix1 n) ≠ 4294967295#32 ∧ 13 * β.val + γ.val = bc.val)) := by
  obtain ⟨β, γ, h1, h2, h3, h4⟩ :=
    word_facts (tgt (ix1 n)) (bat (ix1 n)) (htgt n) (hbat n) (tg tgt n) rfl
  exact ⟨β, γ, h1, Fin.ext h2, h3, h4⟩

end Cert.Spec
-- ==== Proof.Algebra.lean ====
/-
  The four per-cloud and per-bucket arrays agree once each row is known to carry a cloud number, a class number and
  a bucket word that is their combination.  Every sum is finite; the three linear arrays agree term by term, and the
  squared-distance array agrees by the expansion of a square, which is an identity of real numbers.
-/
import proofs.«412901_j12807592477411_3_alg».proof.Proof.Spec
import Mathlib.Algebra.BigOperators.Group.Finset.Basic
import Mathlib.Algebra.BigOperators.Group.Finset.Piecewise
import Mathlib.Algebra.BigOperators.Group.Finset.Sigma
import Mathlib.Algebra.BigOperators.Ring.Finset
import Mathlib.Data.EReal.Operations
import Mathlib.Tactic.Ring

noncomputable section

open scoped BigOperators

namespace Cert.Spec

open Idealize.ShloMosaic Idealize.ShloMosaic.ValueIdx

/-! ## Sums over an abstract row type -/

section Abstract

variable {ι B C D : Type} [Fintype ι] [DecidableEq B] [DecidableEq C] [Fintype C] [Fintype D]

/-- The embedding of the reals into the extended reals commutes with finite sums. -/
theorem coe_finsum {α : Type} (s : Finset α) (r : α → ℝ) :
    ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

theorem coe_two_ereal : ((2 : ℝ) : EReal) = 2 := rfl

/-- A sum over all rows of an indicator of (p and q) times x is the sum over the rows with q of x times the indicator of p.
In the extended reals 0 * x = 0 = x * 0 and 1 * x = x = x * 1 hold for every x. -/
theorem sum_mask_eq_filter (p q : ι → Prop) [DecidablePred p] [DecidablePred q] (x : ι → EReal) :
    ∑ n, (if p n ∧ q n then (1 : EReal) else 0) * x n
      = ∑ n ∈ Finset.univ.filter q, x n * (if p n then (1 : EReal) else 0) := by
  rw [Finset.sum_filter]
  refine Finset.sum_congr rfl fun n _ => ?_
  by_cases hp : p n <;> by_cases hq : q n <;> simp [hp, hq]

/-- Summing over the classes c the rows of cloud b and class c is summing the rows of cloud b, each met at its own class. -/
theorem sum_classes {M : Type} [AddCommMonoid M] (β : ι → B) (γ : ι → C) (b : B) (y : ι → C → M) :
    ∑ c, ∑ n ∈ Finset.univ.filter (fun n => β n = b ∧ γ n = c), y n c
      = ∑ n ∈ Finset.univ.filter (fun n => β n = b), y n (γ n) := by
  simp only [Finset.sum_filter]
  rw [Finset.sum_comm]
  refine Finset.sum_congr rfl fun n _ => ?_
  by_cases hb : β n = b
  · simp only [hb, true_and, if_true]
    rw [Finset.sum_ite_eq]
    simp
  · simp [hb]

/-- Expansion of the square, summed over a set of weighted rows: over the reals. -/
theorem real_expand (s : Finset ι) (w : ι → ℝ) (f : ι → D → ℝ) (g : D → ℝ) :
    ((∑ n ∈ s, (∑ d, f n d * f n d) * w n
        + ∑ n ∈ s, ((∑ d, f n d * f n d) - (∑ d, f n d * f n d)) * w n)
      - 2 * ∑ d, g d * ∑ n ∈ s, f n d * w n) + (∑ n ∈ s, 1 * w n) * ∑ d, g d * g d
    = ∑ n ∈ s, (∑ d, (f n d - g d) * (f n d - g d)) * w n := by
  have h1 : ∀ n, (∑ d, (f n d - g d) * (f n d - g d))
      = ((∑ d, f n d * f n d) - 2 * (∑ d, g d * f n d)) + ∑ d, g d * g d := by
    intro n
    rw [Finset.mul_sum, ← Finset.sum_sub_distrib, ← Finset.sum_add_distrib]
    exact Finset.sum_congr rfl fun d _ => by ring
  have h2 : ∑ d, g d * ∑ n ∈ s, f n d * w n = ∑ n ∈ s, (∑ d, g d * f n d) * w n := by
    simp only [Finset.mul_sum, Finset.sum_mul]
    rw [Finset.sum_comm]
    exact Finset.sum_congr rfl fun n _ => Finset.sum_congr rfl fun d _ => by ring
  simp only [h1, h2, sub_self, zero_mul, Finset.sum_const_zero, add_zero, one_mul]
  rw [Finset.sum_mul, Finset.mul_sum, ← Finset.sum_sub_distrib, ← Finset.sum_add_distrib]
  exact Finset.sum_congr rfl fun n _ => by ring

/-- The same expansion over the extended reals, for finite entries and finite weights. -/
theorem ereal_expand (s : Finset ι) (W : ι → EReal) (F : ι → D → EReal) (G : D → EReal)
    (hW : ∀ n, ∃ x : ℝ, W n = (x : EReal)) (hF : ∀ n d, ∃ x : ℝ, F n d = (x : EReal))
    (hG : ∀ d, ∃ x : ℝ, G d = (x : EReal)) :
    ((∑ n ∈ s, (∑ d, F n d * F n d) * W n
        + ∑ n ∈ s, ((∑ d, F n d * F n d) - (∑ d, F n d * F n d)) * W n)
      - (2 : EReal) * ∑ d, G d * ∑ n ∈ s, F n d * W n) + (∑ n ∈ s, 1 * W n) * ∑ d, G d * G d
    = ∑ n ∈ s, (∑ d, (F n d - G d) * (F n d - G d)) * W n := by
  choose w hw using hW
  choose f hf using hF
  choose g hg using hG
  have h := congrArg (fun r : ℝ => (r : EReal)) (real_expand s w f g)
  simp only [EReal.coe_add, EReal.coe_sub, EReal.coe_mul, coe_finsum, EReal.coe_one, coe_two_ereal] at h
  simpa only [hw, hf, hg] using h

end Abstract

/-! ## The columns of the accumulated table -/

section Columns

variable (feat : SNx64.Idx → EReal)

theorem rhs_feat (n : Fin 524288) (d : Fin 64) : rhs feat n ⟨d.val, by omega⟩ = feat (ix2 n d) := by
  unfold rhs
  exact dif_pos d.isLt

theorem rhs_one (n : Fin 524288) : rhs feat n ⟨64, by omega⟩ = 1 := by
  simp [rhs]

theorem rhs_ssq (n : Fin 524288) : rhs feat n ⟨65, by omega⟩ = ssq feat n := by
  simp [rhs]

theorem rhs_diff (n : Fin 524288) : rhs feat n ⟨66, by omega⟩ = ssq feat n - ssq feat n := by
  simp [rhs]

end Columns

/-- A cloud number below 8 and a class number below 13 are recovered from 13 * cloud + class. -/
theorem bucket_iff (β b : Fin 8) (γ c : Fin 13) :
    13 * β.val + γ.val = (bkt b c).val ↔ (β = b ∧ γ = c) := by
  constructor
  · intro h
    have h' : 13 * β.val + γ.val = 13 * b.val + c.val := h
    have h1 := β.isLt
    have h2 := γ.isLt
    have h3 := b.isLt
    have h4 := c.isLt
    exact ⟨Fin.ext (by omega), Fin.ext (by omega)⟩
  · rintro ⟨rfl, rfl⟩
    rfl

/-! ## The accumulated table as sums over the rows of one bucket -/

section Table

variable (tgt bat : IVec SN 32) (feat : SNx64.Idx → EReal) (cen : SCx64.Idx → EReal)
variable (β : Fin 524288 → Fin 8) (γ : Fin 524288 → Fin 13)

/-- Entry (bucket of (b, c), k) of the table is the sum, over the rows of cloud b and class c, of column k weighed by validity. -/
theorem accK_eq
    (hK : ∀ (n : Fin 524288) (bc : Fin 104), sgK tgt bat n = BitVec.ofNat 32 bc.val ↔
      (tgt (ix1 n) ≠ 4294967295#32 ∧ 13 * (β n).val + (γ n).val = bc.val))
    (b : Fin 8) (c : Fin 13) (k : Fin 67) :
    accK tgt bat feat (bkt b c) k
      = ∑ n ∈ Finset.univ.filter (fun n => β n = b ∧ γ n = c), rhs feat n k * vf tgt n := by
  have h := sum_mask_eq_filter (fun n : Fin 524288 => tgt (ix1 n) ≠ 4294967295#32)
    (fun n => β n = b ∧ γ n = c) (fun n => rhs feat n k)
  unfold accK vf
  refine Eq.trans ?_ h
  refine Finset.sum_congr rfl fun n _ => ?_
  have key : sgK tgt bat n = BitVec.ofNat 32 (bkt b c).val ↔
      (tgt (ix1 n) ≠ 4294967295#32 ∧ (β n = b ∧ γ n = c)) := by
    rw [hK n (bkt b c), bucket_iff]
  rw [if_congr key rfl rfl]

end Table

/-! ## The four arrays -/

theorem arrays_eq_of_rows (tgt bat : IVec SN 32) (feat : SNx64.Idx → EReal) (cen : SCx64.Idx → EReal)
    (hfeat : ∀ i, ∃ x : ℝ, feat i = (x : EReal)) (hcen : ∀ i, ∃ x : ℝ, cen i = (x : EReal))
    (hrow : ∀ n : Fin 524288, ∃ (β : Fin 8) (γ : Fin 13),
      (bat (ix1 n)).toInt = (β.val : Int) ∧ gi tgt n = γ ∧
      (∀ bc : Fin 104, (sgR tgt bat n).toInt = (bc.val : Int) ↔ 13 * β.val + γ.val = bc.val) ∧
      (∀ bc : Fin 104, sgK tgt bat n = BitVec.ofNat 32 bc.val ↔ (tgt (ix1 n) ≠ 4294967295#32 ∧ 13 * β.val + γ.val = bc.val))) :
    (∀ b, sumbK tgt bat feat cen b = sumbR tgt bat feat cen b) ∧ (∀ b, cntbK tgt bat feat b = cntbR tgt bat b) ∧
    (∀ b c d, fsumK tgt bat feat b c d = fsumR tgt bat feat b c d) ∧ (∀ b c, ccntK tgt bat feat b c = ccntR tgt bat b c) := by
  choose β γ hβ hγ hR hK using hrow
  -- the two row filters of the scattering side, in terms of the cloud and class numbers
  have hbat : ∀ b : Fin 8,
      Finset.univ.filter (fun n : Fin 524288 => (bat (ix1 n)).toInt = (b.val : Int))
        = Finset.univ.filter (fun n => β n = b) := by
    intro b
    refine Finset.filter_congr fun n _ => ?_
    rw [hβ n]
    constructor
    · intro h
      exact Fin.ext (by omega)
    · rintro rfl
      rfl
  have hsg : ∀ (b : Fin 8) (c : Fin 13),
      Finset.univ.filter (fun n : Fin 524288 => (sgR tgt bat n).toInt = ((bkt b c).val : Int))
        = Finset.univ.filter (fun n => β n = b ∧ γ n = c) := by
    intro b c
    refine Finset.filter_congr fun n _ => ?_
    rw [hR n (bkt b c), bucket_iff]
  have hacc := accK_eq tgt bat feat β γ hK
  -- the validity weight is 0 or 1
  have hvf : ∀ n, ∃ x : ℝ, vf tgt n = (x : EReal) := by
    intro n
    unfold vf
    by_cases hv : tgt (ix1 n) ≠ 4294967295#32
    · exact ⟨1, by rw [if_pos hv]; rfl⟩
    · exact ⟨0, by rw [if_neg hv]; rfl⟩
  -- counts per bucket
  have hccnt : ∀ b c, ccntK tgt bat feat b c
      = ∑ n ∈ Finset.univ.filter (fun n => β n = b ∧ γ n = c), vf tgt n := by
    intro b c
    unfold ccntK
    rw [hacc]
    exact Finset.sum_congr rfl fun n _ => by rw [rhs_one, one_mul]
  -- squared distances per bucket
  have hd2 : ∀ b c, d2sumK tgt bat feat cen b c
      = ∑ n ∈ Finset.univ.filter (fun n => β n = b ∧ γ n = c),
          (∑ d : Fin 64, (feat (ix2 n d) - cen (ix2 c d)) * (feat (ix2 n d) - cen (ix2 c d))) * vf tgt n := by
    intro b c
    have hE := ereal_expand (Finset.univ.filter (fun n => β n = b ∧ γ n = c)) (vf tgt)
      (fun n (d : Fin 64) => feat (ix2 n d)) (fun d : Fin 64 => cen (ix2 c d))
      hvf (fun n d => hfeat (ix2 n d)) (fun d => hcen (ix2 c d))
    rw [← hE]
    unfold d2sumK ssqK cdotK ccntK cnsq fsumK
    simp only [hacc, rhs_feat, rhs_one, rhs_ssq, rhs_diff]
    rfl
  refine ⟨?_, ?_, ?_, ?_⟩
  · intro b
    unfold sumbK sumbR
    rw [hbat b]
    simp only [hd2]
    rw [sum_classes β γ b
      (fun n c => (∑ d : Fin 64, (feat (ix2 n d) - cen (ix2 c d)) * (feat (ix2 n d) - cen (ix2 c d))) * vf tgt n)]
    refine Finset.sum_congr rfl fun n _ => ?_
    unfold d2
    rw [hγ n]
  · intro b
    unfold cntbK cntbR
    rw [hbat b]
    simp only [hccnt]
    exact sum_classes β γ b (fun n _ => vf tgt n)
  · intro b c d
    unfold fsumK fsumR
    rw [hacc, hsg]
    exact Finset.sum_congr rfl fun n _ => by rw [rhs_feat]
  · intro b c
    rw [hccnt]
    unfold ccntR
    rw [hsg]

end Cert.Spec

end
-- ==== Proof.Bridge.lean ====
/-
  The four intermediate arrays of the two programs agree: the word arithmetic of every row (its cloud, its class, its
  bucket, whether the accumulating program's marked bucket word matches a bucket number) joined with the sums' algebra.
-/
import proofs.«412901_j12807592477411_3_alg».proof.Proof.RowFacts
import proofs.«412901_j12807592477411_3_alg».proof.Proof.Algebra

noncomputable section

namespace Cert.Spec

open Idealize.ShloMosaic Idealize.ShloMosaic.ValueIdx

/-- On finite features and centres, class words in [-1, 13) and cloud words in [0, 8): the per-cloud sums of squared
    distances, the per-cloud counts, the per-bucket feature sums and the per-bucket counts of the two sides agree. -/
theorem arrays_eq (tgt bat : IVec SN 32) (feat : SNx64.Idx → EReal) (cen : SCx64.Idx → EReal)
    (hfeat : ∀ i, ∃ x : ℝ, feat i = (x : EReal)) (hcen : ∀ i, ∃ x : ℝ, cen i = (x : EReal))
    (htgt : ∀ n : Fin 524288, -1 ≤ (tgt (ix1 n)).toInt ∧ (tgt (ix1 n)).toInt < 13)
    (hbat : ∀ n : Fin 524288, 0 ≤ (bat (ix1 n)).toInt ∧ (bat (ix1 n)).toInt < 8) :
    (∀ b, sumbK tgt bat feat cen b = sumbR tgt bat feat cen b) ∧ (∀ b, cntbK tgt bat feat b = cntbR tgt bat b) ∧
    (∀ b c d, fsumK tgt bat feat b c d = fsumR tgt bat feat b c d) ∧ (∀ b c, ccntK tgt bat feat b c = ccntR tgt bat b c) :=
  arrays_eq_of_rows tgt bat feat cen hfeat hcen (fun n => row_facts tgt bat htgt hbat n)

end Cert.Spec

end
-- ==== Proof.PreDecode.lean ====
/-
  The precondition read back. The predicate is the conjunction of five all-reductions by "and", from the constant 1,
  of elementwise tests: |x| < +∞ for each entry of the three real arrays, -1 ≤ t < 13 for each class word and
  0 ≤ b < 8 for each cloud word (signed). A conjunction of bits is 1 exactly when each bit is; an all-reduction by
  "and" that is 1 had a 1 at every index; an extended real whose absolute value max x (-x) is strictly below +∞ is
  neither infinity, hence a real number; and a signed comparison bit that is 1 is the order of the words' signed values.
-/
import proofs.«412901_j12807592477411_3_alg».proof.Pre_finite_inputs
import Idealize.ShloMosaic.PureOps.Ideal.Laws
import Idealize.ShloMosaic.Lib.ValueIdx
import Idealize.ShloMosaic.Lib.ReduceAll

noncomputable section

namespace Cert.PreDecode

open Idealize.ShloMosaic Idealize.ShloMosaic.ValueIdx Cert.Pre_finite_inputs

/-- The rank-0 shape has one index. -/
instance : Subsingleton S_.Idx := ⟨fun _ _ => funext fun d => d.elim0⟩

/-- The pattern 0x7F800000 denotes +∞. -/
theorem inf_bits : Ideal.ofBits .f32 0x7F800000#32 = (⊤ : EReal) := by
  simp [Ideal.ofBits, Ideal.ieee]

/-- If max x (-x) < +∞ then x is a real number: at x = +∞ the maximum is +∞, and at x = -∞ it is -(-∞) = +∞. -/
theorem real_of_abs_lt (x : EReal)
    (h : Ideal.cmp .olt (max x (-x)) (Ideal.ofBits .f32 0x7F800000#32) = 1#1) : ∃ r : ℝ, x = (r : EReal) := by
  rw [inf_bits] at h
  induction x using EReal.rec with
  | bot => simp [Ideal.cmp] at h
  | coe r => exact ⟨r, rfl⟩
  | top => simp [Ideal.cmp] at h

/-- A word that passes "w ≥ lo and w < hi" (signed) has its signed value in [lo, hi). -/
theorem word_range (w lo hi : BitVec 32) (h : IntOp.andi (IntOp.cmpi .sge w lo) (IntOp.cmpi .slt w hi) = 1#1) :
    lo.toInt ≤ w.toInt ∧ w.toInt < hi.toInt := by
  obtain ⟨h1, h2⟩ := IntOp.andi_eq_one.1 h
  exact ⟨IntOp.cmpi_sge.1 h1, IntOp.cmpi_slt.1 h2⟩

theorem pre_decode [Cert.Pre_finite_inputs.Facts]
    (a0 : FVec Ideal S524288x13 .f32) (a1 : IVec S524288 32) (a2 : FVec Ideal S524288x64 .f32) (a3 : IVec S524288 32) (a4 : FVec Ideal S13x64 .f32)
    (h : Cert.Pre_finite_inputs.fn (F := Ideal) a0 a1 a2 a3 a4 = fun _ => 1#1) :
    (∀ i, ∃ x : ℝ, a2 i = (x : EReal)) ∧ (∀ i, ∃ x : ℝ, a4 i = (x : EReal)) ∧
    (∀ n : Fin 524288, -1 ≤ (a1 (ix1 n)).toInt ∧ (a1 (ix1 n)).toInt < 13) ∧
    (∀ n : Fin 524288, 0 ≤ (a3 (ix1 n)).toInt ∧ (a3 (ix1 n)).toInt < 8) := by
  -- the predicate's one bit, split into its five conjuncts (the first, on the array the claim does not name, is dropped)
  have e := congrFun h ix0
  obtain ⟨e, e3⟩ := IntOp.andi_eq_one.1 e
  obtain ⟨e, e1⟩ := IntOp.andi_eq_one.1 e
  obtain ⟨e, e4⟩ := IntOp.andi_eq_one.1 e
  obtain ⟨-, e2⟩ := IntOp.andi_eq_one.1 e
  have hm1 : (4294967295#32 : BitVec 32).toInt = -1 := by decide
  have h13 : (13#32 : BitVec 32).toInt = 13 := by decide
  have h0 : (0#32 : BitVec 32).toInt = 0 := by decide
  have h8 : (8#32 : BitVec 32).toInt = 8 := by decide
  refine ⟨fun i => real_of_abs_lt (a2 i) (Host.reduce_andi_all _ _ _ _ _ e2 i),
    fun i => real_of_abs_lt (a4 i) (Host.reduce_andi_all _ _ _ _ _ e4 i), fun n => ?_, fun n => ?_⟩
  · have r := word_range (a1 (ix1 n)) 4294967295#32 13#32 (Host.reduce_andi_all _ _ _ _ _ e1 (ix1 n))
    rwa [hm1, h13] at r
  · have r := word_range (a3 (ix1 n)) 0#32 8#32 (Host.reduce_andi_all _ _ _ _ _ e3 (ix1 n))
    rwa [h0, h8] at r

end Cert.PreDecode

end
-- ==== Proof.lean ====
/-
  The certificate. Both programs compute a centre loss over 524288 points in 8 clouds and 13 classes: per cloud the mean
  squared distance of its valid points to their class centres, plus a hinge on the pairwise distances of the cloud's class
  means, averaged over the clouds that have a valid point and scaled by 0.01. The reference scatters per-point quantities
  into per-cloud and per-bucket sums. The kernel streams the points once, summing per bucket (cloud * 13 + class) the
  feature rows, a count and the squared norms by a one-hot matrix product, and recovers the squared distances on the host
  from |f - c|^2 = |f|^2 - 2 c.f + |c|^2. The two agree on finite inputs whose class words lie in [-1, 13) and whose cloud
  words lie in [0, 8): exactly where the reference's own gather and scatters index inside their arrays.
  The three frames: the kernel program (at both instances) by the pipeline's frame theorem with its host lines before and
  after the region; the reference by its run. The one rewrite of the ideal pass (a bf16 round trip of the squared norms
  removed) is its rule's statement.
-/
import proofs.«412901_j12807592477411_3_alg».proof.Defs
import proofs.«412901_j12807592477411_3_alg».proof.Proof.Gen.Kernel
import proofs.«412901_j12807592477411_3_alg».proof.Proof.Gen.KernelIdeal
import proofs.«412901_j12807592477411_3_alg».proof.Proof.Gen.ReferenceIdeal
import proofs.«412901_j12807592477411_3_alg».proof.Proof.Gen.Pre_finite_inputs
import proofs.«412901_j12807592477411_3_alg».proof.Proof.BFrame
import proofs.«412901_j12807592477411_3_alg».proof.Proof.KValue
import proofs.«412901_j12807592477411_3_alg».proof.Proof.RefValue
import proofs.«412901_j12807592477411_3_alg».proof.Proof.Bridge
import proofs.«412901_j12807592477411_3_alg».proof.Proof.PreDecode
import Idealize.ShloMosaic.Adequacy
import Idealize.ShloMosaic.Init

noncomputable section

namespace Cert.Proof

open Idealize.ShloMosaic Idealize.SL.Sem

/-- The word-level kernel program runs to the end, faults nowhere and leaves its arguments as they were. -/
theorem frame_p : Cert.frame_Kernel := fun m ρ _ => Cert.Kernel.Fr.frame (F := Bits) m ρ
/-- The same for the idealized kernel program. -/
theorem frame_pi : Cert.frame_KernelIdeal := fun m ρ _ => Cert.KernelIdeal.Fr.frame (F := Ideal) m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass removed one round trip through bf16 (of the rows' squared norms): at the exact instance a change of
    format is the identity. -/
theorem preserves : Cert.preserves_Kernel_KernelIdeal := IdealRules.truncf_extf.statement _ .f32 .bf16

/-- The two idealized programs end with equal results: both results are the shared closing function of four intermediate
    arrays, and the arrays agree under the precondition. -/
theorem algebraic : Cert.algebraic_KernelIdeal_ReferenceIdeal := by
  intro m ρ m' ρ' hpre hagree
  refine ⟨_, Cert.KernelIdeal.KVal.kernel_run m ρ, ?_⟩
  refine (θ_run Cert.ReferenceIdeal.defs _ _).mono (fun r h c => ⟨(h c).1.trans ?_, (h c).2⟩)
    (Cert.ReferenceIdeal.RefValue.ref_run m' ρ')
  obtain ⟨-, h1, h2, h3, h4⟩ := hagree c
  rw [h1, h2, h3, h4]
  obtain ⟨hfeat, hcen, htgt, hbat⟩ := Cert.PreDecode.pre_decode _ _ _ _ _ (hpre c)
  obtain ⟨e1, e2, e3, e4⟩ := Cert.Spec.arrays_eq _ _ _ _ hfeat hcen htgt hbat
  have f1 := funext fun b => (e1 b).symm
  have f2 := funext fun b => (e2 b).symm
  have f3 := funext fun b => funext fun c' => funext fun d => (e3 b c' d).symm
  have f4 := funext fun b => funext fun c' => (e4 b c').symm
  rw [f1, f2, f3, f4]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
